-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S10000x128 : Shape := ⟨2, ![10000, 128]⟩
abbrev S3x10000 : Shape := ⟨2, ![3, 10000]⟩
abbrev S16384 : Shape := ⟨1, ![16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S3x10000 : S_.BroadcastsInDim S3x10000 (![] : Fin 0 → Fin S3x10000.rank)
  reducesTo_S3x10000_S_d0_1 : S3x10000.ReducesTo [0, 1] S_

variable [Facts]

def fn {F : FTy → Type} [FloatOps F] (main_arg0 : FVec F S16384x128 .f32) (main_arg1 : FVec F S10000x128 .f32) (main_arg2 : FVec F S3x10000 .f32) (main_arg3 : IVec S16384 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S3x10000 .f32 := Host.absf main_arg2
  let main_cst_2 : FVec F S_ .f32 := constant S_ .f32 0x7F800000#32
  let main_v10 : FVec F S3x10000 .f32 := broadcastInDim S3x10000 ![] bcast_S_S3x10000 main_cst_2
  let main_v11 : IVec S3x10000 1 := cmpf .olt main_v9 main_v10
  let main_c_3 : IVec S_ 1 := constantI S_ 1 1#1
  let main_v12 : IVec S_ 1 := (fun x v => Host.reduce IntOp.andi x v reducesTo_S3x10000_S_d0_1 h_S_) main_v11 main_c_3
  let main_v13 : IVec S_ 1 := andi main_v8 main_v12
  main_v13
-- ==== Kernel.lean ====
abbrev S16384x128 : Shape := ⟨2, ![16384, 128]⟩
abbrev S10000x128 : Shape := ⟨2, ![10000, 128]⟩
abbrev S3x10000 : Shape := ⟨2, ![3, 10000]⟩
abbrev S16384 : Shape := ⟨1, ![16384]⟩
abbrev S16384x1 : Shape := ⟨2, ![16384, 1]⟩
abbrev S1x3 : Shape := ⟨2, ![1, 3]⟩
abbrev S16384x3 : Shape := ⟨2, ![16384, 3]⟩
abbrev S128x10000 : Shape := ⟨2, ![128, 10000]⟩
abbrev S_ : Shape := ⟨0, ![]⟩
abbrev S128x10240 : Shape := ⟨2, ![128, 10240]⟩
abbrev S2x3x10240 : Shape := ⟨3, ![2, 3, 10240]⟩
abbrev S512x128 : Shape := ⟨2, ![512, 128]⟩
abbrev S128x1280 : Shape := ⟨2, ![128, 1280]⟩
abbrev S512x3 : Shape := ⟨2, ![512, 3]⟩
abbrev S1x3x1280 : Shape := ⟨3, ![1, 3, 1280]⟩
abbrev S3x1280 : Shape := ⟨2, ![3, 1280]⟩
abbrev S512x1280 : Shape := ⟨2, ![512, 1280]⟩
abbrev S3x10240 : Shape := ⟨2, ![3, 10240]⟩
abbrev S3 : Shape := ⟨1, ![3]⟩
abbrev S3x1 : Shape := ⟨2, ![3, 1]⟩

abbrev nBuf : Space → Nat
  | .hbm => 39
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S10000x128, .f32⟩
  | .hbm, ⟨2, _⟩ => ⟨S3x10000, .f32⟩
  | .hbm, ⟨3, _⟩ => ⟨S16384, .i32⟩
  | .hbm, ⟨4, _⟩ => ⟨S16384x1, .i32⟩
  | .hbm, ⟨5, _⟩ => ⟨S1x3, .i32⟩
  | .hbm, ⟨6, _⟩ => ⟨S16384x3, .i32⟩
  | .hbm, ⟨7, _⟩ => ⟨S16384x3, .i32⟩
  | .hbm, ⟨8, _⟩ => ⟨S16384x3, .i1⟩
  | .hbm, ⟨9, _⟩ => ⟨S16384x3, .bf16⟩
  | .hbm, ⟨10, _⟩ => ⟨S128x10000, .f32⟩
  | .hbm, ⟨11, _⟩ => ⟨S_, .i32⟩
  | .hbm, ⟨12, _⟩ => ⟨S_, .f32⟩
  | .hbm, ⟨13, _⟩ => ⟨S128x10240, .f32⟩
  | .hbm, ⟨14, _⟩ => ⟨S2x3x10240, .f32⟩
  | .hbm, ⟨15, _⟩ => ⟨S_, .f32⟩
  | .hbm, ⟨16, _⟩ => ⟨S3x10240, .f32⟩
  | .hbm, ⟨17, _⟩ => ⟨S3x10000, .f32⟩
  | .hbm, ⟨18, _⟩ => ⟨S_, .f32⟩
  | .hbm, ⟨19, _⟩ => ⟨S3x10000, .f32⟩
  | .hbm, ⟨20, _⟩ => ⟨S3x10000, .f32⟩
  | .hbm, ⟨21, _⟩ => ⟨S3x10000, .f32⟩
  | .hbm, ⟨22, _⟩ => ⟨S3x10000, .f32⟩
  | .hbm, ⟨23, _⟩ => ⟨S_, .f32⟩
  | .hbm, ⟨24, _⟩ => ⟨S3, .f32⟩
  | .hbm, ⟨25, _⟩ => ⟨S3x1, .f32⟩
  | .hbm, ⟨26, _⟩ => ⟨S3x1, .f32⟩
  | .hbm, ⟨27, _⟩ => ⟨S_, .f32⟩
  | .hbm, ⟨28, _⟩ => ⟨S3x1, .f32⟩
  | .hbm, ⟨29, _⟩ => ⟨S3x1, .f32⟩
  | .hbm, ⟨30, _⟩ => ⟨S3x10000, .f32⟩
  | .hbm, ⟨31, _⟩ => ⟨S3x10000, .f32⟩
  | .hbm, ⟨32, _⟩ => ⟨S_, .i32⟩
  | .hbm, ⟨33, _⟩ => ⟨S_, .f32⟩
  | .hbm, ⟨34, _⟩ => ⟨S3x10240, .f32⟩
  | .hbm, ⟨35, _⟩ => ⟨S16384x3, .f32⟩
  | .hbm, ⟨36, _⟩ => ⟨S_, .f32⟩
  | .hbm, ⟨37, _⟩ => ⟨S16384x3, .f32⟩
  | .hbm, ⟨38, _⟩ => ⟨S16384x3, .f32⟩
  | .local _ .vmem, ⟨0, _⟩ => ⟨S512x128, .f32⟩
  | .local _ .vmem, ⟨1, _⟩ => ⟨S512x128, .f32⟩
  | .local _ .vmem, ⟨2, _⟩ => ⟨S128x1280, .f32⟩
  | .local _ .vmem, ⟨3, _⟩ => ⟨S128x1280, .f32⟩
  | .local _ .vmem, ⟨4, _⟩ => ⟨S512x3, .bf16⟩
  | .local _ .vmem, ⟨5, _⟩ => ⟨S512x3, .bf16⟩
  | .local _ .vmem, ⟨6, _⟩ => ⟨S1x3x1280, .f32⟩
  | .local _ .vmem, ⟨7, _⟩ => ⟨S1x3x1280, .f32⟩
  | .local _ .vmem, ⟨8, _⟩ => ⟨S3x1280, .f32⟩
  | .local _ .vmem, ⟨9, _⟩ => ⟨S512x128, .f32⟩
  | .local _ .vmem, ⟨10, _⟩ => ⟨S512x128, .f32⟩
  | .local _ .vmem, ⟨11, _⟩ => ⟨S128x1280, .f32⟩
  | .local _ .vmem, ⟨12, _⟩ => ⟨S128x1280, .f32⟩
  | .local _ .vmem, ⟨13, _⟩ => ⟨S3x1280, .f32⟩
  | .local _ .vmem, ⟨14, _⟩ => ⟨S3x1280, .f32⟩
  | .local _ .vmem, ⟨15, _⟩ => ⟨S512x3, .f32⟩
  | .local _ .vmem, ⟨16, _⟩ => ⟨S512x3, .f32⟩
  | .local _ .vmem, ⟨17, _⟩ => ⟨S512x3, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call2_v0 : Ref sig .tc := ⟨.hbm, 22, rfl⟩
abbrev main_call2_cst : Ref sig .tc := ⟨.hbm, 23, rfl⟩
abbrev main_call2_v1 : Ref sig .tc := ⟨.hbm, 24, rfl⟩
abbrev main_call2_v2 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_call3_v0 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![2, 8, 16], ![false, false, false]⟩

def k0_cond2 (i : grid0.Coords) : BitVec 1 :=
  let arg2 : BitVec 32 := BitVec.ofNat 32 (i 2).val
  let c15_i32 : BitVec 32 := 15#32
  let v21 : BitVec 1 := Scalar.cmpi .eq arg2 c15_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x3 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x3x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![32, 8], ![false, false]⟩

def k1_cond2 (i : grid1.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_14 : BitVec 32 := 0#32
  let v22 : BitVec 1 := Scalar.cmpi .ne v21 c0_i32_14
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S16384_S16384x1_0 : S16384.BroadcastsInDim S16384x1 (![0] : Fin 1 → Fin S16384x1.rank)
  bcast_S16384x1_S16384x3_0_1 : S16384x1.BroadcastsInDim S16384x3 (![0, 1] : Fin 2 → Fin S16384x3.rank)
  bcast_S1x3_S16384x3_0_1 : S1x3.BroadcastsInDim S16384x3 (![0, 1] : Fin 2 → Fin S16384x3.rank)
  transposes_S10000x128_S128x10000_1_0 : S10000x128.Transposes [1, 0] S128x10000
  pads_S128x10000_S128x10240_000_02400 : S128x10000.Pads (![0, 0] : Fin 2 → Nat) ![0, 240] ![0, 0] S128x10240
  h_S_ : 0 < S_.numel
  inb_S3x1280_S3x1280_0_0 : ∀ a, (![0, 0] : Fin 2 → Nat) a + S3x1280.size a ≤ S3x1280.size a
  h_S3x1280 : 0 < S3x1280.numel
  shapeCasts_S3x1280_S3x1280 : S3x1280.ShapeCasts S3x1280
  inb_S512x128_S512x128_0_0 : ∀ a, (![0, 0] : Fin 2 → Nat) a + S512x128.size a ≤ S512x128.size a
  h_S512x128 : 0 < S512x128.numel
  inb_S128x1280_S128x1280_0_0 : ∀ a, (![0, 0] : Fin 2 → Nat) a + S128x1280.size a ≤ S128x1280.size a
  h_S128x1280 : 0 < S128x1280.numel
  shapeCasts_S128x1280_S128x1280 : S128x1280.ShapeCasts S128x1280
  bitsLt_bf16_f32 : FTy.bits .bf16 < FTy.bits .f32
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S1x3x1280_S1x3x1280_0_0_0 : ∀ a, (![0, 0, 0] : Fin 3 → Nat) a + S1x3x1280.size a ≤ S1x3x1280.size a
  h_S1x3x1280 : 0 < S1x3x1280.numel
  shapeCasts_S1x3x1280_S3x1280 : S1x3x1280.ShapeCasts S3x1280
  shapeCasts_S3x1280_S1x3x1280 : S3x1280.ShapeCasts S1x3x1280
  reducesTo_S2x3x10240_S3x10240_d0 : S2x3x10240.ReducesTo [0] S3x10240
  slices_S3x10240_S3x10000_0_0 : S3x10240.Slices ![0, 0] S3x10000
  bcast_S_S3x10000 : S_.BroadcastsInDim S3x10000 (![] : Fin 0 → Fin S3x10000.rank)
  reducesTo_S3x10000_S3_d1 : S3x10000.ReducesTo [1] S3
  bcast_S3_S3x1_0 : S3.BroadcastsInDim S3x1 (![0] : Fin 1 → Fin S3x1.rank)
  bcast_S_S3x1 : S_.BroadcastsInDim S3x1 (![] : Fin 0 → Fin S3x1.rank)
  bcast_S3x1_S3x10000_0_1 : S3x1.BroadcastsInDim S3x10000 (![0, 1] : Fin 2 → Fin S3x10000.rank)
  pads_S3x10000_S3x10240_000_02400 : S3x10000.Pads (![0, 0] : Fin 2 → Nat) ![0, 240] ![0, 0] S3x10240
  bcast_S_S16384x3 : S_.BroadcastsInDim S16384x3 (![] : Fin 0 → Fin S16384x3.rank)
  dot_S512x128_S128x1280_S512x1280_1_0_0_1_n_n_wf : DotDims.WF S512x128 S128x1280 S512x1280 [1] [0] [0] [1] [] []
  dot_S512x3_S512x1280_S3x1280_0_0_1_1_n_n_wf : DotDims.WF S512x3 S512x1280 S3x1280 [0] [0] [1] [1] [] []
  dot_S512x1280_S3x1280_S512x3_1_1_0_0_n_n_wf : DotDims.WF S512x1280 S3x1280 S512x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1280.size a ≤ S128x10240.size a
  hwx0_1 : ∀ i : grid0.Coords, EltTy.bits .f32 = 32 ∨ (Rect.block (s := S128x10240) S128x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S16384x3.size a
  hwx0_2 : ∀ i : grid0.Coords, EltTy.bits .bf16 = 32 ∨ (Rect.block (s := S16384x3) S512x3.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x1280.size a ≤ S2x3x10240.size a
  hwx0_3 : ∀ i : grid0.Coords, EltTy.bits .f32 = 32 ∨ (Rect.block (s := S2x3x10240) S1x3x1280.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S16384x128.size a
  hwx1_0 : ∀ i : grid1.Coords, EltTy.bits .f32 = 32 ∨ (Rect.block (s := S16384x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1280.size a ≤ S128x10240.size a
  hwx1_1 : ∀ i : grid1.Coords, EltTy.bits .f32 = 32 ∨ (Rect.block (s := S128x10240) S128x1280.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x1280.size a ≤ S3x10240.size a
  hwx1_2 : ∀ i : grid1.Coords, EltTy.bits .f32 = 32 ∨ (Rect.block (s := S3x10240) S3x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x3.size a ≤ S16384x3.size a
  hwx1_3 : ∀ i : grid1.Coords, EltTy.bits .f32 = 32 ∨ (Rect.block (s := S16384x3) S512x3.size (cc1_transform_3 i) (hinb1_3 i)).WholeWords (EltTy.packing .f32)

variable [Facts₀]

def dot_S512x128_S128x1280_S512x1280_1_0_0_1_n_n : DotDims S512x128 S128x1280 S512x1280 where
  lhsContracting := [1]
  rhsContracting := [0]
  lhsNonContracting := [0]
  rhsNonContracting := [1]
  lhsBatch := []
  rhsBatch := []
  wf := dot_S512x128_S128x1280_S512x1280_1_0_0_1_n_n_wf
def dot_S512x3_S512x1280_S3x1280_0_0_1_1_n_n : DotDims S512x3 S512x1280 S3x1280 where
  lhsContracting := [0]
  rhsContracting := [0]
  lhsNonContracting := [1]
  rhsNonContracting := [1]
  lhsBatch := []
  rhsBatch := []
  wf := dot_S512x3_S512x1280_S3x1280_0_0_1_1_n_n_wf
def dot_S512x1280_S3x1280_S512x3_1_1_0_0_n_n : DotDims S512x1280 S3x1280 S512x3 where
  lhsContracting := [1]
  rhsContracting := [1]
  lhsNonContracting := [0]
  rhsNonContracting := [0]
  lhsBatch := []
  rhsBatch := []
  wf := dot_S512x1280_S3x1280_S512x3_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x3x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S3x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S512x3.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S10000x128 : Shape := ⟨2, ![10000, 128]⟩
abbrev S3x10000 : Shape := ⟨2, ![3, 10000]⟩
abbrev S16384 : Shape := ⟨1, ![16384]⟩
abbrev S16384x10000 : Shape := ⟨2, ![16384, 10000]⟩
abbrev S_ : Shape := ⟨0, ![]⟩
abbrev S16384x1 : Shape := ⟨2, ![16384, 1]⟩
abbrev S3 : Shape := ⟨1, ![3]⟩
abbrev S3x1 : Shape := ⟨2, ![3, 1]⟩
abbrev S16384x3 : Shape := ⟨2, ![16384, 3]⟩

abbrev nBuf : Space → Nat
  | .hbm => 35
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S10000x128, .f32⟩
  | .hbm, ⟨2, _⟩ => ⟨S3x10000, .f32⟩
  | .hbm, ⟨3, _⟩ => ⟨S16384, .i32⟩
  | .hbm, ⟨4, _⟩ => ⟨S16384x10000, .f32⟩
  | .hbm, ⟨5, _⟩ => ⟨S_, .f32⟩
  | .hbm, ⟨6, _⟩ => ⟨S16384x10000, .f32⟩
  | .hbm, ⟨7, _⟩ => ⟨S16384x10000, .i1⟩
  | .hbm, ⟨8, _⟩ => ⟨S_, .f32⟩
  | .hbm, ⟨9, _⟩ => ⟨S_, .f32⟩
  | .hbm, ⟨10, _⟩ => ⟨S16384x10000, .f32⟩
  | .hbm, ⟨11, _⟩ => ⟨S16384x10000, .f32⟩
  | .hbm, ⟨12, _⟩ => ⟨S16384x10000, .f32⟩
  | .hbm, ⟨13, _⟩ => ⟨S_, .f32⟩
  | .hbm, ⟨14, _⟩ => ⟨S3x10000, .f32⟩
  | .hbm, ⟨15, _⟩ => ⟨S16384x1, .i32⟩
  | .hbm, ⟨16, _⟩ => ⟨S3x10000, .f32⟩
  | .hbm, ⟨17, _⟩ => ⟨S_, .f32⟩
  | .hbm, ⟨18, _⟩ => ⟨S3x10000, .f32⟩
  | .hbm, ⟨19, _⟩ => ⟨S3x10000, .f32⟩
  | .hbm, ⟨20, _⟩ => ⟨S3x10000, .f32⟩
  | .hbm, ⟨21, _⟩ => ⟨S3x10000, .f32⟩
  | .hbm, ⟨22, _⟩ => ⟨S_, .f32⟩
  | .hbm, ⟨23, _⟩ => ⟨S3, .f32⟩
  | .hbm, ⟨24, _⟩ => ⟨S3x1, .f32⟩
  | .hbm, ⟨25, _⟩ => ⟨S3x1, .f32⟩
  | .hbm, ⟨26, _⟩ => ⟨S_, .f32⟩
  | .hbm, ⟨27, _⟩ => ⟨S3x1, .f32⟩
  | .hbm, ⟨28, _⟩ => ⟨S3x1, .f32⟩
  | .hbm, ⟨29, _⟩ => ⟨S3x10000, .f32⟩
  | .hbm, ⟨30, _⟩ => ⟨S3x10000, .f32⟩
  | .hbm, ⟨31, _⟩ => ⟨S16384x3, .f32⟩
  | .hbm, ⟨32, _⟩ => ⟨S_, .f32⟩
  | .hbm, ⟨33, _⟩ => ⟨S16384x3, .f32⟩
  | .hbm, ⟨34, _⟩ => ⟨S16384x3, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩

abbrev nD : Nat := 1
abbrev τ : Topo := Topo.v7x

variable {F : FTy → Type} [FloatOps F]

class Facts₀ : Prop where
  bcast_S_S16384x10000 : S_.BroadcastsInDim S16384x10000 (![] : Fin 0 → Fin S16384x10000.rank)
  bcast_S_S3x10000 : S_.BroadcastsInDim S3x10000 (![] : Fin 0 → Fin S3x10000.rank)
  bcast_S16384_S16384x1_0 : S16384.BroadcastsInDim S16384x1 (![0] : Fin 1 → Fin S16384x1.rank)
  reducesTo_S3x10000_S3_d1 : S3x10000.ReducesTo [1] S3
  h_S_ : 0 < S_.numel
  bcast_S3_S3x1_0 : S3.BroadcastsInDim S3x1 (![0] : Fin 1 → Fin S3x1.rank)
  bcast_S_S3x1 : S_.BroadcastsInDim S3x1 (![] : Fin 0 → Fin S3x1.rank)
  bcast_S3x1_S3x10000_0_1 : S3x1.BroadcastsInDim S3x10000 (![0, 1] : Fin 2 → Fin S3x10000.rank)
  bcast_S_S16384x3 : S_.BroadcastsInDim S16384x3 (![] : Fin 0 → Fin S16384x3.rank)
  dot_S16384x128_S10000x128_S16384x10000_1_1_0_0_n_n_wf : DotDims.WF S16384x128 S10000x128 S16384x10000 [1] [1] [0] [0] [] []
  scatter_S3x10000_S16384x1_S16384x10000_1_0_0_1_wf : ScatterDims.WF S3x10000 S16384x1 S16384x10000 [1] [0] [0] 1
  dot_S16384x10000_S3x10000_S16384x3_1_1_0_0_n_n_wf : DotDims.WF S16384x10000 S3x10000 S16384x3 [1] [1] [0] [0] [] []

variable [Facts₀]

def dot_S16384x128_S10000x128_S16384x10000_1_1_0_0_n_n : DotDims S16384x128 S10000x128 S16384x10000 where
  lhsContracting := [1]
  rhsContracting := [1]
  lhsNonContracting := [0]
  rhsNonContracting := [0]
  lhsBatch := []
  rhsBatch := []
  wf := dot_S16384x128_S10000x128_S16384x10000_1_1_0_0_n_n_wf
def scatter_S3x10000_S16384x1_S16384x10000_1_0_0_1 : ScatterDims S3x10000 S16384x1 S16384x10000 where
  updateWindowDims := [1]
  insertedWindowDims := [0]
  scatterDimsToOperandDims := [0]
  indexVectorDim := 1
  wf := scatter_S3x10000_S16384x1_S16384x10000_1_0_0_1_wf
def dot_S16384x10000_S3x10000_S16384x3_1_1_0_0_n_n : DotDims S16384x10000 S3x10000 S16384x3 where
  lhsContracting := [1]
  rhsContracting := [1]
  lhsNonContracting := [0]
  rhsNonContracting := [0]
  lhsBatch := []
  rhsBatch := []
  wf := dot_S16384x10000_S3x10000_S16384x3_1_1_0_0_n_n_wf

class Facts : Prop extends Facts₀ where

variable [Facts]
-- ==== Proof.KernelBits.ClassCases.lean ====
/-
  The per-class accumulation kernel (the first pallas_call) runs on the grid (core, column chunk, sample tile)
  = 2 x 8 x 16, the sample tile innermost. Its two branches look only at the sample tile: the accumulator is
  zeroed at tile 0 and written out to the output block at tile 15. Here: both conditions in closed form over the
  linear point (the tile is the point modulo 16), where the output window is idle or written back, each window's
  block as read off the arrays the region is entered with, and the class invariant with the accumulator scratch
  spelt as a memref.
-/
import proofs.«421992_j38809324486988_3_alg».proof.Proof.Gen.Kernel.Launch
import proofs.«421992_j38809324486988_3_alg».proof.Proof.Gen.Kernel.Skeleton
import proofs.«421992_j38809324486988_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The contents of the TensorCore's buffers when the region is entered: a parameter here.
variable (V : (c : Dev nD) → (b : Ref sig .tc) → Buf (Elt F) ((c : Thread nD τ).loc b))

/-! ## The windows' blocks -/

/-- Window `w`'s block at point `t` of the entry contents of its array. -/
def cblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs (fetched at that point or kept from
    an earlier one whose block index was the same), for any proof data over `V` whose body leaves the block in
    place. Window 0: the sample tile of the features. -/
theorem cfound_0_of {c : Dev nD} (dat : Dat τ (Elt F) Unit ℕ (UR sig nD τ) ℕ cfg0 c) (hA : dat.A 0 = V c (Pipeline.arrRef spec0 0))
    (hafter : ∀ t, dat.after 0 t = cblk V c 0 t) (t : Fin cfg0.N) (d) : dat.before 0 t d = cblk V c 0 t :=
  (dat.before_in_eq_fetched 0 rfl (fun _ => rfl) (fun _ _ _ => rfl) (fun t => by rw [hafter]; unfold Dat.blockOf cblk; rw [hA]; try rfl) t d).trans
    (by unfold Dat.fetched Dat.blockOf cblk; rw [hA]; try rfl)
/-- Window 1: the column chunk of the padded, transposed projection. -/
theorem cfound_1_of {c : Dev nD} (dat : Dat τ (Elt F) Unit ℕ (UR sig nD τ) ℕ cfg0 c) (hA : dat.A 1 = V c (Pipeline.arrRef spec0 1))
    (hafter : ∀ t, dat.after 1 t = cblk V c 1 t) (t : Fin cfg0.N) (d) : dat.before 1 t d = cblk V c 1 t :=
  (dat.before_in_eq_fetched 1 rfl (fun _ => rfl) (fun _ _ _ => rfl) (fun t => by rw [hafter]; unfold Dat.blockOf cblk; rw [hA]; try rfl) t d).trans
    (by unfold Dat.fetched Dat.blockOf cblk; rw [hA]; try rfl)
/-- Window 2: the sample tile of the one-hot labels. -/
theorem cfound_2_of {c : Dev nD} (dat : Dat τ (Elt F) Unit ℕ (UR sig nD τ) ℕ cfg0 c) (hA : dat.A 2 = V c (Pipeline.arrRef spec0 2))
    (hafter : ∀ t, dat.after 2 t = cblk V c 2 t) (t : Fin cfg0.N) (d) : dat.before 2 t d = cblk V c 2 t :=
  (dat.before_in_eq_fetched 2 rfl (fun _ => rfl) (fun _ _ _ => rfl) (fun t => by rw [hafter]; unfold Dat.blockOf cblk; rw [hA]; try rfl) t d).trans
    (by unfold Dat.fetched Dat.blockOf cblk; rw [hA]; try rfl)

/-! ## The two branches, over the linear point -/

/-- "This is sample tile 0": the accumulator is zeroed first. -/
abbrev cfirst (i : grid0.Coords) : Prop :=
  (Scalar.cmpi .ne (Scalar.extui (Scalar.cmpi .eq (BitVec.ofNat 32 (i 2).val) 0#32)) 0#32) = 1#1
theorem cfirst_iff : ∀ t : Fin cfg0.N, cfirst (grid0.coords t) ↔ t.val % 16 = 0 :=
  (by decide +kernel : ∀ t : Fin grid0.N, cfirst (grid0.coords t) ↔ t.val % 16 = 0)

/-- "This is sample tile 15": the accumulator is copied to the output block. -/
abbrev clast (i : grid0.Coords) : Prop := k0_cond2 i = 1#1
theorem clast_iff : ∀ t : Fin cfg0.N, clast (grid0.coords t) ↔ t.val % 16 = 15 :=
  (by decide +kernel : ∀ t : Fin grid0.N, clast (grid0.coords t) ↔ t.val % 16 = 15)

/-! ## Where the windows are idle -/

theorem clive_0 : ∀ t : Fin cfg0.N, cfg0.idle 0 (grid0.coords t) = false := by decide +kernel
theorem clive_1 : ∀ t : Fin cfg0.N, cfg0.idle 1 (grid0.coords t) = false := by decide +kernel
theorem clive_2 : ∀ t : Fin cfg0.N, cfg0.idle 2 (grid0.coords t) = false := by decide +kernel
/-- Before the last tile the body stores nothing into the output block: the window is idle there -/
theorem cidle_3 : ∀ t : Fin cfg0.N, ¬clast (grid0.coords t) → cfg0.idle 3 (grid0.coords t) = true := by decide +kernel
/-- and the pipeline does not write the block back; -/
theorem cnoflush_3 : ∀ t : Fin cfg0.N, ¬clast (grid0.coords t) → (cfg0.win 3).flush t = false := by decide +kernel
/-- at the last tile it is live. -/
theorem clive_3 : ∀ t : Fin cfg0.N, clast (grid0.coords t) → cfg0.idle 3 (grid0.coords t) = false := by decide +kernel

/-! ## The accumulator scratch -/

/-- The accumulator: the kernel's one scratch operand, a whole scoped buffer. -/
abbrev cacc : Memref sig .tc .vmem S3x1280 .f32 := Memref.whole cc0_scratch0

/-- The scoped buffers of the other pallas_call (its staging buffers and its scratch), each whole at some contents:
    this region carries them along untouched. -/
def crest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant: the accumulator as a memref owned at some contents, the other call's scoped buffers, the
    generator register at some state. -/
theorem cPhiA_eq (c : Dev nD) :
    (Pipeline.ΦA spec0 c : sProp 𝕄)
      = iprop(((∃ d, owns (c : Thread nD τ) cacc fullShare d) ∗ crest (F := F) c) ∗ (∃ r, prngReg c r)) := by
  unfold Pipeline.ΦA crest; rw [scopedRest0_eq]; simp only [cacc, owns_whole]; try rfl

end Cert.Kernel.Hand

end
-- ==== Proof.KernelBits.ClassBody.lean ====
/-
  The per-class accumulation kernel's body on whole staging memrefs, in its three control cases, each as a triple
  with the contents it leaves written out over the skeleton's payloads:
  * first sample tile: the accumulator is zeroed (`k0_pay1`), then the tile's class sums are added to it;
  * a middle tile: the tile's class sums are added to what the tile before left;
  * last tile: the same, and the accumulator is then copied to the output block (`k0_pay3`).
  `k0_pay2 x f l a` is `a` plus the tile's contribution: the one-hot tile `l` transposed times the sign of the
  features tile `x` times the projection chunk `f`.
-/
import proofs.«421992_j38809324486988_3_alg».proof.Proof.KernelBits.ClassCases
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zero2 : (![0, 0] : Fin 2 → Nat) = fun _ => 0 := by funext a; fin_cases a <;> rfl
theorem zero3 : (![0, 0, 0] : Fin 3 → Nat) = fun _ => 0 := by funext a; fin_cases a <;> rfl

/-- A whole-block store, last, covers the block. -/
theorem cover_head {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.Mem.head _, View.mem_set_unit_zero h inb y⟩

set_option maxHeartbeats 1000000 in
/-- A middle tile: neither branch is taken. -/
theorem crun_mid (c : Dev nD) (i : grid0.Coords) (a3 : Memref sig .tc .vmem S512x128 .f32) (h3 : a3.IsWhole) (a4 : Memref sig .tc .vmem S128x1280 .f32) (h4 : a4.IsWhole) (a5 : Memref sig .tc .vmem S512x3 .bf16) (h5 : a5.IsWhole) (a6 : Memref sig .tc .vmem S1x3x1280 .f32) (h6 : a6.IsWhole) (a7 : Memref sig .tc .vmem S3x1280 .f32) (h7 : a7.IsWhole)
    (hfirst : ¬cfirst i) (hlast : ¬clast i)
    (x0 : Vec F S512x128 .f32) (x1 : Vec F S128x1280 .f32) (x2 : Vec F S512x3 .bf16) (xo : Vec F S1x3x1280 .f32) (xs : Vec F S3x1280 .f32)
    (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare xs
        ∗ (iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare (k0_pay2 x0 x1 x2 xs)) -∗ K ⟨⟩))
      ⊢ wp frame (wpE (defs₀ (F := F)) Variants.none c none) E (cc0__per_class_kernel i a3 h3 a4 h4 a5 h5 a6 h6 a7 h7) K := by
  simp only [cc0__per_class_kernel_eq_skeleton]; unfold cc0__per_class_kernel_skel
  unfold owns
  iintro ⟨⟨%f0, %hf0, H0⟩, ⟨%f1, %hf1, H1⟩, ⟨%f2, %hf2, H2⟩, ⟨%fo, %hfo, Ho⟩, ⟨%fs, %hfs, HS⟩, Hk⟩
  obtain rfl := h3.eq_unread hf0; obtain rfl := h4.eq_unread hf1; obtain rfl := h5.eq_unread hf2
  obtain rfl := h6.eq_unread hfo; obtain rfl := h7.eq_unread hfs
  sl_exec (disch := first | exact hfirst | exact hlast)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [Ho]
  · iexists _; isplitr; · ipureintro; exact h6.read_unread _
    iexact Ho
  iexists _; isplitr
  swap; · iexact HS
  ipureintro
  rw [View.read_writes_eq_canon _ _ _ (cover_head zero2 _ _ _), View.canon_cons_unit_zero (S := S3x1280) zero2]
  simp only [View.readAt_eq_ld, Memref.IsWhole.read_unread, View.ld_unit_zero (S := S512x128) zero2, View.ld_unit_zero (S := S128x1280) zero2, View.ld_unit_zero (S := S512x3) zero2, View.ld_unit_zero (S := S3x1280) zero2]

set_option maxHeartbeats 1000000 in
/-- The first tile: the accumulator, found at anything, is zeroed before the tile is added. -/
theorem crun_first (c : Dev nD) (i : grid0.Coords) (a3 : Memref sig .tc .vmem S512x128 .f32) (h3 : a3.IsWhole) (a4 : Memref sig .tc .vmem S128x1280 .f32) (h4 : a4.IsWhole) (a5 : Memref sig .tc .vmem S512x3 .bf16) (h5 : a5.IsWhole) (a6 : Memref sig .tc .vmem S1x3x1280 .f32) (h6 : a6.IsWhole) (a7 : Memref sig .tc .vmem S3x1280 .f32) (h7 : a7.IsWhole)
    (hfirst : cfirst i) (hlast : ¬clast i)
    (x0 : Vec F S512x128 .f32) (x1 : Vec F S128x1280 .f32) (x2 : Vec F S512x3 .bf16) (xo : Vec F S1x3x1280 .f32)
    (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
        ∗ (iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare (k0_pay2 x0 x1 x2 (k0_pay1 (F := F)))) -∗ K ⟨⟩))
      ⊢ wp frame (wpE (defs₀ (F := F)) Variants.none c none) E (cc0__per_class_kernel i a3 h3 a4 h4 a5 h5 a6 h6 a7 h7) K := by
  simp only [cc0__per_class_kernel_eq_skeleton]; unfold cc0__per_class_kernel_skel
  unfold owns
  iintro ⟨⟨%f0, %hf0, H0⟩, ⟨%f1, %hf1, H1⟩, ⟨%f2, %hf2, H2⟩, ⟨%fo, %hfo, Ho⟩, ⟨%ds, %fs, -, HS⟩, Hk⟩
  obtain rfl := h3.eq_unread hf0; obtain rfl := h4.eq_unread hf1; obtain rfl := h5.eq_unread hf2
  obtain rfl := h6.eq_unread hfo
  sl_exec (disch := first | exact hfirst | exact hlast)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [Ho]
  · iexists _; isplitr; · ipureintro; exact h6.read_unread _
    iexact Ho
  iexists _; isplitr
  swap; · iexact HS
  ipureintro
  sl_unfold_words
  rw [View.read_writes_eq_canon _ _ _ (cover_head zero2 _ _ _), View.canon_cons_unit_zero zero2]
  simp only [View.readAt_eq_ld, Memref.IsWhole.read_unread, View.ld_unit_zero (S := S512x128) zero2, View.ld_unit_zero (S := S128x1280) zero2, View.ld_unit_zero (S := S512x3) zero2, View.ld_unit_zero (S := S3x1280) zero2, View.readCov_unit_zero (S := S3x1280) _ zero2]

set_option maxHeartbeats 1000000 in
/-- The last tile: after the tile is added the accumulator is copied to the output block, found at anything. -/
theorem crun_last (c : Dev nD) (i : grid0.Coords) (a3 : Memref sig .tc .vmem S512x128 .f32) (h3 : a3.IsWhole) (a4 : Memref sig .tc .vmem S128x1280 .f32) (h4 : a4.IsWhole) (a5 : Memref sig .tc .vmem S512x3 .bf16) (h5 : a5.IsWhole) (a6 : Memref sig .tc .vmem S1x3x1280 .f32) (h6 : a6.IsWhole) (a7 : Memref sig .tc .vmem S3x1280 .f32) (h7 : a7.IsWhole)
    (hfirst : ¬cfirst i) (hlast : clast i)
    (x0 : Vec F S512x128 .f32) (x1 : Vec F S128x1280 .f32) (x2 : Vec F S512x3 .bf16) (xs : Vec F S3x1280 .f32)
    (E : Set ℕ) (K : PUnit → sProp 𝕄) :
    iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare xs
        ∗ (iprop(owns (c : Thread nD τ) a3 fullShare x0 ∗ owns (c : Thread nD τ) a4 fullShare x1 ∗ owns (c : Thread nD τ) a5 fullShare x2 ∗ owns (c : Thread nD τ) a6 fullShare (k0_pay3 (k0_pay2 x0 x1 x2 xs)) ∗ owns (c : Thread nD τ) a7 fullShare (k0_pay2 x0 x1 x2 xs)) -∗ K ⟨⟩))
      ⊢ wp frame (wpE (defs₀ (F := F)) Variants.none c none) E (cc0__per_class_kernel i a3 h3 a4 h4 a5 h5 a6 h6 a7 h7) K := by
  simp only [cc0__per_class_kernel_eq_skeleton]; unfold cc0__per_class_kernel_skel
  unfold owns
  iintro ⟨⟨%f0, %hf0, H0⟩, ⟨%f1, %hf1, H1⟩, ⟨%f2, %hf2, H2⟩, ⟨%d_o, %fo, -, Ho⟩, ⟨%fs, %hfs, HS⟩, Hk⟩
  obtain rfl := h3.eq_unread hf0; obtain rfl := h4.eq_unread hf1; obtain rfl := h5.eq_unread hf2
  obtain rfl := h7.eq_unread hfs
  sl_exec (disch := first | exact hfirst | exact hlast)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [Ho]
  · iexists _; isplitr
    swap; · iexact Ho
    ipureintro
    sl_unfold_words
    rw [View.read_writes_eq_canon _ _ _ (cover_head zero3 _ _ _), View.canon_cons_unit_zero zero3]
    simp only [View.readAt_eq_ld, Memref.IsWhole.read_unread, View.ld_unit_zero (S := S512x128) zero2, View.ld_unit_zero (S := S128x1280) zero2, View.ld_unit_zero (S := S512x3) zero2, View.ld_unit_zero (S := S3x1280) zero2, View.readCov_unit_zero (S := S3x1280) _ zero2]
  iexists _; isplitr
  swap; · iexact HS
  ipureintro
  sl_unfold_words
  rw [View.read_writes_eq_canon _ _ _ (cover_head zero2 _ _ _), View.canon_cons_unit_zero zero2]
  simp only [View.readAt_eq_ld, Memref.IsWhole.read_unread, View.ld_unit_zero (S := S512x128) zero2, View.ld_unit_zero (S := S128x1280) zero2, View.ld_unit_zero (S := S512x3) zero2, View.ld_unit_zero (S := S3x1280) zero2]

end Cert.Kernel.Hand

end
-- ==== Proof.KernelBits.ClassData.lean ====
/-
  The per-class accumulation region's proof data, at the arrays `V` the region is entered with.

  The accumulator after point `n` (`caccAt`): at a first sample tile (n a multiple of 16) the tile's class sums
  added to zero, otherwise added to what point `n - 1` left. The output block is written only at a last tile
  (n = 15 mod 16), with the accumulator's contents; the pipeline writes it back exactly there. The invariant
  between points is the class's before the first point and afterwards names the accumulator's contents; the
  other scoped buffers and the generator register ride along.
-/
import proofs.«421992_j38809324486988_3_alg».proof.Proof.KernelBits.ClassBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator, point by point -/

/-- What the accumulator holds after the body at position `n`. -/
def caccAt (c : Dev nD) : (n : ℕ) → n < cfg0.N → Vec F S3x1280 .f32
  | 0, hn => k0_pay2 (cblk V c 0 ⟨0, hn⟩) (cblk V c 1 ⟨0, hn⟩) (cblk V c 2 ⟨0, hn⟩) (k0_pay1 (F := F))
  | n + 1, hn =>
    if (n + 1) % 16 = 0 then
      k0_pay2 (cblk V c 0 ⟨n + 1, hn⟩) (cblk V c 1 ⟨n + 1, hn⟩) (cblk V c 2 ⟨n + 1, hn⟩) (k0_pay1 (F := F))
    else
      k0_pay2 (cblk V c 0 ⟨n + 1, hn⟩) (cblk V c 1 ⟨n + 1, hn⟩) (cblk V c 2 ⟨n + 1, hn⟩) (caccAt c n (Nat.lt_of_succ_lt hn))

/-- At a first tile: the tile's sums over zero. -/
theorem caccAt_first (c : Dev nD) (t : Fin cfg0.N) (h : t.val % 16 = 0) :
    caccAt V c t.val t.isLt = k0_pay2 (cblk V c 0 t) (cblk V c 1 t) (cblk V c 2 t) (k0_pay1 (F := F)) := by
  obtain ⟨n, hn⟩ := t
  cases n with
  | zero => rfl
  | succ n => exact (if_pos h).trans rfl

/-- At any other tile: the tile's sums over what the point before left. -/
theorem caccAt_next (c : Dev nD) (t : Fin cfg0.N) (h : ¬t.val % 16 = 0) :
    caccAt V c t.val t.isLt = k0_pay2 (cblk V c 0 t) (cblk V c 1 t) (cblk V c 2 t)
      (caccAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- Before the first point the class's invariant (the accumulator at anything); after point `n` the accumulator
    at `caccAt n`. -/
def cPhi (c : Dev nD) : (n : ℕ) → n ≤ cfg0.N → sProp 𝕄
  | 0, _ => Pipeline.ΦA spec0 c
  | n + 1, hn => iprop((owns (c : Thread nD τ) cacc fullShare (caccAt V c n hn) ∗ crest (F := F) c) ∗ (∃ r, prngReg c r))

theorem cPhi_zero (c : Dev nD) (n : ℕ) (h : n ≤ cfg0.N) (hz : n = 0) : cPhi V c n h = Pipeline.ΦA spec0 c := by
  subst hz; rfl

theorem cPhi_succ (c : Dev nD) (n : ℕ) (hn : n < cfg0.N) :
    cPhi V c (n + 1) hn = iprop((owns (c : Thread nD τ) cacc fullShare (caccAt V c n hn) ∗ crest (F := F) c) ∗ (∃ r, prngReg c r)) := rfl

theorem cPhi_pos (c : Dev nD) (n : ℕ) (h : n ≤ cfg0.N) (hz : n ≠ 0) :
    cPhi V c n h = iprop((owns (c : Thread nD τ) cacc fullShare (caccAt V c (n - 1) (by omega)) ∗ crest (F := F) c) ∗ (∃ r, prngReg c r)) := by
  cases n with
  | zero => exact absurd rfl hz
  | succ n => rfl

/-! ## The proof data -/

/-- Arrays as the region finds them; each input's staging buffer at its block; the output block at the
    accumulator's contents (consulted only at a last tile); the invariant `cPhi`; nothing owed; full shares. -/
def cdat (c : Dev nD) : Dat τ (Elt F) Unit ℕ (UR sig nD τ) ℕ cfg0 c where
  A w := V c (Pipeline.arrRef spec0 w)
  after w t := match w with
    | ⟨0, _⟩ => cblk V c 0 t
    | ⟨1, _⟩ => cblk V c 1 t
    | ⟨2, _⟩ => cblk V c 2 t
    | ⟨3, _⟩ => k0_pay3 (caccAt V c t.val t.isLt)
  Φ t := cPhi V c t.val (Nat.le_of_lt_succ t.isLt)
  q _ := fullShare
  owed _ := 0

theorem cA_eq (c : Dev nD) (w : Fin cfg0.W) : (cdat V c).A w = V c (Pipeline.arrRef spec0 w) := by
  dsimp only [cdat]

theorem cPhi_castSucc (c : Dev nD) (t : Fin cfg0.N) :
    (cdat V c).Φ t.castSucc = cPhi V c t.val (Nat.le_of_lt t.isLt) := by
  dsimp only [cdat]; simp only [Fin.coe_castSucc]

theorem cafter_0 (c : Dev nD) (t : Fin cfg0.N) : (cdat V c).after 0 t = cblk V c 0 t := by dsimp only [cdat]
theorem cafter_1 (c : Dev nD) (t : Fin cfg0.N) : (cdat V c).after 1 t = cblk V c 1 t := by dsimp only [cdat]
theorem cafter_2 (c : Dev nD) (t : Fin cfg0.N) : (cdat V c).after 2 t = cblk V c 2 t := by dsimp only [cdat]
theorem cafter_3 (c : Dev nD) (t : Fin cfg0.N) : (cdat V c).after 3 t = k0_pay3 (caccAt V c t.val t.isLt) := by dsimp only [cdat]

theorem cbefore_0 (c : Dev nD) (t : Fin cfg0.N) (d) : (cdat V c).before 0 t d = cblk V c 0 t :=
  cfound_0_of V (cdat V c) (cA_eq V c 0) (cafter_0 V c) t d
theorem cbefore_1 (c : Dev nD) (t : Fin cfg0.N) (d) : (cdat V c).before 1 t d = cblk V c 1 t :=
  cfound_1_of V (cdat V c) (cA_eq V c 1) (cafter_1 V c) t d
theorem cbefore_2 (c : Dev nD) (t : Fin cfg0.N) (d) : (cdat V c).before 2 t d = cblk V c 2 t :=
  cfound_2_of V (cdat V c) (cA_eq V c 2) (cafter_2 V c) t d

/-! ## The body obligation -/

/-- What the body is called with at point `t`, the windows one by one, -/
def cbodyPre (c : Dev nD) (t : Fin cfg0.N) : sProp 𝕄 :=
  iprop((cdat V c).Φ t.castSucc ∗ (cdat V c).owesAt () t.castSucc
    ∗ (∃ d, owns (c : Thread nD τ) (win0_0.stage (cfg0.slots t 0)) fullShare ((cdat V c).before 0 t d))
    ∗ (∃ d, owns (c : Thread nD τ) (win0_1.stage (cfg0.slots t 1)) fullShare ((cdat V c).before 1 t d))
    ∗ (∃ d, owns (c : Thread nD τ) (win0_2.stage (cfg0.slots t 2)) fullShare ((cdat V c).before 2 t d))
    ∗ (∃ d, owns (c : Thread nD τ) (win0_3.stage (cfg0.slots t 3)) fullShare ((cdat V c).before 3 t d)))

/-- and what it returns. -/
def cbodyPost (c : Dev nD) (t : Fin cfg0.N) : sProp 𝕄 :=
  iprop((cdat V c).Φ t.succ ∗ (cdat V c).owesAt () t.succ
    ∗ (cdat V c).leavesExact 0 t ∗ (cdat V c).leavesExact 1 t ∗ (cdat V c).leavesExact 2 t ∗ (cdat V c).leavesExact 3 t)

theorem cleaves_0 (c : Dev nD) (t : Fin cfg0.N) :
    (cdat V c).leavesExact 0 t = owns (c : Thread nD τ) (win0_0.stage (cfg0.slots t 0)) fullShare (cblk V c 0 t) := by
  unfold Dat.leavesExact; rw [clive_0 t, cafter_0]; try rfl
theorem cleaves_1 (c : Dev nD) (t : Fin cfg0.N) :
    (cdat V c).leavesExact 1 t = owns (c : Thread nD τ) (win0_1.stage (cfg0.slots t 1)) fullShare (cblk V c 1 t) := by
  unfold Dat.leavesExact; rw [clive_1 t, cafter_1]; try rfl
theorem cleaves_2 (c : Dev nD) (t : Fin cfg0.N) :
    (cdat V c).leavesExact 2 t = owns (c : Thread nD τ) (win0_2.stage (cfg0.slots t 2)) fullShare (cblk V c 2 t) := by
  unfold Dat.leavesExact; rw [clive_2 t, cafter_2]; try rfl

set_option maxHeartbeats 4000000 in
/-- The body at any point, by the point's case. The invariant hands the accumulator over at what the point
    before left (at anything before the first point) and takes it back at this point's contents. -/
theorem csound_body (c : Dev nD) (t : Fin cfg0.N) :
    cbodyPre V c t ⊢ wp frame (wpE (defs₀ (F := F)) Variants.none c none) Set.univ (bodyAt0 t) (fun _ => cbodyPost V c t) := by
  unfold cbodyPre cbodyPost bodyAt0
  simp only [cbefore_0, cbefore_1, cbefore_2, cleaves_0, cleaves_1, cleaves_2]
  rw [show (cdat V c).owesAt () t.succ = (cdat V c).owesAt () t.castSucc from rfl]
  rw [show (cdat V c).Φ t.succ = cPhi V c (t.val + 1) t.isLt from rfl, cPhi_succ]
  have hN : t.val < 256 := lt_of_lt_of_eq t.isLt (show cfg0.N = 256 from N_0)
  by_cases h0 : t.val % 16 = 0
  · have hl : ¬clast (grid0.coords t) := fun h => by have := (clast_iff t).mp h; omega
    have hf : cfirst (grid0.coords t) := (cfirst_iff t).mpr h0
    rw [Dat.leavesExact_idle (cdat V c) 3 t (cidle_3 t hl) (cnoflush_3 t hl), caccAt_first V c t h0]
    by_cases hz : t.val = 0
    · rw [cPhi_castSucc V c t, cPhi_zero V c _ _ hz, cPhiA_eq]
      iintro ⟨⟨⟨HS, Hr⟩, Hg⟩, Ho, ⟨%d0, H0⟩, ⟨%d1, H1⟩, ⟨%d2, H2⟩, ⟨%d3, H3⟩⟩
      iapply (crun_first c (grid0.coords t) _ _ _ _ _ _ _ _ _ _ hf hl (cblk V c 0 t) (cblk V c 1 t) (cblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [cPhi_castSucc V c t, cPhi_pos V c _ _ hz]
      iintro ⟨⟨⟨HS, Hr⟩, Hg⟩, Ho, ⟨%d0, H0⟩, ⟨%d1, H1⟩, ⟨%d2, H2⟩, ⟨%d3, H3⟩⟩
      iapply (crun_first c (grid0.coords t) _ _ _ _ _ _ _ _ _ _ hf hl (cblk V c 0 t) (cblk V c 1 t) (cblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hf : ¬cfirst (grid0.coords t) := fun h => h0 ((cfirst_iff t).mp h)
    have hz : t.val ≠ 0 := fun h => h0 (by rw [h])
    rw [cPhi_castSucc V c t, cPhi_pos V c _ _ hz, caccAt_next V c t h0]
    by_cases h1 : t.val % 16 = 15
    · have hl : clast (grid0.coords t) := (clast_iff t).mpr h1
      rw [show (cdat V c).leavesExact 3 t = owns (c : Thread nD τ) (win0_3.stage (cfg0.slots t 3)) fullShare ((cdat V c).after 3 t) from by
        unfold Dat.leavesExact; rw [clive_3 t hl]; try rfl]
      rw [cafter_3, caccAt_next V c t h0]
      iintro ⟨⟨⟨HS, Hr⟩, Hg⟩, Ho, ⟨%d0, H0⟩, ⟨%d1, H1⟩, ⟨%d2, H2⟩, ⟨%d3, H3⟩⟩
      iapply (crun_last c (grid0.coords t) _ _ _ _ _ _ _ _ _ _ hf hl (cblk V c 0 t) (cblk V c 1 t) (cblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hl : ¬clast (grid0.coords t) := fun h => h1 ((clast_iff t).mp h)
      rw [Dat.leavesExact_idle (cdat V c) 3 t (cidle_3 t hl) (cnoflush_3 t hl)]
      iintro ⟨⟨⟨HS, Hr⟩, Hg⟩, Ho, ⟨%d0, H0⟩, ⟨%d1, H1⟩, ⟨%d2, H2⟩, ⟨%d3, H3⟩⟩
      iapply (crun_mid c (grid0.coords t) _ _ _ _ _ _ _ _ _ _ hf hl (cblk V c 0 t) (cblk V c 1 t) (cblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem cbody_obligation (c : Dev nD) : BodyObligation (cdat (F := F) V c) (defs₀ (F := F)) Variants.none () Set.univ := fun t => by
  rw [bigSep_W0, bigSep_W0]
  exact csound_body V c t

/-- The class invariant is the invariant before the first point, -/
theorem cPhi_in (c : Dev nD) : Pipeline.ΦA spec0 c ⊢ (cdat V c).Φ 0 := by
  rw [show (cdat V c).Φ 0 = cPhi V c 0 (Nat.zero_le _) from rfl, cPhi_zero V c 0 _ rfl]
  try exact Idealize.SL.BI.Entails.refl _

/-- and after the last point the invariant gives it back, the accumulator's contents forgotten. -/
theorem cPhi_out (c : Dev nD) : (cdat V c).Φ (Fin.last cfg0.N) ⊢ Pipeline.ΦA spec0 c := by
  rw [show (cdat V c).Φ (Fin.last cfg0.N) = cPhi V c (Fin.last cfg0.N).val (Nat.le_of_lt_succ (Fin.last cfg0.N).isLt) from rfl,
    cPhi_pos V c _ _ (by rw [Fin.val_last]; have : cfg0.N = 256 := N_0; omega), cPhiA_eq]
  iintro ⟨⟨HS, Hr⟩, Hg⟩
  isplitl [HS Hr]
  · isplitl [HS]; · iexists _; iexact HS
    iexact Hr
  iexact Hg

end Cert.Kernel.Hand

end
-- ==== Proof.KernelBits.LogitCases.lean ====
/-
  The logits kernel (the second pallas_call) runs on the grid (sample tile, column chunk) = 32 x 8, the column
  chunk innermost. Its two branches look only at the column chunk: the accumulator is zeroed at chunk 0 and copied
  to the output block at chunk 7. Here: both conditions in closed form over the linear point (the chunk is the
  point modulo 8), where the output window is idle or written back, each window's block as read off the arrays
  the region is entered with, and the class invariant with the accumulator scratch spelt as a memref.
-/
import proofs.«421992_j38809324486988_3_alg».proof.Proof.Gen.Kernel.Launch
import proofs.«421992_j38809324486988_3_alg».proof.Proof.Gen.Kernel.Skeleton
import proofs.«421992_j38809324486988_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The contents of the TensorCore's buffers when the region is entered: a parameter here.
variable (V : (c : Dev nD) → (b : Ref sig .tc) → Buf (Elt F) ((c : Thread nD τ).loc b))

/-! ## The windows' blocks -/

/-- Window `w`'s block at point `t` of the entry contents of its array. -/
def lblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block whenever the body runs, for any proof data over `V` whose
    body leaves the block in place. Window 0: the sample tile of the features (fetched at chunk 0, kept after). -/
theorem lfound_0_of {c : Dev nD} (dat : Dat τ (Elt F) Unit ℕ (UR sig nD τ) ℕ cfg1 c) (hA : dat.A 0 = V c (Pipeline.arrRef spec1 0))
    (hafter : ∀ t, dat.after 0 t = lblk V c 0 t) (t : Fin cfg1.N) (d) : dat.before 0 t d = lblk V c 0 t :=
  (dat.before_in_eq_fetched 0 rfl (fun _ => rfl) (fun _ _ _ => rfl) (fun t => by rw [hafter]; unfold Dat.blockOf lblk; rw [hA]; try rfl) t d).trans
    (by unfold Dat.fetched Dat.blockOf lblk; rw [hA]; try rfl)
/-- Window 1: the column chunk of the padded, transposed projection. -/
theorem lfound_1_of {c : Dev nD} (dat : Dat τ (Elt F) Unit ℕ (UR sig nD τ) ℕ cfg1 c) (hA : dat.A 1 = V c (Pipeline.arrRef spec1 1))
    (hafter : ∀ t, dat.after 1 t = lblk V c 1 t) (t : Fin cfg1.N) (d) : dat.before 1 t d = lblk V c 1 t :=
  (dat.before_in_eq_fetched 1 rfl (fun _ => rfl) (fun _ _ _ => rfl) (fun t => by rw [hafter]; unfold Dat.blockOf lblk; rw [hA]; try rfl) t d).trans
    (by unfold Dat.fetched Dat.blockOf lblk; rw [hA]; try rfl)
/-- Window 2: the column chunk of the padded prototypes. -/
theorem lfound_2_of {c : Dev nD} (dat : Dat τ (Elt F) Unit ℕ (UR sig nD τ) ℕ cfg1 c) (hA : dat.A 2 = V c (Pipeline.arrRef spec1 2))
    (hafter : ∀ t, dat.after 2 t = lblk V c 2 t) (t : Fin cfg1.N) (d) : dat.before 2 t d = lblk V c 2 t :=
  (dat.before_in_eq_fetched 2 rfl (fun _ => rfl) (fun _ _ _ => rfl) (fun t => by rw [hafter]; unfold Dat.blockOf lblk; rw [hA]; try rfl) t d).trans
    (by unfold Dat.fetched Dat.blockOf lblk; rw [hA]; try rfl)

/-! ## The two branches, over the linear point -/

/-- "This is column chunk 0": the accumulator is zeroed first. -/
abbrev lfirst (i : grid1.Coords) : Prop :=
  (Scalar.cmpi .ne (Scalar.extui (Scalar.cmpi .eq (BitVec.ofNat 32 (i 1).val) 0#32)) 0#32) = 1#1
theorem lfirst_iff : ∀ t : Fin cfg1.N, lfirst (grid1.coords t) ↔ t.val % 8 = 0 :=
  (by decide +kernel : ∀ t : Fin grid1.N, lfirst (grid1.coords t) ↔ t.val % 8 = 0)

/-- "This is column chunk 7": the accumulator is copied to the output block. -/
abbrev llast (i : grid1.Coords) : Prop := k1_cond2 i = 1#1
theorem llast_iff : ∀ t : Fin cfg1.N, llast (grid1.coords t) ↔ t.val % 8 = 7 :=
  (by decide +kernel : ∀ t : Fin grid1.N, llast (grid1.coords t) ↔ t.val % 8 = 7)

/-! ## Where the windows are idle -/

theorem llive_0 : ∀ t : Fin cfg1.N, cfg1.idle 0 (grid1.coords t) = false := by decide +kernel
theorem llive_1 : ∀ t : Fin cfg1.N, cfg1.idle 1 (grid1.coords t) = false := by decide +kernel
theorem llive_2 : ∀ t : Fin cfg1.N, cfg1.idle 2 (grid1.coords t) = false := by decide +kernel
/-- Before the last chunk the body stores nothing into the output block: the window is idle there -/
theorem lidle_3 : ∀ t : Fin cfg1.N, ¬llast (grid1.coords t) → cfg1.idle 3 (grid1.coords t) = true := by decide +kernel
/-- and the pipeline does not write the block back; -/
theorem lnoflush_3 : ∀ t : Fin cfg1.N, ¬llast (grid1.coords t) → (cfg1.win 3).flush t = false := by decide +kernel
/-- at the last chunk it is live. -/
theorem llive_3 : ∀ t : Fin cfg1.N, llast (grid1.coords t) → cfg1.idle 3 (grid1.coords t) = false := by decide +kernel

/-! ## The accumulator scratch -/

/-- The accumulator: the kernel's one scratch operand, a whole scoped buffer. -/
abbrev lacc : Memref sig .tc .vmem S512x3 .f32 := Memref.whole cc1_scratch0

/-- The scoped buffers of the other pallas_call (its staging buffers and its scratch), each whole at some contents:
    this region carries them along untouched. -/
def lrest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant hands over: the accumulator as a memref owned at some contents, the other call's scoped
    buffers, the generator register at some state; -/
theorem lPhiA_open (c : Dev nD) :
    (Pipeline.ΦA spec1 c : sProp 𝕄)
      ⊢ iprop(((∃ d, owns (c : Thread nD τ) lacc fullShare d) ∗ lrest (F := F) c) ∗ (∃ r, prngReg c r)) := by
  unfold Pipeline.ΦA lrest; rw [scopedRest1_eq]; simp only [lacc, owns_whole]
  iintro ⟨⟨B0, B1, B2, B3, B4, B5, B6, B7, B8, HS⟩, Hg⟩
  isplitr [Hg]
  · isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- and takes them back. -/
theorem lPhiA_close (c : Dev nD) :
    iprop(((∃ d, owns (c : Thread nD τ) lacc fullShare d) ∗ lrest (F := F) c) ∗ (∃ r, prngReg c r))
      ⊢ (Pipeline.ΦA spec1 c : sProp 𝕄) := by
  unfold Pipeline.ΦA lrest; rw [scopedRest1_eq]; simp only [lacc, owns_whole]
  iintro ⟨⟨HS, B0, B1, B2, B3, B4, B5, B6, B7, B8⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact HS
  iexact Hg

end Cert.Kernel.Hand

end
-- ==== Proof.KernelBits.LogitBody.lean ====
/-
  The logits kernel's body on whole staging memrefs, in its three control cases, each as a triple with the
  contents it leaves written out over the skeleton's payloads:
  * first column chunk: the accumulator is zeroed (`k1_pay1`), then the chunk's partial logits are added to it;
  * a middle chunk: the chunk's partial logits are added to what the chunk before left;
  * last chunk: the same, and the accumulator is then copied to the output block.
  `k1_pay2 x f p a` is `a` plus the chunk's contribution: the sign of the features tile `x` times the projection
  chunk `f`, contracted over the chunk's columns with the prototypes chunk `p`.
-/
import proofs.«421992_j38809324486988_3_alg».proof.Proof.KernelBits.LogitCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem lzero2 : (![0, 0] : Fin 2 → Nat) = fun _ => 0 := by funext a; fin_cases a <;> rfl

/-- A whole-block store, last, covers the block. -/
theorem lcover_head {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.Mem.head _, View.mem_set_unit_zero h inb y⟩

set_option maxHeartbeats 1000000 in
/-- A middle chunk: neither branch is taken. -/
theorem lrun_mid (c : Dev nD) (i : grid1.Coords) (a2 : Memref sig .tc .vmem S512x128 .f32) (h2 : a2.IsWhole) (a3 : Memref sig .tc .vmem S128x1280 .f32) (h3 : a3.IsWhole) (a4 : Memref sig .tc .vmem S3x1280 .f32) (h4 : a4.IsWhole) (a5 : Memref sig .tc .vmem S512x3 .f32) (h5 : a5.IsWhole) (a6 : Memref sig .tc .vmem S512x3 .f32) (h6 : a6.IsWhole)
    (hfirst : ¬lfirst i) (hlast : ¬llast i)
    (x0 : Vec F S512x128 .f32) (x1 : Vec F S128x1280 .f32) (x2 : Vec F S3x1280 .f32) (xo : Vec F S512x3 .f32) (xs : Vec F S512x3 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare xs
        ∗ (iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare (k1_pay2 x0 x1 x2 xs)) -∗ K ⟨⟩))
      ⊢ wp frame (wpE (defs₀ (F := F)) Variants.none c none) E (cc1__logits_kernel i a2 h2 a3 h3 a4 h4 a5 h5 a6 h6) K := by
  simp only [cc1__logits_kernel_eq_skeleton]; unfold cc1__logits_kernel_skel
  unfold owns
  iintro ⟨⟨%f0, %hf0, H0⟩, ⟨%f1, %hf1, H1⟩, ⟨%f2, %hf2, H2⟩, ⟨%fo, %hfo, Ho⟩, ⟨%fs, %hfs, HS⟩, Hk⟩
  obtain rfl := h2.eq_unread hf0; obtain rfl := h3.eq_unread hf1; obtain rfl := h4.eq_unread hf2
  obtain rfl := h5.eq_unread hfo; obtain rfl := h6.eq_unread hfs
  sl_exec (disch := first | exact hfirst | exact hlast)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [Ho]
  · iexists _; isplitr; · ipureintro; exact h5.read_unread _
    iexact Ho
  iexists _; isplitr
  swap; · iexact HS
  ipureintro
  sl_unfold_words
  rw [View.read_writes_eq_canon _ _ _ (lcover_head lzero2 _ _ _), View.canon_cons_unit_zero lzero2]
  simp only [View.readAt_eq_ld, Memref.IsWhole.read_unread, View.ld_unit_zero (S := S512x128) lzero2, View.ld_unit_zero (S := S128x1280) lzero2, View.ld_unit_zero (S := S3x1280) lzero2, View.ld_unit_zero (S := S512x3) lzero2]

set_option maxHeartbeats 1000000 in
/-- The first chunk: the accumulator, found at anything, is zeroed before the chunk is added. -/
theorem lrun_first (c : Dev nD) (i : grid1.Coords) (a2 : Memref sig .tc .vmem S512x128 .f32) (h2 : a2.IsWhole) (a3 : Memref sig .tc .vmem S128x1280 .f32) (h3 : a3.IsWhole) (a4 : Memref sig .tc .vmem S3x1280 .f32) (h4 : a4.IsWhole) (a5 : Memref sig .tc .vmem S512x3 .f32) (h5 : a5.IsWhole) (a6 : Memref sig .tc .vmem S512x3 .f32) (h6 : a6.IsWhole)
    (hfirst : lfirst i) (hlast : ¬llast i)
    (x0 : Vec F S512x128 .f32) (x1 : Vec F S128x1280 .f32) (x2 : Vec F S3x1280 .f32) (xo : Vec F S512x3 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare xo ∗ (∃ d, owns (c : Thread nD τ) a6 fullShare d)
        ∗ (iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare (k1_pay2 x0 x1 x2 (k1_pay1 (F := F)))) -∗ K ⟨⟩))
      ⊢ wp frame (wpE (defs₀ (F := F)) Variants.none c none) E (cc1__logits_kernel i a2 h2 a3 h3 a4 h4 a5 h5 a6 h6) K := by
  simp only [cc1__logits_kernel_eq_skeleton]; unfold cc1__logits_kernel_skel
  unfold owns
  iintro ⟨⟨%f0, %hf0, H0⟩, ⟨%f1, %hf1, H1⟩, ⟨%f2, %hf2, H2⟩, ⟨%fo, %hfo, Ho⟩, ⟨%ds, %fs, -, HS⟩, Hk⟩
  obtain rfl := h2.eq_unread hf0; obtain rfl := h3.eq_unread hf1; obtain rfl := h4.eq_unread hf2
  obtain rfl := h5.eq_unread hfo
  sl_exec (disch := first | exact hfirst | exact hlast)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [Ho]
  · iexists _; isplitr; · ipureintro; exact h5.read_unread _
    iexact Ho
  iexists _; isplitr
  swap; · iexact HS
  ipureintro
  sl_unfold_words
  rw [View.read_writes_eq_canon _ _ _ (lcover_head lzero2 _ _ _), View.canon_cons_unit_zero lzero2]
  simp only [View.readAt_eq_ld, Memref.IsWhole.read_unread, View.ld_unit_zero (S := S512x128) lzero2, View.ld_unit_zero (S := S128x1280) lzero2, View.ld_unit_zero (S := S3x1280) lzero2, View.ld_unit_zero (S := S512x3) lzero2, View.readCov_unit_zero (S := S512x3) _ lzero2]

set_option maxHeartbeats 1000000 in
/-- The last chunk: after the chunk is added the accumulator is copied to the output block, found at anything. -/
theorem lrun_last (c : Dev nD) (i : grid1.Coords) (a2 : Memref sig .tc .vmem S512x128 .f32) (h2 : a2.IsWhole) (a3 : Memref sig .tc .vmem S128x1280 .f32) (h3 : a3.IsWhole) (a4 : Memref sig .tc .vmem S3x1280 .f32) (h4 : a4.IsWhole) (a5 : Memref sig .tc .vmem S512x3 .f32) (h5 : a5.IsWhole) (a6 : Memref sig .tc .vmem S512x3 .f32) (h6 : a6.IsWhole)
    (hfirst : ¬lfirst i) (hlast : llast i)
    (x0 : Vec F S512x128 .f32) (x1 : Vec F S128x1280 .f32) (x2 : Vec F S3x1280 .f32) (xs : Vec F S512x3 .f32)
    (E : Set ℕ) (K : PUnit → sProp 𝕄) :
    iprop(owns (c : Thread nD τ) a2 fullShare x0 ∗ owns (c : Thread nD τ) a3 fullShare x1 ∗ owns (c : Thread nD τ) a4 fullShare x2 ∗ (∃ d, owns (c : Thread nD τ) a5 fullShare d) ∗ owns (c : Thread nD τ) a6 fullShare xs
        ∗ (iprop(owns (c : Thread nD τ) a2 fullShare x0 ∗ owns (c : Thread nD τ) a3 fullShare x1 ∗ owns (c : Thread nD τ) a4 fullShare x2 ∗ owns (c : Thread nD τ) a5 fullShare (k1_pay2 x0 x1 x2 xs) ∗ owns (c : Thread nD τ) a6 fullShare (k1_pay2 x0 x1 x2 xs)) -∗ K ⟨⟩))
      ⊢ wp frame (wpE (defs₀ (F := F)) Variants.none c none) E (cc1__logits_kernel i a2 h2 a3 h3 a4 h4 a5 h5 a6 h6) K := by
  simp only [cc1__logits_kernel_eq_skeleton]; unfold cc1__logits_kernel_skel
  unfold owns
  iintro ⟨⟨%f0, %hf0, H0⟩, ⟨%f1, %hf1, H1⟩, ⟨%f2, %hf2, H2⟩, ⟨%d_o, %fo, -, Ho⟩, ⟨%fs, %hfs, HS⟩, Hk⟩
  obtain rfl := h2.eq_unread hf0; obtain rfl := h3.eq_unread hf1; obtain rfl := h4.eq_unread hf2
  obtain rfl := h6.eq_unread hfs
  sl_exec (disch := first | exact hfirst | exact hlast)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [Ho]
  · iexists _; isplitr
    swap; · iexact Ho
    ipureintro
    sl_unfold_words
    rw [View.read_writes_eq_canon _ _ _ (lcover_head lzero2 _ _ _), View.canon_cons_unit_zero lzero2]
    simp only [View.readAt_eq_ld, Memref.IsWhole.read_unread, View.ld_unit_zero (S := S512x128) lzero2, View.ld_unit_zero (S := S128x1280) lzero2, View.ld_unit_zero (S := S3x1280) lzero2, View.ld_unit_zero (S := S512x3) lzero2, View.readCov_unit_zero (S := S512x3) _ lzero2]
  iexists _; isplitr
  swap; · iexact HS
  ipureintro
  sl_unfold_words
  rw [View.read_writes_eq_canon _ _ _ (lcover_head lzero2 _ _ _), View.canon_cons_unit_zero lzero2]
  simp only [View.readAt_eq_ld, Memref.IsWhole.read_unread, View.ld_unit_zero (S := S512x128) lzero2, View.ld_unit_zero (S := S128x1280) lzero2, View.ld_unit_zero (S := S3x1280) lzero2, View.ld_unit_zero (S := S512x3) lzero2]

end Cert.Kernel.Hand

end
-- ==== Proof.KernelBits.LogitData.lean ====
/-
  The logits region's proof data, at the arrays `V` the region is entered with.

  The accumulator after point `n` (`laccAt`): at a first column chunk (n a multiple of 8) the chunk's partial
  logits added to zero, otherwise added to what point `n - 1` left. The output block is written only at a last
  chunk (n = 7 mod 8), with the accumulator's contents; the pipeline writes it back exactly there. The invariant
  between points names the accumulator's contents after the first point; the other scoped buffers and the
  generator register ride along.
-/
import proofs.«421992_j38809324486988_3_alg».proof.Proof.KernelBits.LogitBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator, point by point -/

/-- What the accumulator holds after the body at position `n`. -/
def laccAt (c : Dev nD) : (n : ℕ) → n < cfg1.N → Vec F S512x3 .f32
  | 0, hn => k1_pay2 (lblk V c 0 ⟨0, hn⟩) (lblk V c 1 ⟨0, hn⟩) (lblk V c 2 ⟨0, hn⟩) (k1_pay1 (F := F))
  | n + 1, hn =>
    if (n + 1) % 8 = 0 then
      k1_pay2 (lblk V c 0 ⟨n + 1, hn⟩) (lblk V c 1 ⟨n + 1, hn⟩) (lblk V c 2 ⟨n + 1, hn⟩) (k1_pay1 (F := F))
    else
      k1_pay2 (lblk V c 0 ⟨n + 1, hn⟩) (lblk V c 1 ⟨n + 1, hn⟩) (lblk V c 2 ⟨n + 1, hn⟩) (laccAt c n (Nat.lt_of_succ_lt hn))

/-- At a first chunk: the chunk's partial logits over zero. -/
theorem laccAt_first (c : Dev nD) (t : Fin cfg1.N) (h : t.val % 8 = 0) :
    laccAt V c t.val t.isLt = k1_pay2 (lblk V c 0 t) (lblk V c 1 t) (lblk V c 2 t) (k1_pay1 (F := F)) := by
  obtain ⟨n, hn⟩ := t
  cases n with
  | zero => rfl
  | succ n => exact (if_pos h).trans rfl

/-- At any other chunk: the chunk's partial logits over what the point before left. -/
theorem laccAt_next (c : Dev nD) (t : Fin cfg1.N) (h : ¬t.val % 8 = 0) :
    laccAt V c t.val t.isLt = k1_pay2 (lblk V c 0 t) (lblk V c 1 t) (lblk V c 2 t)
      (laccAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- Before the first point the accumulator at anything; after point `n` at `laccAt n`; beside it the other call's
    scoped buffers and the generator register. -/
def lPhi (c : Dev nD) : (n : ℕ) → n ≤ cfg1.N → sProp 𝕄
  | 0, _ => iprop(((∃ d, owns (c : Thread nD τ) lacc fullShare d) ∗ lrest (F := F) c) ∗ (∃ r, prngReg c r))
  | n + 1, hn => iprop((owns (c : Thread nD τ) lacc fullShare (laccAt V c n hn) ∗ lrest (F := F) c) ∗ (∃ r, prngReg c r))

theorem lPhi_zero (c : Dev nD) (n : ℕ) (h : n ≤ cfg1.N) (hz : n = 0) :
    lPhi V c n h = iprop(((∃ d, owns (c : Thread nD τ) lacc fullShare d) ∗ lrest (F := F) c) ∗ (∃ r, prngReg c r)) := by
  subst hz; rfl

theorem lPhi_succ (c : Dev nD) (n : ℕ) (hn : n < cfg1.N) :
    lPhi V c (n + 1) hn = iprop((owns (c : Thread nD τ) lacc fullShare (laccAt V c n hn) ∗ lrest (F := F) c) ∗ (∃ r, prngReg c r)) := rfl

theorem lPhi_pos (c : Dev nD) (n : ℕ) (h : n ≤ cfg1.N) (hz : n ≠ 0) :
    lPhi V c n h = iprop((owns (c : Thread nD τ) lacc fullShare (laccAt V c (n - 1) (by omega)) ∗ lrest (F := F) c) ∗ (∃ r, prngReg c r)) := by
  cases n with
  | zero => exact absurd rfl hz
  | succ n => rfl

/-! ## The proof data -/

/-- Arrays as the region finds them; each input's staging buffer at its block; the output block at the
    accumulator's contents (consulted only at a last chunk); the invariant `lPhi`; nothing owed; full shares. -/
def ldat (c : Dev nD) : Dat τ (Elt F) Unit ℕ (UR sig nD τ) ℕ cfg1 c where
  A w := V c (Pipeline.arrRef spec1 w)
  after w t := match w with
    | ⟨0, _⟩ => lblk V c 0 t
    | ⟨1, _⟩ => lblk V c 1 t
    | ⟨2, _⟩ => lblk V c 2 t
    | ⟨3, _⟩ => laccAt V c t.val t.isLt
  Φ t := lPhi V c t.val (Nat.le_of_lt_succ t.isLt)
  q _ := fullShare
  owed _ := 0

theorem lA_eq (c : Dev nD) (w : Fin cfg1.W) : (ldat V c).A w = V c (Pipeline.arrRef spec1 w) := by
  dsimp only [ldat]

theorem lPhi_castSucc (c : Dev nD) (t : Fin cfg1.N) :
    (ldat V c).Φ t.castSucc = lPhi V c t.val (Nat.le_of_lt t.isLt) := by
  dsimp only [ldat]; simp only [Fin.coe_castSucc]

theorem lafter_0 (c : Dev nD) (t : Fin cfg1.N) : (ldat V c).after 0 t = lblk V c 0 t := by dsimp only [ldat]
theorem lafter_1 (c : Dev nD) (t : Fin cfg1.N) : (ldat V c).after 1 t = lblk V c 1 t := by dsimp only [ldat]
theorem lafter_2 (c : Dev nD) (t : Fin cfg1.N) : (ldat V c).after 2 t = lblk V c 2 t := by dsimp only [ldat]
theorem lafter_3 (c : Dev nD) (t : Fin cfg1.N) : (ldat V c).after 3 t = laccAt V c t.val t.isLt := by dsimp only [ldat]

theorem lbefore_0 (c : Dev nD) (t : Fin cfg1.N) (d) : (ldat V c).before 0 t d = lblk V c 0 t :=
  lfound_0_of V (ldat V c) (lA_eq V c 0) (lafter_0 V c) t d
theorem lbefore_1 (c : Dev nD) (t : Fin cfg1.N) (d) : (ldat V c).before 1 t d = lblk V c 1 t :=
  lfound_1_of V (ldat V c) (lA_eq V c 1) (lafter_1 V c) t d
theorem lbefore_2 (c : Dev nD) (t : Fin cfg1.N) (d) : (ldat V c).before 2 t d = lblk V c 2 t :=
  lfound_2_of V (ldat V c) (lA_eq V c 2) (lafter_2 V c) t d

/-! ## The body obligation -/

/-- What the body is called with at point `t`, the windows one by one, -/
def lbodyPre (c : Dev nD) (t : Fin cfg1.N) : sProp 𝕄 :=
  iprop((ldat V c).Φ t.castSucc ∗ (ldat V c).owesAt () t.castSucc
    ∗ (∃ d, owns (c : Thread nD τ) (win1_0.stage (cfg1.slots t 0)) fullShare ((ldat V c).before 0 t d))
    ∗ (∃ d, owns (c : Thread nD τ) (win1_1.stage (cfg1.slots t 1)) fullShare ((ldat V c).before 1 t d))
    ∗ (∃ d, owns (c : Thread nD τ) (win1_2.stage (cfg1.slots t 2)) fullShare ((ldat V c).before 2 t d))
    ∗ (∃ d, owns (c : Thread nD τ) (win1_3.stage (cfg1.slots t 3)) fullShare ((ldat V c).before 3 t d)))

/-- and what it returns. -/
def lbodyPost (c : Dev nD) (t : Fin cfg1.N) : sProp 𝕄 :=
  iprop((ldat V c).Φ t.succ ∗ (ldat V c).owesAt () t.succ
    ∗ (ldat V c).leavesExact 0 t ∗ (ldat V c).leavesExact 1 t ∗ (ldat V c).leavesExact 2 t ∗ (ldat V c).leavesExact 3 t)

theorem lleaves_0 (c : Dev nD) (t : Fin cfg1.N) :
    (ldat V c).leavesExact 0 t = owns (c : Thread nD τ) (win1_0.stage (cfg1.slots t 0)) fullShare (lblk V c 0 t) := by
  unfold Dat.leavesExact; rw [llive_0 t, lafter_0]; try rfl
theorem lleaves_1 (c : Dev nD) (t : Fin cfg1.N) :
    (ldat V c).leavesExact 1 t = owns (c : Thread nD τ) (win1_1.stage (cfg1.slots t 1)) fullShare (lblk V c 1 t) := by
  unfold Dat.leavesExact; rw [llive_1 t, lafter_1]; try rfl
theorem lleaves_2 (c : Dev nD) (t : Fin cfg1.N) :
    (ldat V c).leavesExact 2 t = owns (c : Thread nD τ) (win1_2.stage (cfg1.slots t 2)) fullShare (lblk V c 2 t) := by
  unfold Dat.leavesExact; rw [llive_2 t, lafter_2]; try rfl

set_option maxHeartbeats 4000000 in
/-- The body at any point, by the point's case. The invariant hands the accumulator over at what the point
    before left (at anything before the first point) and takes it back at this point's contents. -/
theorem lsound_body (c : Dev nD) (t : Fin cfg1.N) :
    lbodyPre V c t ⊢ wp frame (wpE (defs₀ (F := F)) Variants.none c none) Set.univ (bodyAt1 t) (fun _ => lbodyPost V c t) := by
  unfold lbodyPre lbodyPost bodyAt1
  simp only [lbefore_0, lbefore_1, lbefore_2, lleaves_0, lleaves_1, lleaves_2]
  rw [show (ldat V c).owesAt () t.succ = (ldat V c).owesAt () t.castSucc from rfl]
  rw [show (ldat V c).Φ t.succ = lPhi V c (t.val + 1) t.isLt from rfl, lPhi_succ]
  have hN : t.val < 256 := lt_of_lt_of_eq t.isLt (show cfg1.N = 256 from N_1)
  by_cases h0 : t.val % 8 = 0
  · have hl : ¬llast (grid1.coords t) := fun h => by have := (llast_iff t).mp h; omega
    have hf : lfirst (grid1.coords t) := (lfirst_iff t).mpr h0
    rw [Dat.leavesExact_idle (ldat V c) 3 t (lidle_3 t hl) (lnoflush_3 t hl), laccAt_first V c t h0]
    by_cases hz : t.val = 0
    · rw [lPhi_castSucc V c t, lPhi_zero V c _ _ hz]
      iintro ⟨⟨⟨HS, Hr⟩, Hg⟩, Ho, ⟨%d0, H0⟩, ⟨%d1, H1⟩, ⟨%d2, H2⟩, ⟨%d3, H3⟩⟩
      iapply (lrun_first c (grid1.coords t) _ _ _ _ _ _ _ _ _ _ hf hl (lblk V c 0 t) (lblk V c 1 t) (lblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [lPhi_castSucc V c t, lPhi_pos V c _ _ hz]
      iintro ⟨⟨⟨HS, Hr⟩, Hg⟩, Ho, ⟨%d0, H0⟩, ⟨%d1, H1⟩, ⟨%d2, H2⟩, ⟨%d3, H3⟩⟩
      iapply (lrun_first c (grid1.coords t) _ _ _ _ _ _ _ _ _ _ hf hl (lblk V c 0 t) (lblk V c 1 t) (lblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hf : ¬lfirst (grid1.coords t) := fun h => h0 ((lfirst_iff t).mp h)
    have hz : t.val ≠ 0 := fun h => h0 (by rw [h])
    rw [lPhi_castSucc V c t, lPhi_pos V c _ _ hz, laccAt_next V c t h0]
    by_cases h1 : t.val % 8 = 7
    · have hl : llast (grid1.coords t) := (llast_iff t).mpr h1
      rw [show (ldat V c).leavesExact 3 t = owns (c : Thread nD τ) (win1_3.stage (cfg1.slots t 3)) fullShare ((ldat V c).after 3 t) from by
        unfold Dat.leavesExact; rw [llive_3 t hl]; try rfl]
      rw [lafter_3, laccAt_next V c t h0]
      iintro ⟨⟨⟨HS, Hr⟩, Hg⟩, Ho, ⟨%d0, H0⟩, ⟨%d1, H1⟩, ⟨%d2, H2⟩, ⟨%d3, H3⟩⟩
      iapply (lrun_last c (grid1.coords t) _ _ _ _ _ _ _ _ _ _ hf hl (lblk V c 0 t) (lblk V c 1 t) (lblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hl : ¬llast (grid1.coords t) := fun h => h1 ((llast_iff t).mp h)
      rw [Dat.leavesExact_idle (ldat V c) 3 t (lidle_3 t hl) (lnoflush_3 t hl)]
      iintro ⟨⟨⟨HS, Hr⟩, Hg⟩, Ho, ⟨%d0, H0⟩, ⟨%d1, H1⟩, ⟨%d2, H2⟩, ⟨%d3, H3⟩⟩
      iapply (lrun_mid c (grid1.coords t) _ _ _ _ _ _ _ _ _ _ hf hl (lblk V c 0 t) (lblk V c 1 t) (lblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem lbody_obligation (c : Dev nD) : BodyObligation (ldat (F := F) V c) (defs₀ (F := F)) Variants.none () Set.univ := fun t => by
  rw [bigSep_W1, bigSep_W1]
  exact lsound_body V c t

/-- The class invariant gives the invariant before the first point, -/
theorem lPhi_in (c : Dev nD) : Pipeline.ΦA spec1 c ⊢ (ldat V c).Φ 0 := by
  rw [show (ldat V c).Φ 0 = lPhi V c 0 (Nat.zero_le _) from rfl, lPhi_zero V c 0 _ rfl]
  exact lPhiA_open c

/-- and after the last point the invariant gives it back, the accumulator's contents forgotten. -/
theorem lPhi_out (c : Dev nD) : (ldat V c).Φ (Fin.last cfg1.N) ⊢ Pipeline.ΦA spec1 c := by
  rw [show (ldat V c).Φ (Fin.last cfg1.N) = lPhi V c (Fin.last cfg1.N).val (Nat.le_of_lt_succ (Fin.last cfg1.N).isLt) from rfl,
    lPhi_pos V c _ _ (by rw [Fin.val_last]; have : cfg1.N = 256 := N_1; omega)]
  refine Idealize.SL.BI.BIBase.Entails.trans ?_ (lPhiA_close c)
  iintro ⟨⟨HS, Hr⟩, Hg⟩
  isplitl [HS Hr]
  · isplitl [HS]; · iexists _; iexact HS
    iexact Hr
  iexact Hg

end Cert.Kernel.Hand

end
-- ==== Proof.KernelBits.WholeRun.lean ====
/-
  The whole program's run: @main is host operations, the per-class accumulation region, host operations, the
  logits region, host operations. Between two items a core holds every unscoped buffer at a known valuation: the
  launch memory, then each host stretch applied, then a region's output array replaced by what its write-backs
  leave. Here: those contents for the two regions, each region as a segment of the run (its arrays split out of
  the unscoped buffers at entry and joined back at exit, the generator register lent to the region's invariant and
  returned, nothing owed), and the run itself: every weakly fair execution of @main terminates and ends with every
  unscoped buffer at the last valuation.
-/
import proofs.«421992_j38809324486988_3_alg».proof.Proof.KernelBits.ClassData
import proofs.«421992_j38809324486988_3_alg».proof.Proof.KernelBits.LogitData
import proofs.«421992_j38809324486988_3_alg».proof.Proof.Gen.Kernel.Regions
import Idealize.ShloMosaic.Lib.Pipeline.RegionsLoop
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What the first region is entered with. -/
abbrev cin (c : Dev nD) (b : Ref sig .tc) : Buf (Elt F) ((c : Thread nD τ).loc b) := Gen.V3 m c b

/-- What the first region leaves in its output array: its write-backs folded over the entry contents. -/
def cout (c : Dev nD) : Buf (Elt F) ((c : Thread nD τ).loc main_v3) := (cdat (cin m) c).arrAt 3 cfg0.N

/-- The regions' outputs as the run's valuations read them, first stage: the first region's only. -/
def outsA : Gen.Outs (F := F) := fun _ r c => Function.update (Gen.V3 m c) main_v3 (cout m c) r

/-- What the second region is entered with. -/
abbrev lin (c : Dev nD) (b : Ref sig .tc) : Buf (Elt F) ((c : Thread nD τ).loc b) := Gen.V8 m (outsA m) c b

/-- What the second region leaves in its output array. -/
def lout (c : Dev nD) : Buf (Elt F) ((c : Thread nD τ).loc main_v15) := (ldat (lin m) c).arrAt 3 cfg1.N

/-- Both regions' outputs. -/
def outsB : Gen.Outs (F := F) := fun j r c =>
  if j = 9 then Function.update (Gen.V8 m (outsA m) c) main_v15 (lout m c) r else outsA m j r c

theorem outsB_4 (c : Dev nD) : outsB m 4 main_v3 c = cout m c := by
  unfold outsB outsA; rw [if_neg (by decide)]; exact Function.update_self ..

theorem V4_B (c : Dev nD) : Gen.V4 m (outsB m) c = Gen.V4 m (outsA m) c := by
  show Function.update _ _ _ = Function.update _ _ _
  rw [outsB_4]; unfold outsA; rw [Function.update_self]

theorem V8_B (c : Dev nD) : Gen.V8 m (outsB m) c = Gen.V8 m (outsA m) c := by
  show StableHlo.after _ (StableHlo.after _ (StableHlo.after _ (StableHlo.after _ (Gen.V4 m (outsB m) c)))) = StableHlo.after _ (StableHlo.after _ (StableHlo.after _ (StableHlo.after _ (Gen.V4 m (outsA m) c))))
  rw [V4_B]

/-- After the first region its output array holds `cout`, -/
theorem V4_out (c : Dev nD) : Gen.V4 m (outsB m) c main_v3 = cout m c := by
  show Function.update _ _ _ _ = _
  rw [Function.update_self]; exact outsB_4 m c

/-- and after the second its output array holds `lout`. -/
theorem V9_out (c : Dev nD) : Gen.V9 m (outsB m) c main_v15 = lout m c := by
  show Function.update _ _ _ _ = _
  rw [Function.update_self]; unfold outsB; rw [if_pos rfl]; exact Function.update_self ..

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => cdat (cin m) c
  | ⟨1, _⟩ => fun c => ldat (lin m) c

abbrev noLv : GSem nD τ sig → Finset Unit := fun _ => ∅
abbrev zeroLv : GSem nD τ sig → Unit → ℕ := fun _ _ => 0

/-- Beside the buffers, through every item: the generator register at some state, and nothing owed. -/
abbrev side (c : Dev nD) : sProp 𝕄 := iprop((∃ r, prngReg c r) ∗ ∃ W, owes (c : Thread nD τ) (0 : CellTallies nD τ sig Unit) W)

/-! ## The first region's arrays at its exit -/

theorem cexit_arr (c : Dev nD) : ∀ w : Fin cfg0.W, (cdat (cin m) c).arrAt w cfg0.N = Gen.V4 m (outsB m) c (Pipeline.arrRef spec0 w)
  | ⟨0, _⟩ => ((cdat (cin m) c).arrAt_in 0 rfl _).trans ((cA_eq (cin m) c 0).trans (Gen.V4_of m (outsB m) c _ (by decide)).symm)
  | ⟨1, _⟩ => ((cdat (cin m) c).arrAt_in 1 rfl _).trans ((cA_eq (cin m) c 1).trans (Gen.V4_of m (outsB m) c _ (by decide)).symm)
  | ⟨2, _⟩ => ((cdat (cin m) c).arrAt_in 2 rfl _).trans ((cA_eq (cin m) c 2).trans (Gen.V4_of m (outsB m) c _ (by decide)).symm)
  | ⟨3, _⟩ => (V4_out m c).symm

theorem cexit_rest (c : Dev nD) : ∀ b, b ∉ Finset.univ.image (Pipeline.arrRef spec0) → Gen.V4 m (outsB m) c b = cin m c b :=
  fun b hb => Gen.V4_of m (outsB m) c b (fun h => hb (by
    rw [List.mem_singleton] at h; subst h
    exact Finset.mem_image.mpr ⟨3, Finset.mem_univ _, rfl⟩))

/-! ## The second region's arrays at its exit -/

theorem lexit_arr (c : Dev nD) : ∀ w : Fin cfg1.W, (ldat (lin m) c).arrAt w cfg1.N = Gen.V9 m (outsB m) c (Pipeline.arrRef spec1 w)
  | ⟨0, _⟩ => ((ldat (lin m) c).arrAt_in 0 rfl _).trans ((lA_eq (lin m) c 0).trans ((congrFun (V8_B m c) _).symm.trans (Gen.V9_of m (outsB m) c _ (by decide)).symm))
  | ⟨1, _⟩ => ((ldat (lin m) c).arrAt_in 1 rfl _).trans ((lA_eq (lin m) c 1).trans ((congrFun (V8_B m c) _).symm.trans (Gen.V9_of m (outsB m) c _ (by decide)).symm))
  | ⟨2, _⟩ => ((ldat (lin m) c).arrAt_in 2 rfl _).trans ((lA_eq (lin m) c 2).trans ((congrFun (V8_B m c) _).symm.trans (Gen.V9_of m (outsB m) c _ (by decide)).symm))
  | ⟨3, _⟩ => (V9_out m c).symm

theorem lexit_rest (c : Dev nD) : ∀ b, b ∉ Finset.univ.image (Pipeline.arrRef spec1) → Gen.V9 m (outsB m) c b = lin m c b :=
  fun b hb => (Gen.V9_of m (outsB m) c b (fun h => hb (by
    rw [List.mem_singleton] at h; subst h
    exact Finset.mem_image.mpr ⟨3, Finset.mem_univ _, rfl⟩))).trans (congrFun (V8_B m c) _)

/-! ## The regions as segments -/

set_option backward.isDefEq.respectTransparency.types false in
/-- The per-class accumulation region: entered from the buffers at `V3`, left at `V4`. -/
def creg : Pipeline.RegionSeg (pcfgs (F := F)) Gen.adm (pdats m) () defs₀ Variants.none noLv zeroLv 0 where
  win := launch0.win.to₀
  block_pos := launch0.block_pos
  stage_whole := launch0.stage_whole
  K := PEmpty
  osem k := k.elim
  ho := Pipeline.OwnSemFacts.none _
  hbody c := (cbody_obligation (cin m) c).loose
  hwaits := Pipeline.hwaits_of_owed_zero _ _ _ _ noLv zeroLv 0 fun _ _ => rfl
  pre c := iprop(StableHlo.held (c : Thread nD τ) (Pipeline.ucRefs τ sig) (Gen.V3 m c) ∗ side c)
  post c := iprop(StableHlo.held (c : Thread nD τ) (Pipeline.ucRefs τ sig) (Gen.V4 m (outsB m) c) ∗ side c)
  X c := iprop(∃ r, prngReg c r)
  Y c := iprop(∃ r, prngReg c r)
  Z c := Pipeline.unscopedRest (Ix := Unit) (Name := ℕ) (U := UR sig nD τ) (Lvl := ℕ) spec0 c (cin m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (cin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (cPhi_in (cin m) c)
    unfold Pipeline.ΦA
    iintro ⟨Hp, -, Hr⟩
    isplitl [Hr]; · iexact Hr
    iexact Hp
  hout c := by
    refine (cPhi_out (cin m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (cin m c) (fun b => Gen.V4 m (outsB m) c b) ((pdats m 0 c).arrAt · cfg0.N) (cexit_arr m c) (cexit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The logits region: entered from the buffers at `V8`, left at `V9`. -/
def lreg : Pipeline.RegionSeg (pcfgs (F := F)) Gen.adm (pdats m) () defs₀ Variants.none noLv zeroLv 1 where
  win := launch1.win.to₀
  block_pos := launch1.block_pos
  stage_whole := launch1.stage_whole
  K := PEmpty
  osem k := k.elim
  ho := Pipeline.OwnSemFacts.none _
  hbody c := (lbody_obligation (lin m) c).loose
  hwaits := Pipeline.hwaits_of_owed_zero _ _ _ _ noLv zeroLv 1 fun _ _ => rfl
  pre c := iprop(StableHlo.held (c : Thread nD τ) (Pipeline.ucRefs τ sig) (Gen.V8 m (outsA m) c) ∗ side c)
  post c := iprop(StableHlo.held (c : Thread nD τ) (Pipeline.ucRefs τ sig) (Gen.V9 m (outsB m) c) ∗ side c)
  X c := iprop(∃ r, prngReg c r)
  Y c := iprop(∃ r, prngReg c r)
  Z c := Pipeline.unscopedRest (Ix := Unit) (Name := ℕ) (U := UR sig nD τ) (Lvl := ℕ) spec1 c (lin m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (lin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (lPhi_in (lin m) c)
    unfold Pipeline.ΦA
    iintro ⟨Hp, -, Hr⟩
    isplitl [Hr]; · iexact Hr
    iexact Hp
  hout c := by
    refine (lPhi_out (lin m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (lin m c) (fun b => Gen.V9 m (outsB m) c b) ((pdats m 1 c).arrAt · cfg1.N) (lexit_arr m c) (lexit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, and every final memory
    holds each unscoped buffer at the last valuation: the launch memory, every host stretch applied, the regions'
    output arrays at `cout` and `lout`. -/
theorem whole_run : θ_run defs (onTc (τ := τ) (main (F := F))) ⟨m, fun _ => 0, ρ⟩ (fun r => ∀ c : Dev nD,
      ∀ b ∈ Pipeline.ucRefs τ sig, r.2.mem ((c : Thread nD τ).1, b) = Gen.V10 m (outsB m) c b) := by
  refine Pipeline.θ_run_regions_kit_dev (pcfgs (F := F)) Gen.adm (pdats m) () cellOf_inj emb₁ defs₀ Variants.none noLv zeroLv m ρ main
    (Gen.segs m (outsB m) Variants.none noLv zeroLv (fun _ c => side c) () (pdats m) (creg m) (lreg m))
    (fun c Q => by
      rewrite [main_chain c, Pipeline.Seg.run_eq_chain,
        show (Gen.segs m (outsB m) Variants.none noLv zeroLv (fun _ c => side c) () (pdats m) (creg m) (lreg m) c).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ side c))
    (Tₙ := fun c => StableHlo.held (c : Thread nD τ) (Pipeline.ucRefs τ sig) (Gen.V10 m (outsB m) c))
    (hch := fun c => ⟨.rfl, .rfl, .rfl, .rfl, .rfl, .rfl, .rfl, .rfl, (show iprop(StableHlo.held (c : Thread nD τ) (Pipeline.ucRefs τ sig) (Gen.V8 m (outsB m) c) ∗ side c)
        ⊢ iprop(StableHlo.held (c : Thread nD τ) (Pipeline.ucRefs τ sig) (Gen.V8 m (outsA m) c) ∗ side c) from by rw [V8_B]), .rfl,
      sep_mono .rfl (by iintro ⟨-, HO⟩; iexact HO)⟩)
    (hinit := by
      refine Pipeline.initEach noLv zeroLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V10 m (outsB m) c b)
    (hfin := fun c s' => by
      iintro ⟨Hh, HSI⟩
      unfold StableHlo.held
      imodintro
      iapply (pointsTo_read_all (Pipeline.ucRefs τ sig) (fun b => ((c : Thread nD τ).1, b)) (Gen.V10 m (outsB m) c) s')
      isplitl [Hh] <;> iassumption)
    (hQ := fun _ h => h)

/-- An unscoped TensorCore reference is among those the run's last state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V10_main_arg0 m (outsB m) c),
     (h c _ (mem_uc main_arg1 (by decide))).trans (Gen.V10_main_arg1 m (outsB m) c),
     (h c _ (mem_uc main_arg2 (by decide))).trans (Gen.V10_main_arg2 m (outsB m) c),
     (h c _ (mem_uc main_arg3 (by decide))).trans (Gen.V10_main_arg3 m (outsB m) c)⟩) (whole_run m ρ)

end Cert.Kernel.Hand

end
-- ==== Proof.ClassCases.lean ====
/-
  The per-class accumulation kernel (the first pallas_call) runs on the grid (core, column chunk, sample tile)
  = 2 x 8 x 16, the sample tile innermost. Its two branches look only at the sample tile: the accumulator is
  zeroed at tile 0 and written out to the output block at tile 15. Here: both conditions in closed form over the
  linear point (the tile is the point modulo 16), where the output window is idle or written back, each window's
  block as read off the arrays the region is entered with, and the class invariant with the accumulator scratch
  spelt as a memref.
-/
import proofs.«421992_j38809324486988_3_alg».proof.Proof.Gen.KernelIdeal.Launch
import proofs.«421992_j38809324486988_3_alg».proof.Proof.Gen.KernelIdeal.Skeleton
import proofs.«421992_j38809324486988_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The contents of the TensorCore's buffers when the region is entered: a parameter here.
variable (V : (c : Dev nD) → (b : Ref sig .tc) → Buf (Elt F) ((c : Thread nD τ).loc b))

/-! ## The windows' blocks -/

/-- Window `w`'s block at point `t` of the entry contents of its array. -/
def cblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs (fetched at that point or kept from
    an earlier one whose block index was the same), for any proof data over `V` whose body leaves the block in
    place. Window 0: the sample tile of the features. -/
theorem cfound_0_of {c : Dev nD} (dat : Dat τ (Elt F) Unit ℕ (UR sig nD τ) ℕ cfg0 c) (hA : dat.A 0 = V c (Pipeline.arrRef spec0 0))
    (hafter : ∀ t, dat.after 0 t = cblk V c 0 t) (t : Fin cfg0.N) (d) : dat.before 0 t d = cblk V c 0 t :=
  (dat.before_in_eq_fetched 0 rfl (fun _ => rfl) (fun _ _ _ => rfl) (fun t => by rw [hafter]; unfold Dat.blockOf cblk; rw [hA]; try rfl) t d).trans
    (by unfold Dat.fetched Dat.blockOf cblk; rw [hA]; try rfl)
/-- Window 1: the column chunk of the padded, transposed projection. -/
theorem cfound_1_of {c : Dev nD} (dat : Dat τ (Elt F) Unit ℕ (UR sig nD τ) ℕ cfg0 c) (hA : dat.A 1 = V c (Pipeline.arrRef spec0 1))
    (hafter : ∀ t, dat.after 1 t = cblk V c 1 t) (t : Fin cfg0.N) (d) : dat.before 1 t d = cblk V c 1 t :=
  (dat.before_in_eq_fetched 1 rfl (fun _ => rfl) (fun _ _ _ => rfl) (fun t => by rw [hafter]; unfold Dat.blockOf cblk; rw [hA]; try rfl) t d).trans
    (by unfold Dat.fetched Dat.blockOf cblk; rw [hA]; try rfl)
/-- Window 2: the sample tile of the one-hot labels. -/
theorem cfound_2_of {c : Dev nD} (dat : Dat τ (Elt F) Unit ℕ (UR sig nD τ) ℕ cfg0 c) (hA : dat.A 2 = V c (Pipeline.arrRef spec0 2))
    (hafter : ∀ t, dat.after 2 t = cblk V c 2 t) (t : Fin cfg0.N) (d) : dat.before 2 t d = cblk V c 2 t :=
  (dat.before_in_eq_fetched 2 rfl (fun _ => rfl) (fun _ _ _ => rfl) (fun t => by rw [hafter]; unfold Dat.blockOf cblk; rw [hA]; try rfl) t d).trans
    (by unfold Dat.fetched Dat.blockOf cblk; rw [hA]; try rfl)

/-! ## The two branches, over the linear point -/

/-- "This is sample tile 0": the accumulator is zeroed first. -/
abbrev cfirst (i : grid0.Coords) : Prop :=
  (Scalar.cmpi .ne (Scalar.extui (Scalar.cmpi .eq (BitVec.ofNat 32 (i 2).val) 0#32)) 0#32) = 1#1
theorem cfirst_iff : ∀ t : Fin cfg0.N, cfirst (grid0.coords t) ↔ t.val % 16 = 0 :=
  (by decide +kernel : ∀ t : Fin grid0.N, cfirst (grid0.coords t) ↔ t.val % 16 = 0)

/-- "This is sample tile 15": the accumulator is copied to the output block. -/
abbrev clast (i : grid0.Coords) : Prop := k0_cond2 i = 1#1
theorem clast_iff : ∀ t : Fin cfg0.N, clast (grid0.coords t) ↔ t.val % 16 = 15 :=
  (by decide +kernel : ∀ t : Fin grid0.N, clast (grid0.coords t) ↔ t.val % 16 = 15)

/-! ## Where the windows are idle -/

theorem clive_0 : ∀ t : Fin cfg0.N, cfg0.idle 0 (grid0.coords t) = false := by decide +kernel
theorem clive_1 : ∀ t : Fin cfg0.N, cfg0.idle 1 (grid0.coords t) = false := by decide +kernel
theorem clive_2 : ∀ t : Fin cfg0.N, cfg0.idle 2 (grid0.coords t) = false := by decide +kernel
/-- Before the last tile the body stores nothing into the output block: the window is idle there -/
theorem cidle_3 : ∀ t : Fin cfg0.N, ¬clast (grid0.coords t) → cfg0.idle 3 (grid0.coords t) = true := by decide +kernel
/-- and the pipeline does not write the block back; -/
theorem cnoflush_3 : ∀ t : Fin cfg0.N, ¬clast (grid0.coords t) → (cfg0.win 3).flush t = false := by decide +kernel
/-- at the last tile it is live. -/
theorem clive_3 : ∀ t : Fin cfg0.N, clast (grid0.coords t) → cfg0.idle 3 (grid0.coords t) = false := by decide +kernel

/-! ## The accumulator scratch -/

/-- The accumulator: the kernel's one scratch operand, a whole scoped buffer. -/
abbrev cacc : Memref sig .tc .vmem S3x1280 .f32 := Memref.whole cc0_scratch0

/-- The scoped buffers of the other pallas_call (its staging buffers and its scratch), each whole at some contents:
    this region carries them along untouched. -/
def crest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant: the accumulator as a memref owned at some contents, the other call's scoped buffers, the
    generator register at some state. -/
theorem cPhiA_eq (c : Dev nD) :
    (Pipeline.ΦA spec0 c : sProp 𝕄)
      = iprop(((∃ d, owns (c : Thread nD τ) cacc fullShare d) ∗ crest (F := F) c) ∗ (∃ r, prngReg c r)) := by
  unfold Pipeline.ΦA crest; rw [scopedRest0_eq]; simp only [cacc, owns_whole]; try rfl

end Cert.KernelIdeal.Hand

end
-- ==== Proof.ClassBody.lean ====
/-
  The per-class accumulation kernel's body on whole staging memrefs, in its three control cases, each as a triple
  with the contents it leaves written out over the skeleton's payloads:
  * first sample tile: the accumulator is zeroed (`k0_pay1`), then the tile's class sums are added to it;
  * a middle tile: the tile's class sums are added to what the tile before left;
  * last tile: the same, and the accumulator is then copied to the output block (`k0_pay3`).
  `k0_pay2 x f l a` is `a` plus the tile's contribution: the one-hot tile `l` transposed times the sign of the
  features tile `x` times the projection chunk `f`.
-/
import proofs.«421992_j38809324486988_3_alg».proof.Proof.ClassCases
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero2 : (![0, 0] : Fin 2 → Nat) = fun _ => 0 := by funext a; fin_cases a <;> rfl
theorem zero3 : (![0, 0, 0] : Fin 3 → Nat) = fun _ => 0 := by funext a; fin_cases a <;> rfl

/-- A whole-block store, last, covers the block. -/
theorem cover_head {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.Mem.head _, View.mem_set_unit_zero h inb y⟩

set_option maxHeartbeats 1000000 in
/-- A middle tile: neither branch is taken. -/
theorem crun_mid (c : Dev nD) (i : grid0.Coords) (a3 : Memref sig .tc .vmem S512x128 .f32) (h3 : a3.IsWhole) (a4 : Memref sig .tc .vmem S128x1280 .f32) (h4 : a4.IsWhole) (a5 : Memref sig .tc .vmem S512x3 .bf16) (h5 : a5.IsWhole) (a6 : Memref sig .tc .vmem S1x3x1280 .f32) (h6 : a6.IsWhole) (a7 : Memref sig .tc .vmem S3x1280 .f32) (h7 : a7.IsWhole)
    (hfirst : ¬cfirst i) (hlast : ¬clast i)
    (x0 : Vec F S512x128 .f32) (x1 : Vec F S128x1280 .f32) (x2 : Vec F S512x3 .bf16) (xo : Vec F S1x3x1280 .f32) (xs : Vec F S3x1280 .f32)
    (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare xs
        ∗ (iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare (k0_pay2 x0 x1 x2 xs)) -∗ K ⟨⟩))
      ⊢ wp frame (wpE (defs₀ (F := F)) Variants.none c none) E (cc0__per_class_kernel i a3 h3 a4 h4 a5 h5 a6 h6 a7 h7) K := by
  simp only [cc0__per_class_kernel_eq_skeleton]; unfold cc0__per_class_kernel_skel
  unfold owns
  iintro ⟨⟨%f0, %hf0, H0⟩, ⟨%f1, %hf1, H1⟩, ⟨%f2, %hf2, H2⟩, ⟨%fo, %hfo, Ho⟩, ⟨%fs, %hfs, HS⟩, Hk⟩
  obtain rfl := h3.eq_unread hf0; obtain rfl := h4.eq_unread hf1; obtain rfl := h5.eq_unread hf2
  obtain rfl := h6.eq_unread hfo; obtain rfl := h7.eq_unread hfs
  sl_exec (disch := first | exact hfirst | exact hlast)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [Ho]
  · iexists _; isplitr; · ipureintro; exact h6.read_unread _
    iexact Ho
  iexists _; isplitr
  swap; · iexact HS
  ipureintro
  rw [View.read_writes_eq_canon _ _ _ (cover_head zero2 _ _ _), View.canon_cons_unit_zero (S := S3x1280) zero2]
  simp only [View.readAt_eq_ld, Memref.IsWhole.read_unread, View.ld_unit_zero (S := S512x128) zero2, View.ld_unit_zero (S := S128x1280) zero2, View.ld_unit_zero (S := S512x3) zero2, View.ld_unit_zero (S := S3x1280) zero2]

set_option maxHeartbeats 1000000 in
/-- The first tile: the accumulator, found at anything, is zeroed before the tile is added. -/
theorem crun_first (c : Dev nD) (i : grid0.Coords) (a3 : Memref sig .tc .vmem S512x128 .f32) (h3 : a3.IsWhole) (a4 : Memref sig .tc .vmem S128x1280 .f32) (h4 : a4.IsWhole) (a5 : Memref sig .tc .vmem S512x3 .bf16) (h5 : a5.IsWhole) (a6 : Memref sig .tc .vmem S1x3x1280 .f32) (h6 : a6.IsWhole) (a7 : Memref sig .tc .vmem S3x1280 .f32) (h7 : a7.IsWhole)
    (hfirst : cfirst i) (hlast : ¬clast i)
    (x0 : Vec F S512x128 .f32) (x1 : Vec F S128x1280 .f32) (x2 : Vec F S512x3 .bf16) (xo : Vec F S1x3x1280 .f32)
    (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
        ∗ (iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare (k0_pay2 x0 x1 x2 (k0_pay1 (F := F)))) -∗ K ⟨⟩))
      ⊢ wp frame (wpE (defs₀ (F := F)) Variants.none c none) E (cc0__per_class_kernel i a3 h3 a4 h4 a5 h5 a6 h6 a7 h7) K := by
  simp only [cc0__per_class_kernel_eq_skeleton]; unfold cc0__per_class_kernel_skel
  unfold owns
  iintro ⟨⟨%f0, %hf0, H0⟩, ⟨%f1, %hf1, H1⟩, ⟨%f2, %hf2, H2⟩, ⟨%fo, %hfo, Ho⟩, ⟨%ds, %fs, -, HS⟩, Hk⟩
  obtain rfl := h3.eq_unread hf0; obtain rfl := h4.eq_unread hf1; obtain rfl := h5.eq_unread hf2
  obtain rfl := h6.eq_unread hfo
  sl_exec (disch := first | exact hfirst | exact hlast)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [Ho]
  · iexists _; isplitr; · ipureintro; exact h6.read_unread _
    iexact Ho
  iexists _; isplitr
  swap; · iexact HS
  ipureintro
  sl_unfold_words
  rw [View.read_writes_eq_canon _ _ _ (cover_head zero2 _ _ _), View.canon_cons_unit_zero zero2]
  simp only [View.readAt_eq_ld, Memref.IsWhole.read_unread, View.ld_unit_zero (S := S512x128) zero2, View.ld_unit_zero (S := S128x1280) zero2, View.ld_unit_zero (S := S512x3) zero2, View.ld_unit_zero (S := S3x1280) zero2, View.readCov_unit_zero (S := S3x1280) _ zero2]

set_option maxHeartbeats 1000000 in
/-- The last tile: after the tile is added the accumulator is copied to the output block, found at anything. -/
theorem crun_last (c : Dev nD) (i : grid0.Coords) (a3 : Memref sig .tc .vmem S512x128 .f32) (h3 : a3.IsWhole) (a4 : Memref sig .tc .vmem S128x1280 .f32) (h4 : a4.IsWhole) (a5 : Memref sig .tc .vmem S512x3 .bf16) (h5 : a5.IsWhole) (a6 : Memref sig .tc .vmem S1x3x1280 .f32) (h6 : a6.IsWhole) (a7 : Memref sig .tc .vmem S3x1280 .f32) (h7 : a7.IsWhole)
    (hfirst : ¬cfirst i) (hlast : clast i)
    (x0 : Vec F S512x128 .f32) (x1 : Vec F S128x1280 .f32) (x2 : Vec F S512x3 .bf16) (xs : Vec F S3x1280 .f32)
    (E : Set ℕ) (K : PUnit → sProp 𝕄) :
    iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare xs
        ∗ (iprop(owns (c : Thread nD τ) a3 fullShare x0 ∗ owns (c : Thread nD τ) a4 fullShare x1 ∗ owns (c : Thread nD τ) a5 fullShare x2 ∗ owns (c : Thread nD τ) a6 fullShare (k0_pay3 (k0_pay2 x0 x1 x2 xs)) ∗ owns (c : Thread nD τ) a7 fullShare (k0_pay2 x0 x1 x2 xs)) -∗ K ⟨⟩))
      ⊢ wp frame (wpE (defs₀ (F := F)) Variants.none c none) E (cc0__per_class_kernel i a3 h3 a4 h4 a5 h5 a6 h6 a7 h7) K := by
  simp only [cc0__per_class_kernel_eq_skeleton]; unfold cc0__per_class_kernel_skel
  unfold owns
  iintro ⟨⟨%f0, %hf0, H0⟩, ⟨%f1, %hf1, H1⟩, ⟨%f2, %hf2, H2⟩, ⟨%d_o, %fo, -, Ho⟩, ⟨%fs, %hfs, HS⟩, Hk⟩
  obtain rfl := h3.eq_unread hf0; obtain rfl := h4.eq_unread hf1; obtain rfl := h5.eq_unread hf2
  obtain rfl := h7.eq_unread hfs
  sl_exec (disch := first | exact hfirst | exact hlast)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [Ho]
  · iexists _; isplitr
    swap; · iexact Ho
    ipureintro
    sl_unfold_words
    rw [View.read_writes_eq_canon _ _ _ (cover_head zero3 _ _ _), View.canon_cons_unit_zero zero3]
    simp only [View.readAt_eq_ld, Memref.IsWhole.read_unread, View.ld_unit_zero (S := S512x128) zero2, View.ld_unit_zero (S := S128x1280) zero2, View.ld_unit_zero (S := S512x3) zero2, View.ld_unit_zero (S := S3x1280) zero2, View.readCov_unit_zero (S := S3x1280) _ zero2]
  iexists _; isplitr
  swap; · iexact HS
  ipureintro
  sl_unfold_words
  rw [View.read_writes_eq_canon _ _ _ (cover_head zero2 _ _ _), View.canon_cons_unit_zero zero2]
  simp only [View.readAt_eq_ld, Memref.IsWhole.read_unread, View.ld_unit_zero (S := S512x128) zero2, View.ld_unit_zero (S := S128x1280) zero2, View.ld_unit_zero (S := S512x3) zero2, View.ld_unit_zero (S := S3x1280) zero2]

end Cert.KernelIdeal.Hand

end
-- ==== Proof.ClassData.lean ====
/-
  The per-class accumulation region's proof data, at the arrays `V` the region is entered with.

  The accumulator after point `n` (`caccAt`): at a first sample tile (n a multiple of 16) the tile's class sums
  added to zero, otherwise added to what point `n - 1` left. The output block is written only at a last tile
  (n = 15 mod 16), with the accumulator's contents; the pipeline writes it back exactly there. The invariant
  between points is the class's before the first point and afterwards names the accumulator's contents; the
  other scoped buffers and the generator register ride along.
-/
import proofs.«421992_j38809324486988_3_alg».proof.Proof.ClassBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator, point by point -/

/-- What the accumulator holds after the body at position `n`. -/
def caccAt (c : Dev nD) : (n : ℕ) → n < cfg0.N → Vec F S3x1280 .f32
  | 0, hn => k0_pay2 (cblk V c 0 ⟨0, hn⟩) (cblk V c 1 ⟨0, hn⟩) (cblk V c 2 ⟨0, hn⟩) (k0_pay1 (F := F))
  | n + 1, hn =>
    if (n + 1) % 16 = 0 then
      k0_pay2 (cblk V c 0 ⟨n + 1, hn⟩) (cblk V c 1 ⟨n + 1, hn⟩) (cblk V c 2 ⟨n + 1, hn⟩) (k0_pay1 (F := F))
    else
      k0_pay2 (cblk V c 0 ⟨n + 1, hn⟩) (cblk V c 1 ⟨n + 1, hn⟩) (cblk V c 2 ⟨n + 1, hn⟩) (caccAt c n (Nat.lt_of_succ_lt hn))

/-- At a first tile: the tile's sums over zero. -/
theorem caccAt_first (c : Dev nD) (t : Fin cfg0.N) (h : t.val % 16 = 0) :
    caccAt V c t.val t.isLt = k0_pay2 (cblk V c 0 t) (cblk V c 1 t) (cblk V c 2 t) (k0_pay1 (F := F)) := by
  obtain ⟨n, hn⟩ := t
  cases n with
  | zero => rfl
  | succ n => exact (if_pos h).trans rfl

/-- At any other tile: the tile's sums over what the point before left. -/
theorem caccAt_next (c : Dev nD) (t : Fin cfg0.N) (h : ¬t.val % 16 = 0) :
    caccAt V c t.val t.isLt = k0_pay2 (cblk V c 0 t) (cblk V c 1 t) (cblk V c 2 t)
      (caccAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- Before the first point the class's invariant (the accumulator at anything); after point `n` the accumulator
    at `caccAt n`. -/
def cPhi (c : Dev nD) : (n : ℕ) → n ≤ cfg0.N → sProp 𝕄
  | 0, _ => Pipeline.ΦA spec0 c
  | n + 1, hn => iprop((owns (c : Thread nD τ) cacc fullShare (caccAt V c n hn) ∗ crest (F := F) c) ∗ (∃ r, prngReg c r))

theorem cPhi_zero (c : Dev nD) (n : ℕ) (h : n ≤ cfg0.N) (hz : n = 0) : cPhi V c n h = Pipeline.ΦA spec0 c := by
  subst hz; rfl

theorem cPhi_succ (c : Dev nD) (n : ℕ) (hn : n < cfg0.N) :
    cPhi V c (n + 1) hn = iprop((owns (c : Thread nD τ) cacc fullShare (caccAt V c n hn) ∗ crest (F := F) c) ∗ (∃ r, prngReg c r)) := rfl

theorem cPhi_pos (c : Dev nD) (n : ℕ) (h : n ≤ cfg0.N) (hz : n ≠ 0) :
    cPhi V c n h = iprop((owns (c : Thread nD τ) cacc fullShare (caccAt V c (n - 1) (by omega)) ∗ crest (F := F) c) ∗ (∃ r, prngReg c r)) := by
  cases n with
  | zero => exact absurd rfl hz
  | succ n => rfl

/-! ## The proof data -/

/-- Arrays as the region finds them; each input's staging buffer at its block; the output block at the
    accumulator's contents (consulted only at a last tile); the invariant `cPhi`; nothing owed; full shares. -/
def cdat (c : Dev nD) : Dat τ (Elt F) Unit ℕ (UR sig nD τ) ℕ cfg0 c where
  A w := V c (Pipeline.arrRef spec0 w)
  after w t := match w with
    | ⟨0, _⟩ => cblk V c 0 t
    | ⟨1, _⟩ => cblk V c 1 t
    | ⟨2, _⟩ => cblk V c 2 t
    | ⟨3, _⟩ => k0_pay3 (caccAt V c t.val t.isLt)
  Φ t := cPhi V c t.val (Nat.le_of_lt_succ t.isLt)
  q _ := fullShare
  owed _ := 0

theorem cA_eq (c : Dev nD) (w : Fin cfg0.W) : (cdat V c).A w = V c (Pipeline.arrRef spec0 w) := by
  dsimp only [cdat]

theorem cPhi_castSucc (c : Dev nD) (t : Fin cfg0.N) :
    (cdat V c).Φ t.castSucc = cPhi V c t.val (Nat.le_of_lt t.isLt) := by
  dsimp only [cdat]; simp only [Fin.coe_castSucc]

theorem cafter_0 (c : Dev nD) (t : Fin cfg0.N) : (cdat V c).after 0 t = cblk V c 0 t := by dsimp only [cdat]
theorem cafter_1 (c : Dev nD) (t : Fin cfg0.N) : (cdat V c).after 1 t = cblk V c 1 t := by dsimp only [cdat]
theorem cafter_2 (c : Dev nD) (t : Fin cfg0.N) : (cdat V c).after 2 t = cblk V c 2 t := by dsimp only [cdat]
theorem cafter_3 (c : Dev nD) (t : Fin cfg0.N) : (cdat V c).after 3 t = k0_pay3 (caccAt V c t.val t.isLt) := by dsimp only [cdat]

theorem cbefore_0 (c : Dev nD) (t : Fin cfg0.N) (d) : (cdat V c).before 0 t d = cblk V c 0 t :=
  cfound_0_of V (cdat V c) (cA_eq V c 0) (cafter_0 V c) t d
theorem cbefore_1 (c : Dev nD) (t : Fin cfg0.N) (d) : (cdat V c).before 1 t d = cblk V c 1 t :=
  cfound_1_of V (cdat V c) (cA_eq V c 1) (cafter_1 V c) t d
theorem cbefore_2 (c : Dev nD) (t : Fin cfg0.N) (d) : (cdat V c).before 2 t d = cblk V c 2 t :=
  cfound_2_of V (cdat V c) (cA_eq V c 2) (cafter_2 V c) t d

/-! ## The body obligation -/

/-- What the body is called with at point `t`, the windows one by one, -/
def cbodyPre (c : Dev nD) (t : Fin cfg0.N) : sProp 𝕄 :=
  iprop((cdat V c).Φ t.castSucc ∗ (cdat V c).owesAt () t.castSucc
    ∗ (∃ d, owns (c : Thread nD τ) (win0_0.stage (cfg0.slots t 0)) fullShare ((cdat V c).before 0 t d))
    ∗ (∃ d, owns (c : Thread nD τ) (win0_1.stage (cfg0.slots t 1)) fullShare ((cdat V c).before 1 t d))
    ∗ (∃ d, owns (c : Thread nD τ) (win0_2.stage (cfg0.slots t 2)) fullShare ((cdat V c).before 2 t d))
    ∗ (∃ d, owns (c : Thread nD τ) (win0_3.stage (cfg0.slots t 3)) fullShare ((cdat V c).before 3 t d)))

/-- and what it returns. -/
def cbodyPost (c : Dev nD) (t : Fin cfg0.N) : sProp 𝕄 :=
  iprop((cdat V c).Φ t.succ ∗ (cdat V c).owesAt () t.succ
    ∗ (cdat V c).leavesExact 0 t ∗ (cdat V c).leavesExact 1 t ∗ (cdat V c).leavesExact 2 t ∗ (cdat V c).leavesExact 3 t)

theorem cleaves_0 (c : Dev nD) (t : Fin cfg0.N) :
    (cdat V c).leavesExact 0 t = owns (c : Thread nD τ) (win0_0.stage (cfg0.slots t 0)) fullShare (cblk V c 0 t) := by
  unfold Dat.leavesExact; rw [clive_0 t, cafter_0]; try rfl
theorem cleaves_1 (c : Dev nD) (t : Fin cfg0.N) :
    (cdat V c).leavesExact 1 t = owns (c : Thread nD τ) (win0_1.stage (cfg0.slots t 1)) fullShare (cblk V c 1 t) := by
  unfold Dat.leavesExact; rw [clive_1 t, cafter_1]; try rfl
theorem cleaves_2 (c : Dev nD) (t : Fin cfg0.N) :
    (cdat V c).leavesExact 2 t = owns (c : Thread nD τ) (win0_2.stage (cfg0.slots t 2)) fullShare (cblk V c 2 t) := by
  unfold Dat.leavesExact; rw [clive_2 t, cafter_2]; try rfl

set_option maxHeartbeats 4000000 in
/-- The body at any point, by the point's case. The invariant hands the accumulator over at what the point
    before left (at anything before the first point) and takes it back at this point's contents. -/
theorem csound_body (c : Dev nD) (t : Fin cfg0.N) :
    cbodyPre V c t ⊢ wp frame (wpE (defs₀ (F := F)) Variants.none c none) Set.univ (bodyAt0 t) (fun _ => cbodyPost V c t) := by
  unfold cbodyPre cbodyPost bodyAt0
  simp only [cbefore_0, cbefore_1, cbefore_2, cleaves_0, cleaves_1, cleaves_2]
  rw [show (cdat V c).owesAt () t.succ = (cdat V c).owesAt () t.castSucc from rfl]
  rw [show (cdat V c).Φ t.succ = cPhi V c (t.val + 1) t.isLt from rfl, cPhi_succ]
  have hN : t.val < 256 := lt_of_lt_of_eq t.isLt (show cfg0.N = 256 from N_0)
  by_cases h0 : t.val % 16 = 0
  · have hl : ¬clast (grid0.coords t) := fun h => by have := (clast_iff t).mp h; omega
    have hf : cfirst (grid0.coords t) := (cfirst_iff t).mpr h0
    rw [Dat.leavesExact_idle (cdat V c) 3 t (cidle_3 t hl) (cnoflush_3 t hl), caccAt_first V c t h0]
    by_cases hz : t.val = 0
    · rw [cPhi_castSucc V c t, cPhi_zero V c _ _ hz, cPhiA_eq]
      iintro ⟨⟨⟨HS, Hr⟩, Hg⟩, Ho, ⟨%d0, H0⟩, ⟨%d1, H1⟩, ⟨%d2, H2⟩, ⟨%d3, H3⟩⟩
      iapply (crun_first c (grid0.coords t) _ _ _ _ _ _ _ _ _ _ hf hl (cblk V c 0 t) (cblk V c 1 t) (cblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [cPhi_castSucc V c t, cPhi_pos V c _ _ hz]
      iintro ⟨⟨⟨HS, Hr⟩, Hg⟩, Ho, ⟨%d0, H0⟩, ⟨%d1, H1⟩, ⟨%d2, H2⟩, ⟨%d3, H3⟩⟩
      iapply (crun_first c (grid0.coords t) _ _ _ _ _ _ _ _ _ _ hf hl (cblk V c 0 t) (cblk V c 1 t) (cblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hf : ¬cfirst (grid0.coords t) := fun h => h0 ((cfirst_iff t).mp h)
    have hz : t.val ≠ 0 := fun h => h0 (by rw [h])
    rw [cPhi_castSucc V c t, cPhi_pos V c _ _ hz, caccAt_next V c t h0]
    by_cases h1 : t.val % 16 = 15
    · have hl : clast (grid0.coords t) := (clast_iff t).mpr h1
      rw [show (cdat V c).leavesExact 3 t = owns (c : Thread nD τ) (win0_3.stage (cfg0.slots t 3)) fullShare ((cdat V c).after 3 t) from by
        unfold Dat.leavesExact; rw [clive_3 t hl]; try rfl]
      rw [cafter_3, caccAt_next V c t h0]
      iintro ⟨⟨⟨HS, Hr⟩, Hg⟩, Ho, ⟨%d0, H0⟩, ⟨%d1, H1⟩, ⟨%d2, H2⟩, ⟨%d3, H3⟩⟩
      iapply (crun_last c (grid0.coords t) _ _ _ _ _ _ _ _ _ _ hf hl (cblk V c 0 t) (cblk V c 1 t) (cblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hl : ¬clast (grid0.coords t) := fun h => h1 ((clast_iff t).mp h)
      rw [Dat.leavesExact_idle (cdat V c) 3 t (cidle_3 t hl) (cnoflush_3 t hl)]
      iintro ⟨⟨⟨HS, Hr⟩, Hg⟩, Ho, ⟨%d0, H0⟩, ⟨%d1, H1⟩, ⟨%d2, H2⟩, ⟨%d3, H3⟩⟩
      iapply (crun_mid c (grid0.coords t) _ _ _ _ _ _ _ _ _ _ hf hl (cblk V c 0 t) (cblk V c 1 t) (cblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem cbody_obligation (c : Dev nD) : BodyObligation (cdat (F := F) V c) (defs₀ (F := F)) Variants.none () Set.univ := fun t => by
  rw [bigSep_W0, bigSep_W0]
  exact csound_body V c t

/-- The class invariant is the invariant before the first point, -/
theorem cPhi_in (c : Dev nD) : Pipeline.ΦA spec0 c ⊢ (cdat V c).Φ 0 := by
  rw [show (cdat V c).Φ 0 = cPhi V c 0 (Nat.zero_le _) from rfl, cPhi_zero V c 0 _ rfl]
  try exact Idealize.SL.BI.Entails.refl _

/-- and after the last point the invariant gives it back, the accumulator's contents forgotten. -/
theorem cPhi_out (c : Dev nD) : (cdat V c).Φ (Fin.last cfg0.N) ⊢ Pipeline.ΦA spec0 c := by
  rw [show (cdat V c).Φ (Fin.last cfg0.N) = cPhi V c (Fin.last cfg0.N).val (Nat.le_of_lt_succ (Fin.last cfg0.N).isLt) from rfl,
    cPhi_pos V c _ _ (by rw [Fin.val_last]; have : cfg0.N = 256 := N_0; omega), cPhiA_eq]
  iintro ⟨⟨HS, Hr⟩, Hg⟩
  isplitl [HS Hr]
  · isplitl [HS]; · iexists _; iexact HS
    iexact Hr
  iexact Hg

end Cert.KernelIdeal.Hand

end
-- ==== Proof.LogitCases.lean ====
/-
  The logits kernel (the second pallas_call) runs on the grid (sample tile, column chunk) = 32 x 8, the column
  chunk innermost. Its two branches look only at the column chunk: the accumulator is zeroed at chunk 0 and copied
  to the output block at chunk 7. Here: both conditions in closed form over the linear point (the chunk is the
  point modulo 8), where the output window is idle or written back, each window's block as read off the arrays
  the region is entered with, and the class invariant with the accumulator scratch spelt as a memref.
-/
import proofs.«421992_j38809324486988_3_alg».proof.Proof.Gen.KernelIdeal.Launch
import proofs.«421992_j38809324486988_3_alg».proof.Proof.Gen.KernelIdeal.Skeleton
import proofs.«421992_j38809324486988_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The contents of the TensorCore's buffers when the region is entered: a parameter here.
variable (V : (c : Dev nD) → (b : Ref sig .tc) → Buf (Elt F) ((c : Thread nD τ).loc b))

/-! ## The windows' blocks -/

/-- Window `w`'s block at point `t` of the entry contents of its array. -/
def lblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block whenever the body runs, for any proof data over `V` whose
    body leaves the block in place. Window 0: the sample tile of the features (fetched at chunk 0, kept after). -/
theorem lfound_0_of {c : Dev nD} (dat : Dat τ (Elt F) Unit ℕ (UR sig nD τ) ℕ cfg1 c) (hA : dat.A 0 = V c (Pipeline.arrRef spec1 0))
    (hafter : ∀ t, dat.after 0 t = lblk V c 0 t) (t : Fin cfg1.N) (d) : dat.before 0 t d = lblk V c 0 t :=
  (dat.before_in_eq_fetched 0 rfl (fun _ => rfl) (fun _ _ _ => rfl) (fun t => by rw [hafter]; unfold Dat.blockOf lblk; rw [hA]; try rfl) t d).trans
    (by unfold Dat.fetched Dat.blockOf lblk; rw [hA]; try rfl)
/-- Window 1: the column chunk of the padded, transposed projection. -/
theorem lfound_1_of {c : Dev nD} (dat : Dat τ (Elt F) Unit ℕ (UR sig nD τ) ℕ cfg1 c) (hA : dat.A 1 = V c (Pipeline.arrRef spec1 1))
    (hafter : ∀ t, dat.after 1 t = lblk V c 1 t) (t : Fin cfg1.N) (d) : dat.before 1 t d = lblk V c 1 t :=
  (dat.before_in_eq_fetched 1 rfl (fun _ => rfl) (fun _ _ _ => rfl) (fun t => by rw [hafter]; unfold Dat.blockOf lblk; rw [hA]; try rfl) t d).trans
    (by unfold Dat.fetched Dat.blockOf lblk; rw [hA]; try rfl)
/-- Window 2: the column chunk of the padded prototypes. -/
theorem lfound_2_of {c : Dev nD} (dat : Dat τ (Elt F) Unit ℕ (UR sig nD τ) ℕ cfg1 c) (hA : dat.A 2 = V c (Pipeline.arrRef spec1 2))
    (hafter : ∀ t, dat.after 2 t = lblk V c 2 t) (t : Fin cfg1.N) (d) : dat.before 2 t d = lblk V c 2 t :=
  (dat.before_in_eq_fetched 2 rfl (fun _ => rfl) (fun _ _ _ => rfl) (fun t => by rw [hafter]; unfold Dat.blockOf lblk; rw [hA]; try rfl) t d).trans
    (by unfold Dat.fetched Dat.blockOf lblk; rw [hA]; try rfl)

/-! ## The two branches, over the linear point -/

/-- "This is column chunk 0": the accumulator is zeroed first. -/
abbrev lfirst (i : grid1.Coords) : Prop :=
  (Scalar.cmpi .ne (Scalar.extui (Scalar.cmpi .eq (BitVec.ofNat 32 (i 1).val) 0#32)) 0#32) = 1#1
theorem lfirst_iff : ∀ t : Fin cfg1.N, lfirst (grid1.coords t) ↔ t.val % 8 = 0 :=
  (by decide +kernel : ∀ t : Fin grid1.N, lfirst (grid1.coords t) ↔ t.val % 8 = 0)

/-- "This is column chunk 7": the accumulator is copied to the output block. -/
abbrev llast (i : grid1.Coords) : Prop := k1_cond2 i = 1#1
theorem llast_iff : ∀ t : Fin cfg1.N, llast (grid1.coords t) ↔ t.val % 8 = 7 :=
  (by decide +kernel : ∀ t : Fin grid1.N, llast (grid1.coords t) ↔ t.val % 8 = 7)

/-! ## Where the windows are idle -/

theorem llive_0 : ∀ t : Fin cfg1.N, cfg1.idle 0 (grid1.coords t) = false := by decide +kernel
theorem llive_1 : ∀ t : Fin cfg1.N, cfg1.idle 1 (grid1.coords t) = false := by decide +kernel
theorem llive_2 : ∀ t : Fin cfg1.N, cfg1.idle 2 (grid1.coords t) = false := by decide +kernel
/-- Before the last chunk the body stores nothing into the output block: the window is idle there -/
theorem lidle_3 : ∀ t : Fin cfg1.N, ¬llast (grid1.coords t) → cfg1.idle 3 (grid1.coords t) = true := by decide +kernel
/-- and the pipeline does not write the block back; -/
theorem lnoflush_3 : ∀ t : Fin cfg1.N, ¬llast (grid1.coords t) → (cfg1.win 3).flush t = false := by decide +kernel
/-- at the last chunk it is live. -/
theorem llive_3 : ∀ t : Fin cfg1.N, llast (grid1.coords t) → cfg1.idle 3 (grid1.coords t) = false := by decide +kernel

/-! ## The accumulator scratch -/

/-- The accumulator: the kernel's one scratch operand, a whole scoped buffer. -/
abbrev lacc : Memref sig .tc .vmem S512x3 .f32 := Memref.whole cc1_scratch0

/-- The scoped buffers of the other pallas_call (its staging buffers and its scratch), each whole at some contents:
    this region carries them along untouched. -/
def lrest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant hands over: the accumulator as a memref owned at some contents, the other call's scoped
    buffers, the generator register at some state; -/
theorem lPhiA_open (c : Dev nD) :
    (Pipeline.ΦA spec1 c : sProp 𝕄)
      ⊢ iprop(((∃ d, owns (c : Thread nD τ) lacc fullShare d) ∗ lrest (F := F) c) ∗ (∃ r, prngReg c r)) := by
  unfold Pipeline.ΦA lrest; rw [scopedRest1_eq]; simp only [lacc, owns_whole]
  iintro ⟨⟨B0, B1, B2, B3, B4, B5, B6, B7, B8, HS⟩, Hg⟩
  isplitr [Hg]
  · isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- and takes them back. -/
theorem lPhiA_close (c : Dev nD) :
    iprop(((∃ d, owns (c : Thread nD τ) lacc fullShare d) ∗ lrest (F := F) c) ∗ (∃ r, prngReg c r))
      ⊢ (Pipeline.ΦA spec1 c : sProp 𝕄) := by
  unfold Pipeline.ΦA lrest; rw [scopedRest1_eq]; simp only [lacc, owns_whole]
  iintro ⟨⟨HS, B0, B1, B2, B3, B4, B5, B6, B7, B8⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact HS
  iexact Hg

end Cert.KernelIdeal.Hand

end
-- ==== Proof.LogitBody.lean ====
/-
  The logits kernel's body on whole staging memrefs, in its three control cases, each as a triple with the
  contents it leaves written out over the skeleton's payloads:
  * first column chunk: the accumulator is zeroed (`k1_pay1`), then the chunk's partial logits are added to it;
  * a middle chunk: the chunk's partial logits are added to what the chunk before left;
  * last chunk: the same, and the accumulator is then copied to the output block.
  `k1_pay2 x f p a` is `a` plus the chunk's contribution: the sign of the features tile `x` times the projection
  chunk `f`, contracted over the chunk's columns with the prototypes chunk `p`.
-/
import proofs.«421992_j38809324486988_3_alg».proof.Proof.LogitCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem lzero2 : (![0, 0] : Fin 2 → Nat) = fun _ => 0 := by funext a; fin_cases a <;> rfl

/-- A whole-block store, last, covers the block. -/
theorem lcover_head {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.Mem.head _, View.mem_set_unit_zero h inb y⟩

set_option maxHeartbeats 1000000 in
/-- A middle chunk: neither branch is taken. -/
theorem lrun_mid (c : Dev nD) (i : grid1.Coords) (a2 : Memref sig .tc .vmem S512x128 .f32) (h2 : a2.IsWhole) (a3 : Memref sig .tc .vmem S128x1280 .f32) (h3 : a3.IsWhole) (a4 : Memref sig .tc .vmem S3x1280 .f32) (h4 : a4.IsWhole) (a5 : Memref sig .tc .vmem S512x3 .f32) (h5 : a5.IsWhole) (a6 : Memref sig .tc .vmem S512x3 .f32) (h6 : a6.IsWhole)
    (hfirst : ¬lfirst i) (hlast : ¬llast i)
    (x0 : Vec F S512x128 .f32) (x1 : Vec F S128x1280 .f32) (x2 : Vec F S3x1280 .f32) (xo : Vec F S512x3 .f32) (xs : Vec F S512x3 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare xs
        ∗ (iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare (k1_pay2 x0 x1 x2 xs)) -∗ K ⟨⟩))
      ⊢ wp frame (wpE (defs₀ (F := F)) Variants.none c none) E (cc1__logits_kernel i a2 h2 a3 h3 a4 h4 a5 h5 a6 h6) K := by
  simp only [cc1__logits_kernel_eq_skeleton]; unfold cc1__logits_kernel_skel
  unfold owns
  iintro ⟨⟨%f0, %hf0, H0⟩, ⟨%f1, %hf1, H1⟩, ⟨%f2, %hf2, H2⟩, ⟨%fo, %hfo, Ho⟩, ⟨%fs, %hfs, HS⟩, Hk⟩
  obtain rfl := h2.eq_unread hf0; obtain rfl := h3.eq_unread hf1; obtain rfl := h4.eq_unread hf2
  obtain rfl := h5.eq_unread hfo; obtain rfl := h6.eq_unread hfs
  sl_exec (disch := first | exact hfirst | exact hlast)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [Ho]
  · iexists _; isplitr; · ipureintro; exact h5.read_unread _
    iexact Ho
  iexists _; isplitr
  swap; · iexact HS
  ipureintro
  sl_unfold_words
  rw [View.read_writes_eq_canon _ _ _ (lcover_head lzero2 _ _ _), View.canon_cons_unit_zero lzero2]
  simp only [View.readAt_eq_ld, Memref.IsWhole.read_unread, View.ld_unit_zero (S := S512x128) lzero2, View.ld_unit_zero (S := S128x1280) lzero2, View.ld_unit_zero (S := S3x1280) lzero2, View.ld_unit_zero (S := S512x3) lzero2]

set_option maxHeartbeats 1000000 in
/-- The first chunk: the accumulator, found at anything, is zeroed before the chunk is added. -/
theorem lrun_first (c : Dev nD) (i : grid1.Coords) (a2 : Memref sig .tc .vmem S512x128 .f32) (h2 : a2.IsWhole) (a3 : Memref sig .tc .vmem S128x1280 .f32) (h3 : a3.IsWhole) (a4 : Memref sig .tc .vmem S3x1280 .f32) (h4 : a4.IsWhole) (a5 : Memref sig .tc .vmem S512x3 .f32) (h5 : a5.IsWhole) (a6 : Memref sig .tc .vmem S512x3 .f32) (h6 : a6.IsWhole)
    (hfirst : lfirst i) (hlast : ¬llast i)
    (x0 : Vec F S512x128 .f32) (x1 : Vec F S128x1280 .f32) (x2 : Vec F S3x1280 .f32) (xo : Vec F S512x3 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare xo ∗ (∃ d, owns (c : Thread nD τ) a6 fullShare d)
        ∗ (iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare (k1_pay2 x0 x1 x2 (k1_pay1 (F := F)))) -∗ K ⟨⟩))
      ⊢ wp frame (wpE (defs₀ (F := F)) Variants.none c none) E (cc1__logits_kernel i a2 h2 a3 h3 a4 h4 a5 h5 a6 h6) K := by
  simp only [cc1__logits_kernel_eq_skeleton]; unfold cc1__logits_kernel_skel
  unfold owns
  iintro ⟨⟨%f0, %hf0, H0⟩, ⟨%f1, %hf1, H1⟩, ⟨%f2, %hf2, H2⟩, ⟨%fo, %hfo, Ho⟩, ⟨%ds, %fs, -, HS⟩, Hk⟩
  obtain rfl := h2.eq_unread hf0; obtain rfl := h3.eq_unread hf1; obtain rfl := h4.eq_unread hf2
  obtain rfl := h5.eq_unread hfo
  sl_exec (disch := first | exact hfirst | exact hlast)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [Ho]
  · iexists _; isplitr; · ipureintro; exact h5.read_unread _
    iexact Ho
  iexists _; isplitr
  swap; · iexact HS
  ipureintro
  sl_unfold_words
  rw [View.read_writes_eq_canon _ _ _ (lcover_head lzero2 _ _ _), View.canon_cons_unit_zero lzero2]
  simp only [View.readAt_eq_ld, Memref.IsWhole.read_unread, View.ld_unit_zero (S := S512x128) lzero2, View.ld_unit_zero (S := S128x1280) lzero2, View.ld_unit_zero (S := S3x1280) lzero2, View.ld_unit_zero (S := S512x3) lzero2, View.readCov_unit_zero (S := S512x3) _ lzero2]

set_option maxHeartbeats 1000000 in
/-- The last chunk: after the chunk is added the accumulator is copied to the output block, found at anything. -/
theorem lrun_last (c : Dev nD) (i : grid1.Coords) (a2 : Memref sig .tc .vmem S512x128 .f32) (h2 : a2.IsWhole) (a3 : Memref sig .tc .vmem S128x1280 .f32) (h3 : a3.IsWhole) (a4 : Memref sig .tc .vmem S3x1280 .f32) (h4 : a4.IsWhole) (a5 : Memref sig .tc .vmem S512x3 .f32) (h5 : a5.IsWhole) (a6 : Memref sig .tc .vmem S512x3 .f32) (h6 : a6.IsWhole)
    (hfirst : ¬lfirst i) (hlast : llast i)
    (x0 : Vec F S512x128 .f32) (x1 : Vec F S128x1280 .f32) (x2 : Vec F S3x1280 .f32) (xs : Vec F S512x3 .f32)
    (E : Set ℕ) (K : PUnit → sProp 𝕄) :
    iprop(owns (c : Thread nD τ) a2 fullShare x0 ∗ owns (c : Thread nD τ) a3 fullShare x1 ∗ owns (c : Thread nD τ) a4 fullShare x2 ∗ (∃ d, owns (c : Thread nD τ) a5 fullShare d) ∗ owns (c : Thread nD τ) a6 fullShare xs
        ∗ (iprop(owns (c : Thread nD τ) a2 fullShare x0 ∗ owns (c : Thread nD τ) a3 fullShare x1 ∗ owns (c : Thread nD τ) a4 fullShare x2 ∗ owns (c : Thread nD τ) a5 fullShare (k1_pay2 x0 x1 x2 xs) ∗ owns (c : Thread nD τ) a6 fullShare (k1_pay2 x0 x1 x2 xs)) -∗ K ⟨⟩))
      ⊢ wp frame (wpE (defs₀ (F := F)) Variants.none c none) E (cc1__logits_kernel i a2 h2 a3 h3 a4 h4 a5 h5 a6 h6) K := by
  simp only [cc1__logits_kernel_eq_skeleton]; unfold cc1__logits_kernel_skel
  unfold owns
  iintro ⟨⟨%f0, %hf0, H0⟩, ⟨%f1, %hf1, H1⟩, ⟨%f2, %hf2, H2⟩, ⟨%d_o, %fo, -, Ho⟩, ⟨%fs, %hfs, HS⟩, Hk⟩
  obtain rfl := h2.eq_unread hf0; obtain rfl := h3.eq_unread hf1; obtain rfl := h4.eq_unread hf2
  obtain rfl := h6.eq_unread hfs
  sl_exec (disch := first | exact hfirst | exact hlast)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [Ho]
  · iexists _; isplitr
    swap; · iexact Ho
    ipureintro
    sl_unfold_words
    rw [View.read_writes_eq_canon _ _ _ (lcover_head lzero2 _ _ _), View.canon_cons_unit_zero lzero2]
    simp only [View.readAt_eq_ld, Memref.IsWhole.read_unread, View.ld_unit_zero (S := S512x128) lzero2, View.ld_unit_zero (S := S128x1280) lzero2, View.ld_unit_zero (S := S3x1280) lzero2, View.ld_unit_zero (S := S512x3) lzero2, View.readCov_unit_zero (S := S512x3) _ lzero2]
  iexists _; isplitr
  swap; · iexact HS
  ipureintro
  sl_unfold_words
  rw [View.read_writes_eq_canon _ _ _ (lcover_head lzero2 _ _ _), View.canon_cons_unit_zero lzero2]
  simp only [View.readAt_eq_ld, Memref.IsWhole.read_unread, View.ld_unit_zero (S := S512x128) lzero2, View.ld_unit_zero (S := S128x1280) lzero2, View.ld_unit_zero (S := S3x1280) lzero2, View.ld_unit_zero (S := S512x3) lzero2]

end Cert.KernelIdeal.Hand

end
-- ==== Proof.LogitData.lean ====
/-
  The logits region's proof data, at the arrays `V` the region is entered with.

  The accumulator after point `n` (`laccAt`): at a first column chunk (n a multiple of 8) the chunk's partial
  logits added to zero, otherwise added to what point `n - 1` left. The output block is written only at a last
  chunk (n = 7 mod 8), with the accumulator's contents; the pipeline writes it back exactly there. The invariant
  between points names the accumulator's contents after the first point; the other scoped buffers and the
  generator register ride along.
-/
import proofs.«421992_j38809324486988_3_alg».proof.Proof.LogitBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator, point by point -/

/-- What the accumulator holds after the body at position `n`. -/
def laccAt (c : Dev nD) : (n : ℕ) → n < cfg1.N → Vec F S512x3 .f32
  | 0, hn => k1_pay2 (lblk V c 0 ⟨0, hn⟩) (lblk V c 1 ⟨0, hn⟩) (lblk V c 2 ⟨0, hn⟩) (k1_pay1 (F := F))
  | n + 1, hn =>
    if (n + 1) % 8 = 0 then
      k1_pay2 (lblk V c 0 ⟨n + 1, hn⟩) (lblk V c 1 ⟨n + 1, hn⟩) (lblk V c 2 ⟨n + 1, hn⟩) (k1_pay1 (F := F))
    else
      k1_pay2 (lblk V c 0 ⟨n + 1, hn⟩) (lblk V c 1 ⟨n + 1, hn⟩) (lblk V c 2 ⟨n + 1, hn⟩) (laccAt c n (Nat.lt_of_succ_lt hn))

/-- At a first chunk: the chunk's partial logits over zero. -/
theorem laccAt_first (c : Dev nD) (t : Fin cfg1.N) (h : t.val % 8 = 0) :
    laccAt V c t.val t.isLt = k1_pay2 (lblk V c 0 t) (lblk V c 1 t) (lblk V c 2 t) (k1_pay1 (F := F)) := by
  obtain ⟨n, hn⟩ := t
  cases n with
  | zero => rfl
  | succ n => exact (if_pos h).trans rfl

/-- At any other chunk: the chunk's partial logits over what the point before left. -/
theorem laccAt_next (c : Dev nD) (t : Fin cfg1.N) (h : ¬t.val % 8 = 0) :
    laccAt V c t.val t.isLt = k1_pay2 (lblk V c 0 t) (lblk V c 1 t) (lblk V c 2 t)
      (laccAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- Before the first point the accumulator at anything; after point `n` at `laccAt n`; beside it the other call's
    scoped buffers and the generator register. -/
def lPhi (c : Dev nD) : (n : ℕ) → n ≤ cfg1.N → sProp 𝕄
  | 0, _ => iprop(((∃ d, owns (c : Thread nD τ) lacc fullShare d) ∗ lrest (F := F) c) ∗ (∃ r, prngReg c r))
  | n + 1, hn => iprop((owns (c : Thread nD τ) lacc fullShare (laccAt V c n hn) ∗ lrest (F := F) c) ∗ (∃ r, prngReg c r))

theorem lPhi_zero (c : Dev nD) (n : ℕ) (h : n ≤ cfg1.N) (hz : n = 0) :
    lPhi V c n h = iprop(((∃ d, owns (c : Thread nD τ) lacc fullShare d) ∗ lrest (F := F) c) ∗ (∃ r, prngReg c r)) := by
  subst hz; rfl

theorem lPhi_succ (c : Dev nD) (n : ℕ) (hn : n < cfg1.N) :
    lPhi V c (n + 1) hn = iprop((owns (c : Thread nD τ) lacc fullShare (laccAt V c n hn) ∗ lrest (F := F) c) ∗ (∃ r, prngReg c r)) := rfl

theorem lPhi_pos (c : Dev nD) (n : ℕ) (h : n ≤ cfg1.N) (hz : n ≠ 0) :
    lPhi V c n h = iprop((owns (c : Thread nD τ) lacc fullShare (laccAt V c (n - 1) (by omega)) ∗ lrest (F := F) c) ∗ (∃ r, prngReg c r)) := by
  cases n with
  | zero => exact absurd rfl hz
  | succ n => rfl

/-! ## The proof data -/

/-- Arrays as the region finds them; each input's staging buffer at its block; the output block at the
    accumulator's contents (consulted only at a last chunk); the invariant `lPhi`; nothing owed; full shares. -/
def ldat (c : Dev nD) : Dat τ (Elt F) Unit ℕ (UR sig nD τ) ℕ cfg1 c where
  A w := V c (Pipeline.arrRef spec1 w)
  after w t := match w with
    | ⟨0, _⟩ => lblk V c 0 t
    | ⟨1, _⟩ => lblk V c 1 t
    | ⟨2, _⟩ => lblk V c 2 t
    | ⟨3, _⟩ => laccAt V c t.val t.isLt
  Φ t := lPhi V c t.val (Nat.le_of_lt_succ t.isLt)
  q _ := fullShare
  owed _ := 0

theorem lA_eq (c : Dev nD) (w : Fin cfg1.W) : (ldat V c).A w = V c (Pipeline.arrRef spec1 w) := by
  dsimp only [ldat]

theorem lPhi_castSucc (c : Dev nD) (t : Fin cfg1.N) :
    (ldat V c).Φ t.castSucc = lPhi V c t.val (Nat.le_of_lt t.isLt) := by
  dsimp only [ldat]; simp only [Fin.coe_castSucc]

theorem lafter_0 (c : Dev nD) (t : Fin cfg1.N) : (ldat V c).after 0 t = lblk V c 0 t := by dsimp only [ldat]
theorem lafter_1 (c : Dev nD) (t : Fin cfg1.N) : (ldat V c).after 1 t = lblk V c 1 t := by dsimp only [ldat]
theorem lafter_2 (c : Dev nD) (t : Fin cfg1.N) : (ldat V c).after 2 t = lblk V c 2 t := by dsimp only [ldat]
theorem lafter_3 (c : Dev nD) (t : Fin cfg1.N) : (ldat V c).after 3 t = laccAt V c t.val t.isLt := by dsimp only [ldat]

theorem lbefore_0 (c : Dev nD) (t : Fin cfg1.N) (d) : (ldat V c).before 0 t d = lblk V c 0 t :=
  lfound_0_of V (ldat V c) (lA_eq V c 0) (lafter_0 V c) t d
theorem lbefore_1 (c : Dev nD) (t : Fin cfg1.N) (d) : (ldat V c).before 1 t d = lblk V c 1 t :=
  lfound_1_of V (ldat V c) (lA_eq V c 1) (lafter_1 V c) t d
theorem lbefore_2 (c : Dev nD) (t : Fin cfg1.N) (d) : (ldat V c).before 2 t d = lblk V c 2 t :=
  lfound_2_of V (ldat V c) (lA_eq V c 2) (lafter_2 V c) t d

/-! ## The body obligation -/

/-- What the body is called with at point `t`, the windows one by one, -/
def lbodyPre (c : Dev nD) (t : Fin cfg1.N) : sProp 𝕄 :=
  iprop((ldat V c).Φ t.castSucc ∗ (ldat V c).owesAt () t.castSucc
    ∗ (∃ d, owns (c : Thread nD τ) (win1_0.stage (cfg1.slots t 0)) fullShare ((ldat V c).before 0 t d))
    ∗ (∃ d, owns (c : Thread nD τ) (win1_1.stage (cfg1.slots t 1)) fullShare ((ldat V c).before 1 t d))
    ∗ (∃ d, owns (c : Thread nD τ) (win1_2.stage (cfg1.slots t 2)) fullShare ((ldat V c).before 2 t d))
    ∗ (∃ d, owns (c : Thread nD τ) (win1_3.stage (cfg1.slots t 3)) fullShare ((ldat V c).before 3 t d)))

/-- and what it returns. -/
def lbodyPost (c : Dev nD) (t : Fin cfg1.N) : sProp 𝕄 :=
  iprop((ldat V c).Φ t.succ ∗ (ldat V c).owesAt () t.succ
    ∗ (ldat V c).leavesExact 0 t ∗ (ldat V c).leavesExact 1 t ∗ (ldat V c).leavesExact 2 t ∗ (ldat V c).leavesExact 3 t)

theorem lleaves_0 (c : Dev nD) (t : Fin cfg1.N) :
    (ldat V c).leavesExact 0 t = owns (c : Thread nD τ) (win1_0.stage (cfg1.slots t 0)) fullShare (lblk V c 0 t) := by
  unfold Dat.leavesExact; rw [llive_0 t, lafter_0]; try rfl
theorem lleaves_1 (c : Dev nD) (t : Fin cfg1.N) :
    (ldat V c).leavesExact 1 t = owns (c : Thread nD τ) (win1_1.stage (cfg1.slots t 1)) fullShare (lblk V c 1 t) := by
  unfold Dat.leavesExact; rw [llive_1 t, lafter_1]; try rfl
theorem lleaves_2 (c : Dev nD) (t : Fin cfg1.N) :
    (ldat V c).leavesExact 2 t = owns (c : Thread nD τ) (win1_2.stage (cfg1.slots t 2)) fullShare (lblk V c 2 t) := by
  unfold Dat.leavesExact; rw [llive_2 t, lafter_2]; try rfl

set_option maxHeartbeats 4000000 in
/-- The body at any point, by the point's case. The invariant hands the accumulator over at what the point
    before left (at anything before the first point) and takes it back at this point's contents. -/
theorem lsound_body (c : Dev nD) (t : Fin cfg1.N) :
    lbodyPre V c t ⊢ wp frame (wpE (defs₀ (F := F)) Variants.none c none) Set.univ (bodyAt1 t) (fun _ => lbodyPost V c t) := by
  unfold lbodyPre lbodyPost bodyAt1
  simp only [lbefore_0, lbefore_1, lbefore_2, lleaves_0, lleaves_1, lleaves_2]
  rw [show (ldat V c).owesAt () t.succ = (ldat V c).owesAt () t.castSucc from rfl]
  rw [show (ldat V c).Φ t.succ = lPhi V c (t.val + 1) t.isLt from rfl, lPhi_succ]
  have hN : t.val < 256 := lt_of_lt_of_eq t.isLt (show cfg1.N = 256 from N_1)
  by_cases h0 : t.val % 8 = 0
  · have hl : ¬llast (grid1.coords t) := fun h => by have := (llast_iff t).mp h; omega
    have hf : lfirst (grid1.coords t) := (lfirst_iff t).mpr h0
    rw [Dat.leavesExact_idle (ldat V c) 3 t (lidle_3 t hl) (lnoflush_3 t hl), laccAt_first V c t h0]
    by_cases hz : t.val = 0
    · rw [lPhi_castSucc V c t, lPhi_zero V c _ _ hz]
      iintro ⟨⟨⟨HS, Hr⟩, Hg⟩, Ho, ⟨%d0, H0⟩, ⟨%d1, H1⟩, ⟨%d2, H2⟩, ⟨%d3, H3⟩⟩
      iapply (lrun_first c (grid1.coords t) _ _ _ _ _ _ _ _ _ _ hf hl (lblk V c 0 t) (lblk V c 1 t) (lblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [lPhi_castSucc V c t, lPhi_pos V c _ _ hz]
      iintro ⟨⟨⟨HS, Hr⟩, Hg⟩, Ho, ⟨%d0, H0⟩, ⟨%d1, H1⟩, ⟨%d2, H2⟩, ⟨%d3, H3⟩⟩
      iapply (lrun_first c (grid1.coords t) _ _ _ _ _ _ _ _ _ _ hf hl (lblk V c 0 t) (lblk V c 1 t) (lblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hf : ¬lfirst (grid1.coords t) := fun h => h0 ((lfirst_iff t).mp h)
    have hz : t.val ≠ 0 := fun h => h0 (by rw [h])
    rw [lPhi_castSucc V c t, lPhi_pos V c _ _ hz, laccAt_next V c t h0]
    by_cases h1 : t.val % 8 = 7
    · have hl : llast (grid1.coords t) := (llast_iff t).mpr h1
      rw [show (ldat V c).leavesExact 3 t = owns (c : Thread nD τ) (win1_3.stage (cfg1.slots t 3)) fullShare ((ldat V c).after 3 t) from by
        unfold Dat.leavesExact; rw [llive_3 t hl]; try rfl]
      rw [lafter_3, laccAt_next V c t h0]
      iintro ⟨⟨⟨HS, Hr⟩, Hg⟩, Ho, ⟨%d0, H0⟩, ⟨%d1, H1⟩, ⟨%d2, H2⟩, ⟨%d3, H3⟩⟩
      iapply (lrun_last c (grid1.coords t) _ _ _ _ _ _ _ _ _ _ hf hl (lblk V c 0 t) (lblk V c 1 t) (lblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hl : ¬llast (grid1.coords t) := fun h => h1 ((llast_iff t).mp h)
      rw [Dat.leavesExact_idle (ldat V c) 3 t (lidle_3 t hl) (lnoflush_3 t hl)]
      iintro ⟨⟨⟨HS, Hr⟩, Hg⟩, Ho, ⟨%d0, H0⟩, ⟨%d1, H1⟩, ⟨%d2, H2⟩, ⟨%d3, H3⟩⟩
      iapply (lrun_mid c (grid1.coords t) _ _ _ _ _ _ _ _ _ _ hf hl (lblk V c 0 t) (lblk V c 1 t) (lblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem lbody_obligation (c : Dev nD) : BodyObligation (ldat (F := F) V c) (defs₀ (F := F)) Variants.none () Set.univ := fun t => by
  rw [bigSep_W1, bigSep_W1]
  exact lsound_body V c t

/-- The class invariant gives the invariant before the first point, -/
theorem lPhi_in (c : Dev nD) : Pipeline.ΦA spec1 c ⊢ (ldat V c).Φ 0 := by
  rw [show (ldat V c).Φ 0 = lPhi V c 0 (Nat.zero_le _) from rfl, lPhi_zero V c 0 _ rfl]
  exact lPhiA_open c

/-- and after the last point the invariant gives it back, the accumulator's contents forgotten. -/
theorem lPhi_out (c : Dev nD) : (ldat V c).Φ (Fin.last cfg1.N) ⊢ Pipeline.ΦA spec1 c := by
  rw [show (ldat V c).Φ (Fin.last cfg1.N) = lPhi V c (Fin.last cfg1.N).val (Nat.le_of_lt_succ (Fin.last cfg1.N).isLt) from rfl,
    lPhi_pos V c _ _ (by rw [Fin.val_last]; have : cfg1.N = 256 := N_1; omega)]
  refine Idealize.SL.BI.BIBase.Entails.trans ?_ (lPhiA_close c)
  iintro ⟨⟨HS, Hr⟩, Hg⟩
  isplitl [HS Hr]
  · isplitl [HS]; · iexists _; iexact HS
    iexact Hr
  iexact Hg

end Cert.KernelIdeal.Hand

end
-- ==== Proof.WholeRun.lean ====
/-
  The whole program's run: @main is host operations, the per-class accumulation region, host operations, the
  logits region, host operations. Between two items a core holds every unscoped buffer at a known valuation: the
  launch memory, then each host stretch applied, then a region's output array replaced by what its write-backs
  leave. Here: those contents for the two regions, each region as a segment of the run (its arrays split out of
  the unscoped buffers at entry and joined back at exit, the generator register lent to the region's invariant and
  returned, nothing owed), and the run itself: every weakly fair execution of @main terminates and ends with every
  unscoped buffer at the last valuation.
-/
import proofs.«421992_j38809324486988_3_alg».proof.Proof.ClassData
import proofs.«421992_j38809324486988_3_alg».proof.Proof.LogitData
import proofs.«421992_j38809324486988_3_alg».proof.Proof.Gen.KernelIdeal.Regions
import Idealize.ShloMosaic.Lib.Pipeline.RegionsLoop
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What the first region is entered with. -/
abbrev cin (c : Dev nD) (b : Ref sig .tc) : Buf (Elt F) ((c : Thread nD τ).loc b) := Gen.V3 m c b

/-- What the first region leaves in its output array: its write-backs folded over the entry contents. -/
def cout (c : Dev nD) : Buf (Elt F) ((c : Thread nD τ).loc main_v3) := (cdat (cin m) c).arrAt 3 cfg0.N

/-- The regions' outputs as the run's valuations read them, first stage: the first region's only. -/
def outsA : Gen.Outs (F := F) := fun _ r c => Function.update (Gen.V3 m c) main_v3 (cout m c) r

/-- What the second region is entered with. -/
abbrev lin (c : Dev nD) (b : Ref sig .tc) : Buf (Elt F) ((c : Thread nD τ).loc b) := Gen.V8 m (outsA m) c b

/-- What the second region leaves in its output array. -/
def lout (c : Dev nD) : Buf (Elt F) ((c : Thread nD τ).loc main_v15) := (ldat (lin m) c).arrAt 3 cfg1.N

/-- Both regions' outputs. -/
def outsB : Gen.Outs (F := F) := fun j r c =>
  if j = 9 then Function.update (Gen.V8 m (outsA m) c) main_v15 (lout m c) r else outsA m j r c

theorem outsB_4 (c : Dev nD) : outsB m 4 main_v3 c = cout m c := by
  unfold outsB outsA; rw [if_neg (by decide)]; exact Function.update_self ..

theorem V4_B (c : Dev nD) : Gen.V4 m (outsB m) c = Gen.V4 m (outsA m) c := by
  show Function.update _ _ _ = Function.update _ _ _
  rw [outsB_4]; unfold outsA; rw [Function.update_self]

theorem V8_B (c : Dev nD) : Gen.V8 m (outsB m) c = Gen.V8 m (outsA m) c := by
  show StableHlo.after _ (StableHlo.after _ (StableHlo.after _ (StableHlo.after _ (Gen.V4 m (outsB m) c)))) = StableHlo.after _ (StableHlo.after _ (StableHlo.after _ (StableHlo.after _ (Gen.V4 m (outsA m) c))))
  rw [V4_B]

/-- After the first region its output array holds `cout`, -/
theorem V4_out (c : Dev nD) : Gen.V4 m (outsB m) c main_v3 = cout m c := by
  show Function.update _ _ _ _ = _
  rw [Function.update_self]; exact outsB_4 m c

/-- and after the second its output array holds `lout`. -/
theorem V9_out (c : Dev nD) : Gen.V9 m (outsB m) c main_v15 = lout m c := by
  show Function.update _ _ _ _ = _
  rw [Function.update_self]; unfold outsB; rw [if_pos rfl]; exact Function.update_self ..

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => cdat (cin m) c
  | ⟨1, _⟩ => fun c => ldat (lin m) c

abbrev noLv : GSem nD τ sig → Finset Unit := fun _ => ∅
abbrev zeroLv : GSem nD τ sig → Unit → ℕ := fun _ _ => 0

/-- Beside the buffers, through every item: the generator register at some state, and nothing owed. -/
abbrev side (c : Dev nD) : sProp 𝕄 := iprop((∃ r, prngReg c r) ∗ ∃ W, owes (c : Thread nD τ) (0 : CellTallies nD τ sig Unit) W)

/-! ## The first region's arrays at its exit -/

theorem cexit_arr (c : Dev nD) : ∀ w : Fin cfg0.W, (cdat (cin m) c).arrAt w cfg0.N = Gen.V4 m (outsB m) c (Pipeline.arrRef spec0 w)
  | ⟨0, _⟩ => ((cdat (cin m) c).arrAt_in 0 rfl _).trans ((cA_eq (cin m) c 0).trans (Gen.V4_of m (outsB m) c _ (by decide)).symm)
  | ⟨1, _⟩ => ((cdat (cin m) c).arrAt_in 1 rfl _).trans ((cA_eq (cin m) c 1).trans (Gen.V4_of m (outsB m) c _ (by decide)).symm)
  | ⟨2, _⟩ => ((cdat (cin m) c).arrAt_in 2 rfl _).trans ((cA_eq (cin m) c 2).trans (Gen.V4_of m (outsB m) c _ (by decide)).symm)
  | ⟨3, _⟩ => (V4_out m c).symm

theorem cexit_rest (c : Dev nD) : ∀ b, b ∉ Finset.univ.image (Pipeline.arrRef spec0) → Gen.V4 m (outsB m) c b = cin m c b :=
  fun b hb => Gen.V4_of m (outsB m) c b (fun h => hb (by
    rw [List.mem_singleton] at h; subst h
    exact Finset.mem_image.mpr ⟨3, Finset.mem_univ _, rfl⟩))

/-! ## The second region's arrays at its exit -/

theorem lexit_arr (c : Dev nD) : ∀ w : Fin cfg1.W, (ldat (lin m) c).arrAt w cfg1.N = Gen.V9 m (outsB m) c (Pipeline.arrRef spec1 w)
  | ⟨0, _⟩ => ((ldat (lin m) c).arrAt_in 0 rfl _).trans ((lA_eq (lin m) c 0).trans ((congrFun (V8_B m c) _).symm.trans (Gen.V9_of m (outsB m) c _ (by decide)).symm))
  | ⟨1, _⟩ => ((ldat (lin m) c).arrAt_in 1 rfl _).trans ((lA_eq (lin m) c 1).trans ((congrFun (V8_B m c) _).symm.trans (Gen.V9_of m (outsB m) c _ (by decide)).symm))
  | ⟨2, _⟩ => ((ldat (lin m) c).arrAt_in 2 rfl _).trans ((lA_eq (lin m) c 2).trans ((congrFun (V8_B m c) _).symm.trans (Gen.V9_of m (outsB m) c _ (by decide)).symm))
  | ⟨3, _⟩ => (V9_out m c).symm

theorem lexit_rest (c : Dev nD) : ∀ b, b ∉ Finset.univ.image (Pipeline.arrRef spec1) → Gen.V9 m (outsB m) c b = lin m c b :=
  fun b hb => (Gen.V9_of m (outsB m) c b (fun h => hb (by
    rw [List.mem_singleton] at h; subst h
    exact Finset.mem_image.mpr ⟨3, Finset.mem_univ _, rfl⟩))).trans (congrFun (V8_B m c) _)

/-! ## The regions as segments -/

set_option backward.isDefEq.respectTransparency.types false in
/-- The per-class accumulation region: entered from the buffers at `V3`, left at `V4`. -/
def creg : Pipeline.RegionSeg (pcfgs (F := F)) Gen.adm (pdats m) () defs₀ Variants.none noLv zeroLv 0 where
  win := launch0.win.to₀
  block_pos := launch0.block_pos
  stage_whole := launch0.stage_whole
  K := PEmpty
  osem k := k.elim
  ho := Pipeline.OwnSemFacts.none _
  hbody c := (cbody_obligation (cin m) c).loose
  hwaits := Pipeline.hwaits_of_owed_zero _ _ _ _ noLv zeroLv 0 fun _ _ => rfl
  pre c := iprop(StableHlo.held (c : Thread nD τ) (Pipeline.ucRefs τ sig) (Gen.V3 m c) ∗ side c)
  post c := iprop(StableHlo.held (c : Thread nD τ) (Pipeline.ucRefs τ sig) (Gen.V4 m (outsB m) c) ∗ side c)
  X c := iprop(∃ r, prngReg c r)
  Y c := iprop(∃ r, prngReg c r)
  Z c := Pipeline.unscopedRest (Ix := Unit) (Name := ℕ) (U := UR sig nD τ) (Lvl := ℕ) spec0 c (cin m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (cin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (cPhi_in (cin m) c)
    unfold Pipeline.ΦA
    iintro ⟨Hp, -, Hr⟩
    isplitl [Hr]; · iexact Hr
    iexact Hp
  hout c := by
    refine (cPhi_out (cin m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (cin m c) (fun b => Gen.V4 m (outsB m) c b) ((pdats m 0 c).arrAt · cfg0.N) (cexit_arr m c) (cexit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The logits region: entered from the buffers at `V8`, left at `V9`. -/
def lreg : Pipeline.RegionSeg (pcfgs (F := F)) Gen.adm (pdats m) () defs₀ Variants.none noLv zeroLv 1 where
  win := launch1.win.to₀
  block_pos := launch1.block_pos
  stage_whole := launch1.stage_whole
  K := PEmpty
  osem k := k.elim
  ho := Pipeline.OwnSemFacts.none _
  hbody c := (lbody_obligation (lin m) c).loose
  hwaits := Pipeline.hwaits_of_owed_zero _ _ _ _ noLv zeroLv 1 fun _ _ => rfl
  pre c := iprop(StableHlo.held (c : Thread nD τ) (Pipeline.ucRefs τ sig) (Gen.V8 m (outsA m) c) ∗ side c)
  post c := iprop(StableHlo.held (c : Thread nD τ) (Pipeline.ucRefs τ sig) (Gen.V9 m (outsB m) c) ∗ side c)
  X c := iprop(∃ r, prngReg c r)
  Y c := iprop(∃ r, prngReg c r)
  Z c := Pipeline.unscopedRest (Ix := Unit) (Name := ℕ) (U := UR sig nD τ) (Lvl := ℕ) spec1 c (lin m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (lin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (lPhi_in (lin m) c)
    unfold Pipeline.ΦA
    iintro ⟨Hp, -, Hr⟩
    isplitl [Hr]; · iexact Hr
    iexact Hp
  hout c := by
    refine (lPhi_out (lin m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (lin m c) (fun b => Gen.V9 m (outsB m) c b) ((pdats m 1 c).arrAt · cfg1.N) (lexit_arr m c) (lexit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, and every final memory
    holds each unscoped buffer at the last valuation: the launch memory, every host stretch applied, the regions'
    output arrays at `cout` and `lout`. -/
theorem whole_run : θ_run defs (onTc (τ := τ) (main (F := F))) ⟨m, fun _ => 0, ρ⟩ (fun r => ∀ c : Dev nD,
      ∀ b ∈ Pipeline.ucRefs τ sig, r.2.mem ((c : Thread nD τ).1, b) = Gen.V10 m (outsB m) c b) := by
  refine Pipeline.θ_run_regions_kit_dev (pcfgs (F := F)) Gen.adm (pdats m) () cellOf_inj emb₁ defs₀ Variants.none noLv zeroLv m ρ main
    (Gen.segs m (outsB m) Variants.none noLv zeroLv (fun _ c => side c) () (pdats m) (creg m) (lreg m))
    (fun c Q => by
      rewrite [main_chain c, Pipeline.Seg.run_eq_chain,
        show (Gen.segs m (outsB m) Variants.none noLv zeroLv (fun _ c => side c) () (pdats m) (creg m) (lreg m) c).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ side c))
    (Tₙ := fun c => StableHlo.held (c : Thread nD τ) (Pipeline.ucRefs τ sig) (Gen.V10 m (outsB m) c))
    (hch := fun c => ⟨.rfl, .rfl, .rfl, .rfl, .rfl, .rfl, .rfl, .rfl, (show iprop(StableHlo.held (c : Thread nD τ) (Pipeline.ucRefs τ sig) (Gen.V8 m (outsB m) c) ∗ side c)
        ⊢ iprop(StableHlo.held (c : Thread nD τ) (Pipeline.ucRefs τ sig) (Gen.V8 m (outsA m) c) ∗ side c) from by rw [V8_B]), .rfl,
      sep_mono .rfl (by iintro ⟨-, HO⟩; iexact HO)⟩)
    (hinit := by
      refine Pipeline.initEach noLv zeroLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V10 m (outsB m) c b)
    (hfin := fun c s' => by
      iintro ⟨Hh, HSI⟩
      unfold StableHlo.held
      imodintro
      iapply (pointsTo_read_all (Pipeline.ucRefs τ sig) (fun b => ((c : Thread nD τ).1, b)) (Gen.V10 m (outsB m) c) s')
      isplitl [Hh] <;> iassumption)
    (hQ := fun _ h => h)

/-- An unscoped TensorCore reference is among those the run's last state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V10_main_arg0 m (outsB m) c),
     (h c _ (mem_uc main_arg1 (by decide))).trans (Gen.V10_main_arg1 m (outsB m) c),
     (h c _ (mem_uc main_arg2 (by decide))).trans (Gen.V10_main_arg2 m (outsB m) c),
     (h c _ (mem_uc main_arg3 (by decide))).trans (Gen.V10_main_arg3 m (outsB m) c)⟩) (whole_run m ρ)

end Cert.KernelIdeal.Hand

end
-- ==== Proof.Spec.lean ====
/-
  The mathematics both programs compute, over plain finite index types and the extended reals.

  A sample `n` with features `f n ·` is projected on each of the 10000 hyperdimensional directions `p d ·`
  and the projection is quantised to its sign, +1 on the non-negative half line and -1 below (`quant`). The
  class accumulator adds, for class `k`, the quantised vectors of the samples labelled `k` (`classSum`: a
  label outside 0, 1, 2 matches no class and adds nothing). The prototypes are the initial class weights plus
  half the accumulator, each row divided by its Euclidean norm or by the floor 1e-12 if the norm is smaller
  (`proto`). The logits are the inner products of a sample's quantised vector with the three prototypes,
  divided by the temperature 1 (`logit`).

  Float literals stay as their words (`Ideal.ofBits`): the same word stands on both sides and is never
  evaluated. The sign test is spelt as both programs spell it: a select over an ordered greater-or-equal
  comparison against the zero word.
-/
import Idealize.ShloMosaic.PureOps.Ideal
import Idealize.ShloMosaic.Lib.ValueIdx

noncomputable section

namespace Cert.Hd

open Idealize.ShloMosaic

/-- The words the programs print: 0, 1, -1, 1/2 and 1e-12 (as f32). -/
abbrev w0 : Ideal .f32 := Ideal.ofBits .f32 0x00000000#32
abbrev w1 : Ideal .f32 := Ideal.ofBits .f32 0x3F800000#32
abbrev wm1 : Ideal .f32 := Ideal.ofBits .f32 0xBF800000#32
abbrev whalf : Ideal .f32 := Ideal.ofBits .f32 0x3F000000#32
abbrev weps : Ideal .f32 := Ideal.ofBits .f32 0x2B8CBCCC#32

/-- The sign quantiser: +1 where `x ≥ 0`, else -1. -/
def sgn (x : Ideal .f32) : Ideal .f32 :=
  Scalar.select (FloatOps.cmpf (F := Ideal) .oge x w0) w1 wm1

/-- The projection of sample `n` on direction `d`: the sum over the 128 features. -/
def proj {D : Nat} (f : Fin 16384 → Fin 128 → EReal) (p : Fin D → Fin 128 → EReal) (n : Fin 16384) (d : Fin D) : EReal :=
  ∑ c : Fin 128, f n c * p d c

/-- Its sign. -/
def quant {D : Nat} (f : Fin 16384 → Fin 128 → EReal) (p : Fin D → Fin 128 → EReal) (n : Fin 16384) (d : Fin D) : EReal :=
  sgn (proj f p n d)

/-- The class accumulator: for class `k` and direction `d`, the sum of the quantised projections of the samples
    whose label is `k`. -/
def classSum {D : Nat} (q : Fin 16384 → Fin D → EReal) (lab : Fin 16384 → BitVec 32) (k : Fin 3) (d : Fin D) : EReal :=
  ∑ n : Fin 16384, if lab n = BitVec.ofNat 32 k.val then q n d else 0

/-- The updated class weights: the initial weights plus half the accumulator. -/
def upd (cw s : Fin 3 → Fin 10000 → EReal) (k : Fin 3) (d : Fin 10000) : EReal :=
  cw k d + whalf * s k d

/-- The norm of a row of the updated weights, floored at 1e-12. -/
def den (u : Fin 3 → Fin 10000 → EReal) (k : Fin 3) : EReal :=
  max (Ideal.sqrt (w0 + ∑ d : Fin 10000, u k d * u k d)) weps

/-- The prototypes: each row of the updated weights over its floored norm. -/
def proto (cw s : Fin 3 → Fin 10000 → EReal) (k : Fin 3) (d : Fin 10000) : EReal :=
  Ideal.div (upd cw s k d) (den (upd cw s) k)

/-- The logits: sample `n`'s quantised vector against prototype `k`, over the temperature 1. -/
def logit (q : Fin 16384 → Fin 10000 → EReal) (pr : Fin 3 → Fin 10000 → EReal) (n : Fin 16384) (k : Fin 3) : EReal :=
  Ideal.div (∑ d : Fin 10000, q n d * pr k d) w1

/-- The whole function of the four inputs. -/
def result (f : Fin 16384 → Fin 128 → EReal) (p : Fin 10000 → Fin 128 → EReal) (cw : Fin 3 → Fin 10000 → EReal)
    (lab : Fin 16384 → BitVec 32) (n : Fin 16384) (k : Fin 3) : EReal :=
  logit (quant f p) (proto cw (classSum (quant f p) lab)) n k

end Cert.Hd

end
-- ==== Proof.HostValue.lean ====
/-
  The host operations around the two regions, read at an index (ideal instance).

  Before the first region: the one-hot encoding of the labels (a compare against 0, 1, 2 converted to a float: 1
  where the label is the class, else 0) and the projection matrix transposed and zero-padded from 10000 to 10240
  columns. Between the regions: the first region's two per-core partial sums are added, the padding columns cut
  off, and the prototypes computed and zero-padded again. After the second region: its output over the
  temperature 1.
-/
import proofs.«421992_j38809324486988_3_alg».proof.Proof.WholeRun
import proofs.«421992_j38809324486988_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.KernelVsHost

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The four arguments as typed arrays. -/
abbrev argFeat (c : Dev nD) : FVec Ideal S16384x128 .f32 := m ((c : Thread nD τ).loc main_arg0)
abbrev argProj (c : Dev nD) : FVec Ideal S10000x128 .f32 := m ((c : Thread nD τ).loc main_arg1)
abbrev argCw (c : Dev nD) : FVec Ideal S3x10000 .f32 := m ((c : Thread nD τ).loc main_arg2)
abbrev argLab (c : Dev nD) : IVec S16384 32 := m ((c : Thread nD τ).loc main_arg3)

/-- A column below 10000 of the padded range, as a column of the unpadded one. -/
abbrev unpad (d : Fin 10240) (h : d.val < 10000) : Fin 10000 := ⟨d.val, h⟩
/-- A column of the unpadded range in the padded one. -/
abbrev padc (d : Fin 10000) : Fin 10240 := ⟨d.val, by have := d.isLt; omega⟩

/-! ## What the first region is entered with -/

/-- The features are the argument. -/
theorem cin_feat (c : Dev nD) : cin m c main_arg0 = argFeat m c :=
  (Gen.V3_of m c main_arg0 (by decide)).trans <| (Gen.V2_of m c main_arg0 (by decide)).trans <| (Gen.V1_of m c main_arg0 (by decide)).trans rfl

/-! ### The host stretches, each from an arbitrary valuation -/

section Stretch
variable (W : Valuation τ sig (Elt Ideal))

/-- The one-hot stretch writes the compare of the broadcast labels against the broadcast class numbers, converted. -/
theorem hv_s0_v0 : (StableHlo.after hostOps0 W (Proc.devRef .tc main_v0) : FVec Ideal S16384x3 .bf16)
    = uitofp (F := Ideal) .bf16 (cmpi .eq
        (broadcastInDim S16384x3 ![0, 1] bcast_S16384x1_S16384x3_0_1 (broadcastInDim S16384x1 ![0] bcast_S16384_S16384x1_0 (W (Proc.devRef .tc main_arg3) : IVec S16384 32)))
        (broadcastInDim S16384x3 ![0, 1] bcast_S1x3_S16384x3_0_1 (iotaInDim S1x3 32 1))) := by
  simp only [hostOps0]
  after_results
  rfl

/-- The transpose stretch. -/
theorem hv_s01_v1 : (StableHlo.after hostOps0_1 W (Proc.devRef .tc main_v1) : FVec Ideal S128x10000 .f32)
    = transpose S128x10000 [1, 0] (W (Proc.devRef .tc main_arg1) : FVec Ideal S10000x128 .f32) transposes_S10000x128_S128x10000_1_0 := by
  simp only [hostOps0_1]
  after_results

theorem hv_s01_c : (StableHlo.after hostOps0_1 W (Proc.devRef .tc main_c) : IVec S_ 32) = constantI S_ 32 0#32 := by
  simp only [hostOps0_1]
  after_results

/-- The first pad stretch. -/
theorem hv_s02_v2 : (StableHlo.after hostOps0_2 W (Proc.devRef .tc main_v2) : FVec Ideal S128x10240 .f32)
    = pad S128x10240 ![0, 0] ![0, 240] ![0, 0] (W (Proc.devRef .tc main_v1) : FVec Ideal S128x10000 .f32)
        (sitofp (F := Ideal) .f32 (W (Proc.devRef .tc main_c) : IVec S_ 32)) pads_S128x10000_S128x10240_000_02400 h_S_ := by
  simp only [hostOps0_2]
  after_results
  rfl

end Stretch

/-- The labels, broadcast along the classes and compared with the class numbers 0, 1, 2, read at a sample and a
    class: 1 where they agree, else 0 (the one-bit compare converted unsigned). -/
theorem hv_onehot_apply (lab : IVec S16384 32) (n : Fin 16384) (k : Fin 3) :
    (uitofp (F := Ideal) .bf16 (cmpi .eq
        (broadcastInDim S16384x3 ![0, 1] bcast_S16384x1_S16384x3_0_1 (broadcastInDim S16384x1 ![0] bcast_S16384_S16384x1_0 lab))
        (broadcastInDim S16384x3 ![0, 1] bcast_S1x3_S16384x3_0_1 (iotaInDim S1x3 32 1))) : FVec Ideal S16384x3 .bf16) (ix2 n k)
      = if lab (ix1 n) = BitVec.ofNat 32 k.val then (1 : EReal) else 0 := by
  have e1 : broadcastInDim S16384x3 ![0, 1] bcast_S16384x1_S16384x3_0_1 (broadcastInDim S16384x1 ![0] bcast_S16384_S16384x1_0 lab) (ix2 n k) = lab (ix1 n) := by
    refine (broadcastInDim_apply _ bcast_S16384x1_S16384x3_0_1 _ (ix2 n k) (ix2 n 0) (fun a => match a with
      | ⟨0, _⟩ => by show n.val = if (16384 : Nat) = 1 then 0 else n.val; rw [if_neg (by decide)]
      | ⟨1, _⟩ => by show 0 = if (1 : Nat) = 1 then 0 else k.val; rw [if_pos rfl])).trans ?_
    exact broadcastInDim_apply _ bcast_S16384_S16384x1_0 lab (ix2 n 0) (ix1 n) (fun a => match a with
      | ⟨0, _⟩ => by show n.val = if (16384 : Nat) = 1 then 0 else n.val; rw [if_neg (by decide)])
  have e2 : broadcastInDim S16384x3 ![0, 1] bcast_S1x3_S16384x3_0_1 (iotaInDim S1x3 32 1) (ix2 n k) = BitVec.ofNat 32 k.val := by
    refine (broadcastInDim_apply _ bcast_S1x3_S16384x3_0_1 _ (ix2 n k) (ix2 0 k) (fun a => match a with
      | ⟨0, _⟩ => by show 0 = if (1 : Nat) = 1 then 0 else n.val; rw [if_pos rfl]
      | ⟨1, _⟩ => by show k.val = if (3 : Nat) = 1 then 0 else k.val; rw [if_neg (by decide)])).trans ?_
    rfl
  show ((((IntOp.cmpi .eq
      (broadcastInDim S16384x3 ![0, 1] bcast_S16384x1_S16384x3_0_1 (broadcastInDim S16384x1 ![0] bcast_S16384_S16384x1_0 lab) (ix2 n k))
      (broadcastInDim S16384x3 ![0, 1] bcast_S1x3_S16384x3_0_1 (iotaInDim S1x3 32 1) (ix2 n k))).toNat : ℝ) : EReal)) = _
  rw [e1, e2]
  by_cases h : lab (ix1 n) = BitVec.ofNat 32 k.val
  · rw [if_pos h]; simp [IntOp.cmpi, h]
  · rw [if_neg h]; simp [IntOp.cmpi, h]

/-- The one-hot labels: 1 where the label is the class, else 0. -/
theorem cin_onehot (c : Dev nD) (n : Fin 16384) (k : Fin 3) :
    (cin m c main_v0 : FVec Ideal S16384x3 .bf16) (ix2 n k)
      = if argLab m c (ix1 n) = BitVec.ofNat 32 k.val then (1 : EReal) else 0 := by
  have a3 : (Gen.V0 m c main_arg3 : IVec S16384 32) = argLab m c := rfl
  have e : (cin m c main_v0 : FVec Ideal S16384x3 .bf16) = _ :=
    (Gen.V3_of m c main_v0 (by decide)).trans <| (Gen.V2_of m c main_v0 (by decide)).trans <| hv_s0_v0 (Gen.V0 m c)
  rw [e, a3]
  exact hv_onehot_apply (argLab m c) n k

/-- A matrix transposed and zero-padded on the right, read at an index: the matrix inside, the converted integer
    zero outside. -/
theorem hv_projpad_apply (x : FVec Ideal S10000x128 .f32) (cc : Fin 128) (d : Fin 10240) :
    (pad S128x10240 ![0, 0] ![0, 240] ![0, 0] (transpose S128x10000 [1, 0] x transposes_S10000x128_S128x10000_1_0)
        (sitofp (F := Ideal) .f32 (constantI S_ 32 0#32)) pads_S128x10000_S128x10240_000_02400 h_S_ : FVec Ideal S128x10240 .f32) (ix2 cc d)
      = if h : d.val < 10000 then x (ix2 (unpad d h) cc) else (0 : EReal) := by
  by_cases h : d.val < 10000
  · rw [dif_pos h]
    refine (pad_apply_of_inside _ _ _ _ _ pads_S128x10000_S128x10240_000_02400 h_S_ (ix2 cc d) (ix2 cc (unpad d h)) (fun a => match a with
      | ⟨0, _⟩ => by show cc.val = 0 + cc.val * (0 + 1); omega
      | ⟨1, _⟩ => by show d.val = 0 + d.val * (0 + 1); omega)).trans ?_
    exact transpose_apply [1, 0] x transposes_S10000x128_S128x10000_1_0 (ix2 cc (unpad d h)) (ix2 (unpad d h) cc) (fun b => match b with
      | ⟨0, _⟩ => rfl
      | ⟨1, _⟩ => rfl)
  · rw [dif_neg h]
    refine (pad_apply_of_not_inside _ _ _ _ _ pads_S128x10000_S128x10240_000_02400 h_S_ (ix2 cc d) 1 (fun hin => h ?_)).trans ?_
    · have h3 : (d.val - 0) / (0 + 1) < 10000 := hin.2.2
      simpa using h3
    · show ((((0#32 : BitVec 32).toInt : ℤ) : ℝ) : EReal) = 0
      simp

/-- The projection transposed and zero-padded. -/
theorem cin_proj (c : Dev nD) (cc : Fin 128) (d : Fin 10240) :
    (cin m c main_v2 : FVec Ideal S128x10240 .f32) (ix2 cc d)
      = if h : d.val < 10000 then argProj m c (ix2 (unpad d h) cc) else (0 : EReal) := by
  have a1 : (Gen.V1 m c main_arg1 : FVec Ideal S10000x128 .f32) = argProj m c :=
    (Gen.V1_of m c main_arg1 (by decide)).trans rfl
  have e1 : (Gen.V2 m c main_v1 : FVec Ideal S128x10000 .f32) = transpose S128x10000 [1, 0] (argProj m c) transposes_S10000x128_S128x10000_1_0 :=
    (hv_s01_v1 (Gen.V1 m c)).trans (congrArg (fun z => transpose S128x10000 [1, 0] z transposes_S10000x128_S128x10000_1_0) a1)
  have ec : (Gen.V2 m c main_c : IVec S_ 32) = constantI S_ 32 0#32 := hv_s01_c (Gen.V1 m c)
  have e : (cin m c main_v2 : FVec Ideal S128x10240 .f32) = _ := hv_s02_v2 (Gen.V2 m c)
  rw [e, e1, ec]
  exact hv_projpad_apply (argProj m c) cc d

/-! ## What the second region is entered with -/

/-- After the first region its output array holds what the region left there, at the first stage's outputs too. -/
theorem hv_V4A (c : Dev nD) : Gen.V4 m (outsA m) c main_v3 = cout m c := by
  show Function.update _ _ _ _ = _
  rw [Function.update_self]; unfold outsA; exact Function.update_self ..

theorem lin_feat (c : Dev nD) : lin m c main_arg0 = argFeat m c :=
  (Gen.V8_of m (outsA m) c main_arg0 (by decide)).trans <| (Gen.V7_of m (outsA m) c main_arg0 (by decide)).trans <| (Gen.V6_of m (outsA m) c main_arg0 (by decide)).trans <| (Gen.V5_of m (outsA m) c main_arg0 (by decide)).trans <| (Gen.V4_of m (outsA m) c main_arg0 (by decide)).trans <| cin_feat m c

theorem lin_proj (c : Dev nD) : lin m c main_v2 = cin m c main_v2 :=
  (Gen.V8_of m (outsA m) c main_v2 (by decide)).trans <| (Gen.V7_of m (outsA m) c main_v2 (by decide)).trans <| (Gen.V6_of m (outsA m) c main_v2 (by decide)).trans <| (Gen.V5_of m (outsA m) c main_v2 (by decide)).trans <| (Gen.V4_of m (outsA m) c main_v2 (by decide))

/-- The two regions' output arrays, typed. -/
abbrev coutArr (c : Dev nD) : FVec Ideal S2x3x10240 .f32 := cout m c
abbrev loutArr (c : Dev nD) : FVec Ideal S16384x3 .f32 := lout m c

/-- The class accumulator the host forms from the first region's output: the two cores' partial sums added
    (onto the zero word), at an unpadded column. -/
def hostClassSum (c : Dev nD) (k : Fin 3) (d : Fin 10000) : EReal :=
  Cert.Hd.w0 + ∑ core : Fin 2, (coutArr m c (ix3 core k (padc d)) : EReal)

/-! ### The host operations between the regions, as functions of the arrays they read -/

/-- The updated class weights: the initial weights plus half of the two partial sums added and cut to 10000 columns. -/
def hv_updV (cw : FVec Ideal S3x10000 .f32) (co : FVec Ideal S2x3x10240 .f32) : FVec Ideal S3x10000 .f32 :=
  addf cw (mulf (broadcastInDim S3x10000 ![] bcast_S_S3x10000 (constant (F := Ideal) S_ .f32 0x3F000000#32))
    (extractStridedSlice S3x10000 ![0, 0] (Host.reduceAdd (F := Ideal) co (constant (F := Ideal) S_ .f32 0x00000000#32) reducesTo_S2x3x10240_S3x10240_d0 h_S_) slices_S3x10240_S3x10000_0_0))

/-- The rows' Euclidean norms, as a column. -/
def hv_nrmV (u : FVec Ideal S3x10000 .f32) : FVec Ideal S3x1 .f32 :=
  Host.sqrt (broadcastInDim S3x1 ![0] bcast_S3_S3x1_0 (Host.reduceAdd (F := Ideal) (mulf u u) (constant (F := Ideal) S_ .f32 0x00000000#32) reducesTo_S3x10000_S3_d1 h_S_))

/-- Each row over its norm floored at 1e-12. -/
def hv_protoV (u : FVec Ideal S3x10000 .f32) (nr : FVec Ideal S3x1 .f32) : FVec Ideal S3x10000 .f32 :=
  Host.divf u (broadcastInDim S3x10000 ![0, 1] bcast_S3x1_S3x10000_0_1 (maximumf nr (broadcastInDim S3x1 ![] bcast_S_S3x1 (constant (F := Ideal) S_ .f32 0x2B8CBCCC#32))))

/-- Padded on the right to 10240 columns with a converted integer. -/
def hv_padV (x : FVec Ideal S3x10000 .f32) (z : IVec S_ 32) : FVec Ideal S3x10240 .f32 :=
  pad S3x10240 ![0, 0] ![0, 240] ![0, 0] x (sitofp (F := Ideal) .f32 z) pads_S3x10000_S3x10240_000_02400 h_S_

section Stretch2
variable (W : Valuation τ sig (Elt Ideal))

theorem hv_s1_v8 : (StableHlo.after hostOps1 W (Proc.devRef .tc main_v8) : FVec Ideal S3x10000 .f32)
    = hv_updV (W (Proc.devRef .tc main_arg2) : FVec Ideal S3x10000 .f32) (W (Proc.devRef .tc main_v3) : FVec Ideal S2x3x10240 .f32) := by
  simp only [hostOps1]
  after_results
  rfl

theorem hv_s11_v9 : (StableHlo.after hostOps1_1 W (Proc.devRef .tc main_v9) : FVec Ideal S3x1 .f32)
    = hv_nrmV (W (Proc.devRef .tc main_v8) : FVec Ideal S3x10000 .f32) := by
  simp only [hostOps1_1]
  after_results
  rfl

theorem hv_s12_v13 : (StableHlo.after hostOps1_2 W (Proc.devRef .tc main_v13) : FVec Ideal S3x10000 .f32)
    = hv_protoV (W (Proc.devRef .tc main_v8) : FVec Ideal S3x10000 .f32) (W (Proc.devRef .tc main_v9) : FVec Ideal S3x1 .f32) := by
  simp only [hostOps1_2]
  after_results
  rfl

theorem hv_s12_c2 : (StableHlo.after hostOps1_2 W (Proc.devRef .tc main_c_2) : IVec S_ 32) = constantI S_ 32 0#32 := by
  simp only [hostOps1_2]
  after_results

theorem hv_s13_v14 : (StableHlo.after hostOps1_3 W (Proc.devRef .tc main_v14) : FVec Ideal S3x10240 .f32)
    = hv_padV (W (Proc.devRef .tc main_v13) : FVec Ideal S3x10000 .f32) (W (Proc.devRef .tc main_c_2) : IVec S_ 32) := by
  simp only [hostOps1_3]
  after_results
  rfl

theorem hv_s2_v17 : (StableHlo.after hostOps2 W (Proc.devRef .tc main_v17) : FVec Ideal S16384x3 .f32)
    = Host.divf (F := Ideal) (W (Proc.devRef .tc main_v15) : FVec Ideal S16384x3 .f32) (broadcastInDim S16384x3 ![] bcast_S_S16384x3 (constant (F := Ideal) S_ .f32 0x3F800000#32)) := by
  simp only [hostOps2]
  after_results

end Stretch2

/-- The padded prototypes as the composed host operations of the class weights and the first region's output. -/
theorem hv_lin_v14 (c : Dev nD) : (lin m c main_v14 : FVec Ideal S3x10240 .f32)
    = hv_padV (hv_protoV (hv_updV (argCw m c) (coutArr m c)) (hv_nrmV (hv_updV (argCw m c) (coutArr m c)))) (constantI S_ 32 0#32) := by
  have a2 : (Gen.V4 m (outsA m) c main_arg2 : FVec Ideal S3x10000 .f32) = argCw m c :=
    (Gen.V4_of m (outsA m) c main_arg2 (by decide)).trans <| (Gen.V3_of m c main_arg2 (by decide)).trans <| (Gen.V2_of m c main_arg2 (by decide)).trans <| (Gen.V1_of m c main_arg2 (by decide)).trans rfl
  have e8 : (Gen.V5 m (outsA m) c main_v8 : FVec Ideal S3x10000 .f32) = hv_updV (argCw m c) (coutArr m c) :=
    (hv_s1_v8 (Gen.V4 m (outsA m) c)).trans (congrArg₂ hv_updV a2 (hv_V4A m c))
  have e8' : (Gen.V6 m (outsA m) c main_v8 : FVec Ideal S3x10000 .f32) = hv_updV (argCw m c) (coutArr m c) :=
    (Gen.V6_of m (outsA m) c main_v8 (by decide)).trans e8
  have e9 : (Gen.V6 m (outsA m) c main_v9 : FVec Ideal S3x1 .f32) = hv_nrmV (hv_updV (argCw m c) (coutArr m c)) :=
    (hv_s11_v9 (Gen.V5 m (outsA m) c)).trans (congrArg hv_nrmV e8)
  have e13 : (Gen.V7 m (outsA m) c main_v13 : FVec Ideal S3x10000 .f32)
      = hv_protoV (hv_updV (argCw m c) (coutArr m c)) (hv_nrmV (hv_updV (argCw m c) (coutArr m c))) :=
    (hv_s12_v13 (Gen.V6 m (outsA m) c)).trans (congrArg₂ hv_protoV e8' e9)
  have ec2 : (Gen.V7 m (outsA m) c main_c_2 : IVec S_ 32) = constantI S_ 32 0#32 := hv_s12_c2 (Gen.V6 m (outsA m) c)
  exact (hv_s13_v14 (Gen.V7 m (outsA m) c)).trans (congrArg₂ hv_padV e13 ec2)

/-- The host's sum of the two cores' partial sums, at a class and a padded column. -/
theorem hv_sum0_apply (co : FVec Ideal S2x3x10240 .f32) (k : Fin 3) (e : Fin 10240) :
    Host.reduceAdd (F := Ideal) co (constant (F := Ideal) S_ .f32 0x00000000#32) reducesTo_S2x3x10240_S3x10240_d0 h_S_ (ix2 k e)
      = Cert.Hd.w0 + ∑ core : Fin 2, co (ix3 core k e) := by
  simp only [Host.reduceAdd, Ideal.hostReduceAdd_def]
  rw [Ideal.hostReduceAdd_single reducesTo_S2x3x10240_S3x10240_d0 (by decide)]
  refine congrArg (_ + ·) (Finset.sum_congr rfl fun core _ => ?_)
  exact congrArg co (funext fun a => Fin.ext (by match a with | ⟨0, _⟩ => rfl | ⟨1, _⟩ => rfl | ⟨2, _⟩ => rfl))

/-- The host's sum along a row, at a class. -/
theorem hv_sum1_apply (y : FVec Ideal S3x10000 .f32) (k : Fin 3) :
    Host.reduceAdd (F := Ideal) y (constant (F := Ideal) S_ .f32 0x00000000#32) reducesTo_S3x10000_S3_d1 h_S_ (ix1 k)
      = Cert.Hd.w0 + ∑ d : Fin 10000, y (ix2 k d) := by
  simp only [Host.reduceAdd, Ideal.hostReduceAdd_def]
  rw [Ideal.hostReduceAdd_single reducesTo_S3x10000_S3_d1 (by decide)]
  refine congrArg (_ + ·) (Finset.sum_congr rfl fun d _ => ?_)
  exact congrArg y (funext fun a => Fin.ext (by match a with | ⟨0, _⟩ => rfl | ⟨1, _⟩ => rfl))

/-- The updated weights at a class and a column. -/
theorem hv_updV_apply (cw : FVec Ideal S3x10000 .f32) (co : FVec Ideal S2x3x10240 .f32) (k : Fin 3) (d : Fin 10000) :
    hv_updV cw co (ix2 k d) = cw (ix2 k d) + Cert.Hd.whalf * (Cert.Hd.w0 + ∑ core : Fin 2, co (ix3 core k (padc d))) := by
  unfold hv_updV
  rw [addf_apply, mulf_apply,
    broadcastInDim_apply _ bcast_S_S3x10000 _ (ix2 k d) ix0 (fun a => a.elim0),
    extractStridedSlice_apply ![0, 0] _ slices_S3x10240_S3x10000_0_0 (ix2 k d) (ix2 k (padc d)) (fun a => match a with
      | ⟨0, _⟩ => by show k.val = 0 + k.val; omega
      | ⟨1, _⟩ => by show d.val = 0 + d.val; omega),
    hv_sum0_apply]
  rfl

/-- A row's norm. -/
theorem hv_nrmV_apply (u : FVec Ideal S3x10000 .f32) (k : Fin 3) :
    hv_nrmV u (ix2 k 0) = Ideal.sqrt (Cert.Hd.w0 + ∑ d : Fin 10000, u (ix2 k d) * u (ix2 k d)) := by
  unfold hv_nrmV
  show Ideal.sqrt ((broadcastInDim S3x1 ![0] bcast_S3_S3x1_0 (Host.reduceAdd (F := Ideal) (mulf u u) (constant (F := Ideal) S_ .f32 0x00000000#32) reducesTo_S3x10000_S3_d1 h_S_)) (ix2 k 0)) = _
  rw [broadcastInDim_apply _ bcast_S3_S3x1_0 _ (ix2 k 0) (ix1 k) (fun a => match a with
      | ⟨0, _⟩ => by show k.val = if (3 : Nat) = 1 then 0 else k.val; rw [if_neg (by decide)]),
    hv_sum1_apply]
  rfl

/-- A row's entry over the row's floored norm. -/
theorem hv_protoV_apply (u : FVec Ideal S3x10000 .f32) (nr : FVec Ideal S3x1 .f32) (k : Fin 3) (d : Fin 10000) :
    hv_protoV u nr (ix2 k d) = Ideal.div (u (ix2 k d)) (max (nr (ix2 k 0)) Cert.Hd.weps) := by
  unfold hv_protoV
  show Ideal.div (u (ix2 k d)) ((broadcastInDim S3x10000 ![0, 1] bcast_S3x1_S3x10000_0_1 (maximumf nr (broadcastInDim S3x1 ![] bcast_S_S3x1 (constant (F := Ideal) S_ .f32 0x2B8CBCCC#32)))) (ix2 k d)) = _
  rw [broadcastInDim_apply _ bcast_S3x1_S3x10000_0_1 _ (ix2 k d) (ix2 k 0) (fun a => match a with
      | ⟨0, _⟩ => by show k.val = if (3 : Nat) = 1 then 0 else k.val; rw [if_neg (by decide)]
      | ⟨1, _⟩ => by show 0 = if (1 : Nat) = 1 then 0 else d.val; rw [if_pos rfl]),
    maximumf_apply, broadcastInDim_apply _ bcast_S_S3x1 _ (ix2 k 0) ix0 (fun a => a.elim0)]
  rfl

/-- The zero-padded array at a class and a padded column. -/
theorem hv_padV_apply (x : FVec Ideal S3x10000 .f32) (k : Fin 3) (d : Fin 10240) :
    hv_padV x (constantI S_ 32 0#32) (ix2 k d) = if h : d.val < 10000 then x (ix2 k (unpad d h)) else (0 : EReal) := by
  unfold hv_padV
  by_cases h : d.val < 10000
  · rw [dif_pos h]
    exact pad_apply_of_inside _ _ _ _ _ pads_S3x10000_S3x10240_000_02400 h_S_ (ix2 k d) (ix2 k (unpad d h)) (fun a => match a with
      | ⟨0, _⟩ => by show k.val = 0 + k.val * (0 + 1); omega
      | ⟨1, _⟩ => by show d.val = 0 + d.val * (0 + 1); omega)
  · rw [dif_neg h]
    refine (pad_apply_of_not_inside _ _ _ _ _ pads_S3x10000_S3x10240_000_02400 h_S_ (ix2 k d) 1 (fun hin => h ?_)).trans ?_
    · have h3 : (d.val - 0) / (0 + 1) < 10000 := hin.2.2
      simpa using h3
    · show ((((0#32 : BitVec 32).toInt : ℤ) : ℝ) : EReal) = 0
      simp

/-- The prototypes, zero-padded. -/
theorem lin_proto (c : Dev nD) (k : Fin 3) (d : Fin 10240) :
    (lin m c main_v14 : FVec Ideal S3x10240 .f32) (ix2 k d)
      = if h : d.val < 10000 then
          Cert.Hd.proto (fun k d => argCw m c (ix2 k d)) (hostClassSum m c) k (unpad d h)
        else (0 : EReal) := by
  rw [hv_lin_v14, hv_padV_apply]
  have hu : ∀ d' : Fin 10000, hv_updV (argCw m c) (coutArr m c) (ix2 k d')
      = Cert.Hd.upd (fun k d => argCw m c (ix2 k d)) (hostClassSum m c) k d' := fun d' => by
    rw [hv_updV_apply]; rfl
  by_cases h : d.val < 10000
  · rw [dif_pos h, dif_pos h, hv_protoV_apply, hv_nrmV_apply]
    unfold Cert.Hd.proto Cert.Hd.den
    simp only [hu]
  · rw [dif_neg h, dif_neg h]

/-! ## The result -/

/-- The program's result: the second region's output over the temperature. -/
theorem final_logit (c : Dev nD) (n : Fin 16384) (k : Fin 3) :
    (Gen.V10 m (outsB m) c main_v17 : FVec Ideal S16384x3 .f32) (ix2 n k)
      = Ideal.div (loutArr m c (ix2 n k)) Cert.Hd.w1 := by
  have e : (Gen.V10 m (outsB m) c main_v17 : FVec Ideal S16384x3 .f32)
      = Host.divf (F := Ideal) (loutArr m c) (broadcastInDim S16384x3 ![] bcast_S_S16384x3 (constant (F := Ideal) S_ .f32 0x3F800000#32)) :=
    (hv_s2_v17 (Gen.V9 m (outsB m) c)).trans
      (congrArg (fun z : FVec Ideal S16384x3 .f32 => Host.divf (F := Ideal) z (broadcastInDim S16384x3 ![] bcast_S_S16384x3 (constant (F := Ideal) S_ .f32 0x3F800000#32))) (V9_out m c))
  rw [e]
  show Ideal.div (loutArr m c (ix2 n k)) ((broadcastInDim S16384x3 ![] bcast_S_S16384x3 (constant (F := Ideal) S_ .f32 0x3F800000#32)) (ix2 n k)) = _
  rw [broadcastInDim_apply _ bcast_S_S16384x3 _ (ix2 n k) ix0 (fun a => a.elim0)]
  rfl

end Cert.KernelIdeal.Hand

end
-- ==== Proof.ClassValue.lean ====
/-
  What the per-class accumulation region leaves in its output array, at an index: for core `core`, class `k` and
  (padded) column `d`, the sum over the core's 16 sample tiles and the 512 samples of a tile of the sample's
  one-hot entry for `k` times the sign of its projection on column `d`.

  The road: a point's update at an index is the accumulator's entry plus the tile's class sums (the two products
  read as finite sums); each window's block at a point is its array at block index times block size plus the
  coordinate inside the block; at a last tile the accumulator is zero plus the sixteen tile sums of its run, which
  are the core's sixteen sample tiles at one column chunk; every write-back therefore writes its block of ONE
  function of the output's index, and the point that covers `(core, k, d)` is the last tile of core `core` and
  chunk `d / 1280`.
-/
import proofs.«421992_j38809324486988_3_alg».proof.Proof.ClassData
import proofs.«421992_j38809324486988_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## The two products of a tile, at an index -/

/-- The projection product contracts the 128 features: the left operand is read at (row, feature), -/
theorem cv_projL_0 (i : S512x1280.Idx) (q : dot_S512x128_S128x1280_S512x1280_1_0_0_1_n_n.contr.Idx) :
    (dot_S512x128_S128x1280_S512x1280_1_0_0_1_n_n.lhsIdx i q 0).val = (i 0).val := by
  unfold DotDims.lhsIdx
  rw [dif_neg (show ¬(0 : Fin S512x128.rank) ∈ dot_S512x128_S128x1280_S512x1280_1_0_0_1_n_n.lhsBatch by decide), dif_pos (show (0 : Fin S512x128.rank) ∈ dot_S512x128_S128x1280_S512x1280_1_0_0_1_n_n.lhsNonContracting by decide)]
  rfl
theorem cv_projL_1 (i : S512x1280.Idx) (q : dot_S512x128_S128x1280_S512x1280_1_0_0_1_n_n.contr.Idx) :
    (dot_S512x128_S128x1280_S512x1280_1_0_0_1_n_n.lhsIdx i q 1).val = (q ⟨0, by decide⟩).val :=
  dot_S512x128_S128x1280_S512x1280_1_0_0_1_n_n.lhsIdx_val_of_single rfl i q
/-- the right one at (feature, column). -/
theorem cv_projR_0 (i : S512x1280.Idx) (q : dot_S512x128_S128x1280_S512x1280_1_0_0_1_n_n.contr.Idx) :
    (dot_S512x128_S128x1280_S512x1280_1_0_0_1_n_n.rhsIdx i q 0).val = (q ⟨0, by decide⟩).val :=
  dot_S512x128_S128x1280_S512x1280_1_0_0_1_n_n.rhsIdx_val_of_single rfl i q
theorem cv_projR_1 (i : S512x1280.Idx) (q : dot_S512x128_S128x1280_S512x1280_1_0_0_1_n_n.contr.Idx) :
    (dot_S512x128_S128x1280_S512x1280_1_0_0_1_n_n.rhsIdx i q 1).val = (i 1).val := by
  unfold DotDims.rhsIdx
  rw [dif_neg (show ¬(1 : Fin S128x1280.rank) ∈ dot_S512x128_S128x1280_S512x1280_1_0_0_1_n_n.rhsBatch by decide), dif_pos (show (1 : Fin S128x1280.rank) ∈ dot_S512x128_S128x1280_S512x1280_1_0_0_1_n_n.rhsNonContracting by decide)]
  rfl

/-- The projection of row `r` of the tile on column `e` of the chunk: the sum over the features. -/
theorem cv_proj_apply (x : FVec Ideal S512x128 .f32) (f : FVec Ideal S128x1280 .f32) (r : Fin 512) (e : Fin 1280) :
    matmul dot_S512x128_S128x1280_S512x1280_1_0_0_1_n_n (some .fp32) x f (constant (F := Ideal) S512x1280 .f32 0x00000000#32) (ix2 r e)
      = ∑ cc : Fin 128, x (ix2 r cc) * f (ix2 cc e) := by
  refine (Ideal.matmul_constant_zero_apply dot_S512x128_S128x1280_S512x1280_1_0_0_1_n_n (some .fp32) x f (ix2 r e)).trans ?_
  rw [← Equiv.sum_comp (contrEquiv1 dot_S512x128_S128x1280_S512x1280_1_0_0_1_n_n 128 rfl rfl).symm]
  refine Finset.sum_congr rfl fun cc _ => ?_
  have hk := contrEquiv1_symm_val dot_S512x128_S128x1280_S512x1280_1_0_0_1_n_n 128 rfl rfl cc
  have el : dot_S512x128_S128x1280_S512x1280_1_0_0_1_n_n.lhsIdx (ix2 r e) ((contrEquiv1 dot_S512x128_S128x1280_S512x1280_1_0_0_1_n_n 128 rfl rfl).symm cc) = ix2 r cc := funext fun a => Fin.ext (by
    match a with
    | ⟨0, _⟩ => exact cv_projL_0 _ _
    | ⟨1, _⟩ => exact (cv_projL_1 _ _).trans hk)
  have er : dot_S512x128_S128x1280_S512x1280_1_0_0_1_n_n.rhsIdx (ix2 r e) ((contrEquiv1 dot_S512x128_S128x1280_S512x1280_1_0_0_1_n_n 128 rfl rfl).symm cc) = ix2 cc e := funext fun a => Fin.ext (by
    match a with
    | ⟨0, _⟩ => exact (cv_projR_0 _ _).trans hk
    | ⟨1, _⟩ => exact cv_projR_1 _ _)
  rw [el, er]

/-- The class product contracts the 512 rows of the tile: the left operand is read at (row, class), -/
theorem cv_clsL_0 (i : S3x1280.Idx) (q : dot_S512x3_S512x1280_S3x1280_0_0_1_1_n_n.contr.Idx) :
    (dot_S512x3_S512x1280_S3x1280_0_0_1_1_n_n.lhsIdx i q 0).val = (q ⟨0, by decide⟩).val :=
  dot_S512x3_S512x1280_S3x1280_0_0_1_1_n_n.lhsIdx_val_of_single rfl i q
theorem cv_clsL_1 (i : S3x1280.Idx) (q : dot_S512x3_S512x1280_S3x1280_0_0_1_1_n_n.contr.Idx) :
    (dot_S512x3_S512x1280_S3x1280_0_0_1_1_n_n.lhsIdx i q 1).val = (i 0).val := by
  unfold DotDims.lhsIdx
  rw [dif_neg (show ¬(1 : Fin S512x3.rank) ∈ dot_S512x3_S512x1280_S3x1280_0_0_1_1_n_n.lhsBatch by decide), dif_pos (show (1 : Fin S512x3.rank) ∈ dot_S512x3_S512x1280_S3x1280_0_0_1_1_n_n.lhsNonContracting by decide)]
  rfl
/-- the right one at (row, column). -/
theorem cv_clsR_0 (i : S3x1280.Idx) (q : dot_S512x3_S512x1280_S3x1280_0_0_1_1_n_n.contr.Idx) :
    (dot_S512x3_S512x1280_S3x1280_0_0_1_1_n_n.rhsIdx i q 0).val = (q ⟨0, by decide⟩).val :=
  dot_S512x3_S512x1280_S3x1280_0_0_1_1_n_n.rhsIdx_val_of_single rfl i q
theorem cv_clsR_1 (i : S3x1280.Idx) (q : dot_S512x3_S512x1280_S3x1280_0_0_1_1_n_n.contr.Idx) :
    (dot_S512x3_S512x1280_S3x1280_0_0_1_1_n_n.rhsIdx i q 1).val = (i 1).val := by
  unfold DotDims.rhsIdx
  rw [dif_neg (show ¬(1 : Fin S512x1280.rank) ∈ dot_S512x3_S512x1280_S3x1280_0_0_1_1_n_n.rhsBatch by decide), dif_pos (show (1 : Fin S512x1280.rank) ∈ dot_S512x3_S512x1280_S3x1280_0_0_1_1_n_n.rhsNonContracting by decide)]
  rfl

/-- The class sums of a tile at class `k` and column `e`: the sum over the tile's rows. -/
theorem cv_cls_apply (l : FVec Ideal S512x3 .bf16) (s : FVec Ideal S512x1280 .bf16) (k : Fin 3) (e : Fin 1280) :
    matmul dot_S512x3_S512x1280_S3x1280_0_0_1_1_n_n none l s (constant (F := Ideal) S3x1280 .f32 0x00000000#32) (ix2 k e)
      = ∑ r : Fin 512, l (ix2 r k) * s (ix2 r e) := by
  refine (Ideal.matmul_constant_zero_apply dot_S512x3_S512x1280_S3x1280_0_0_1_1_n_n none l s (ix2 k e)).trans ?_
  rw [← Equiv.sum_comp (contrEquiv1 dot_S512x3_S512x1280_S3x1280_0_0_1_1_n_n 512 rfl rfl).symm]
  refine Finset.sum_congr rfl fun r _ => ?_
  have hk := contrEquiv1_symm_val dot_S512x3_S512x1280_S3x1280_0_0_1_1_n_n 512 rfl rfl r
  have el : dot_S512x3_S512x1280_S3x1280_0_0_1_1_n_n.lhsIdx (ix2 k e) ((contrEquiv1 dot_S512x3_S512x1280_S3x1280_0_0_1_1_n_n 512 rfl rfl).symm r) = ix2 r k := funext fun a => Fin.ext (by
    match a with
    | ⟨0, _⟩ => exact (cv_clsL_0 _ _).trans hk
    | ⟨1, _⟩ => exact cv_clsL_1 _ _)
  have er : dot_S512x3_S512x1280_S3x1280_0_0_1_1_n_n.rhsIdx (ix2 k e) ((contrEquiv1 dot_S512x3_S512x1280_S3x1280_0_0_1_1_n_n 512 rfl rfl).symm r) = ix2 r e := funext fun a => Fin.ext (by
    match a with
    | ⟨0, _⟩ => exact (cv_clsR_0 _ _).trans hk
    | ⟨1, _⟩ => exact cv_clsR_1 _ _)
  rw [el, er]

/-- What a point adds: the accumulator's entry plus, over the tile's rows, the one-hot entry times the sign of the
    row's projection. -/
theorem cv_pay2_apply (x : Vec Ideal S512x128 .f32) (f : Vec Ideal S128x1280 .f32) (l : Vec Ideal S512x3 .bf16)
    (a : Vec Ideal S3x1280 .f32) (k : Fin 3) (e : Fin 1280) :
    k0_pay2 x f l a (ix2 k e)
      = a (ix2 k e) + ∑ r : Fin 512, l (ix2 r k) * Cert.Hd.sgn (∑ cc : Fin 128, x (ix2 r cc) * f (ix2 cc e)) := by
  unfold k0_pay2
  simp only [shapeCast_self]
  refine congrArg (a (ix2 k e) + ·) ?_
  refine (cv_cls_apply _ _ k e).trans ?_
  refine Finset.sum_congr rfl fun r _ => congrArg (l (ix2 r k) * ·) ?_
  unfold Cert.Hd.sgn
  refine congrArg (fun z => Scalar.select (FloatOps.cmpf (F := Ideal) .oge z Cert.Hd.w0) Cert.Hd.w1 Cert.Hd.wm1) ?_
  exact cv_proj_apply x f r e

/-- The zero block the first tile starts from. -/
theorem cv_pay1_apply (j : S3x1280.Idx) : (k0_pay1 (F := Ideal)) j = 0 := by
  unfold k0_pay1
  rw [shapeCast_self]
  exact Ideal.ofBits_zero_f32

/-! ## The windows' blocks at a point, at an index

A block's coordinate in its array is the block index times the block's size plus the coordinate inside the
block. Over the linear point `t = (core · 8 + chunk) · 16 + tile`: the sample windows' row block is
`core · 16 + tile = (t / 128) · 16 + t % 16`, the projection's column block is `chunk = t / 16 % 8`, the output's
block is `(core, 0, chunk)`. -/

theorem cv_idx_0 : ∀ t : Fin cfg0.N, win0_0.index t (0 : Fin 2) = t.val / 128 * 16 + t.val % 16 ∧ win0_0.index t (1 : Fin 2) = 0 :=
  (by decide +kernel : ∀ t : Fin grid0.N, _)
theorem cv_idx_1 : ∀ t : Fin cfg0.N, win0_1.index t (0 : Fin 2) = 0 ∧ win0_1.index t (1 : Fin 2) = t.val / 16 % 8 :=
  (by decide +kernel : ∀ t : Fin grid0.N, _)
theorem cv_idx_2 : ∀ t : Fin cfg0.N, win0_2.index t (0 : Fin 2) = t.val / 128 * 16 + t.val % 16 ∧ win0_2.index t (1 : Fin 2) = 0 :=
  (by decide +kernel : ∀ t : Fin grid0.N, _)
theorem cv_idx_3 : ∀ t : Fin cfg0.N, win0_3.index t (0 : Fin 3) = t.val / 128 ∧ win0_3.index t (1 : Fin 3) = 0
    ∧ win0_3.index t (2 : Fin 3) = t.val / 16 % 8 :=
  (by decide +kernel : ∀ t : Fin grid0.N, _)

section Blocks

variable (V : (c : Dev nD) → (b : Ref sig .tc) → Buf (Elt Ideal) ((c : Thread nD τ).loc b)) (c : Dev nD)

/-- The features' tile: row `r` of the tile is row `((t / 128) · 16 + t % 16) · 512 + r` of the features. -/
theorem cv_blk0_apply (ft : FVec Ideal S16384x128 .f32) (hft : V c main_arg0 = ft) (t : Fin cfg0.N) (r : Fin 512) (cc : Fin 128)
    (n : Fin 16384) (hn : n.val = (t.val / 128 * 16 + t.val % 16) * 512 + r.val) :
    (cblk V c 0 t : Vec Ideal S512x128 .f32) (ix2 r cc) = ft (ix2 n cc) := by
  unfold cblk
  rw [View.read_apply]
  show V c main_arg0 _ = ft _
  rw [hft]
  congr 1
  funext a
  apply Fin.ext
  match a with
  | ⟨0, _⟩ => show win0_0.index t 0 * 512 + 1 * r.val = n.val; rw [(cv_idx_0 t).1, hn]; omega
  | ⟨1, _⟩ => show win0_0.index t 1 * 128 + 1 * cc.val = cc.val; rw [(cv_idx_0 t).2]; omega

/-- The projection's chunk: column `e` of the chunk is column `(t / 16 % 8) · 1280 + e` of the projection. -/
theorem cv_blk1_apply (pp : FVec Ideal S128x10240 .f32) (hpp : V c main_v2 = pp) (t : Fin cfg0.N) (cc : Fin 128) (e : Fin 1280)
    (d : Fin 10240) (hd : d.val = t.val / 16 % 8 * 1280 + e.val) :
    (cblk V c 1 t : Vec Ideal S128x1280 .f32) (ix2 cc e) = pp (ix2 cc d) := by
  unfold cblk
  rw [View.read_apply]
  show V c main_v2 _ = pp _
  rw [hpp]
  congr 1
  funext a
  apply Fin.ext
  match a with
  | ⟨0, _⟩ => show win0_1.index t 0 * 128 + 1 * cc.val = cc.val; rw [(cv_idx_1 t).1]; omega
  | ⟨1, _⟩ => show win0_1.index t 1 * 1280 + 1 * e.val = d.val; rw [(cv_idx_1 t).2, hd]; omega

/-- The one-hot labels' tile: the same rows as the features' tile. -/
theorem cv_blk2_apply (oh : FVec Ideal S16384x3 .bf16) (hoh : V c main_v0 = oh) (t : Fin cfg0.N) (r : Fin 512) (k : Fin 3)
    (n : Fin 16384) (hn : n.val = (t.val / 128 * 16 + t.val % 16) * 512 + r.val) :
    (cblk V c 2 t : Vec Ideal S512x3 .bf16) (ix2 r k) = oh (ix2 n k) := by
  unfold cblk
  rw [View.read_apply]
  show V c main_v0 _ = oh _
  rw [hoh]
  congr 1
  funext a
  apply Fin.ext
  match a with
  | ⟨0, _⟩ => show win0_2.index t 0 * 512 + 1 * r.val = n.val; rw [(cv_idx_2 t).1, hn]; omega
  | ⟨1, _⟩ => show win0_2.index t 1 * 3 + 1 * k.val = k.val; rw [(cv_idx_2 t).2]; omega

end Blocks

/-! ## What a point adds, over the arrays -/

/-- Row `r` of the sample tile of point `n`, as a sample (reduced into range: at a point of the grid nothing is
    reduced), -/
def cvRow (n : ℕ) (r : Fin 512) : Fin 16384 := ⟨((n / 128 * 16 + n % 16) * 512 + r.val) % 16384, Nat.mod_lt _ (by decide)⟩
/-- and column `e` of its column chunk, as a padded column. -/
def cvCol (n : ℕ) (e : Fin 1280) : Fin 10240 := ⟨(n / 16 % 8 * 1280 + e.val) % 10240, Nat.mod_lt _ (by decide)⟩

theorem cvRow_val (t : Fin cfg0.N) (r : Fin 512) : (cvRow t.val r).val = (t.val / 128 * 16 + t.val % 16) * 512 + r.val := by
  have hN : cfg0.N = 256 := N_0
  have := t.isLt
  have := r.isLt
  show ((t.val / 128 * 16 + t.val % 16) * 512 + r.val) % 16384 = _
  omega
theorem cvCol_val (t : Fin cfg0.N) (e : Fin 1280) : (cvCol t.val e).val = t.val / 16 % 8 * 1280 + e.val := by
  have := e.isLt
  show (t.val / 16 % 8 * 1280 + e.val) % 10240 = _
  omega

section Acc

variable (V : (c : Dev nD) → (b : Ref sig .tc) → Buf (Elt Ideal) ((c : Thread nD τ).loc b)) (c : Dev nD)
variable (ft : FVec Ideal S16384x128 .f32) (pp : FVec Ideal S128x10240 .f32) (oh : FVec Ideal S16384x3 .bf16)

/-- What point `n` adds at class `k` and column `e` of its chunk: over the 512 samples of its tile, the one-hot
    entry times the sign of the sample's projection. -/
def cvTileAt (n : ℕ) (k : Fin 3) (e : Fin 1280) : EReal :=
  ∑ r : Fin 512, oh (ix2 (cvRow n r) k) * Cert.Hd.sgn (∑ cc : Fin 128, ft (ix2 (cvRow n r) cc) * pp (ix2 cc (cvCol n e)))

/-- The same as a block of the accumulator's shape. -/
def cvTileSum (n : ℕ) : S3x1280.Idx → EReal := fun j => cvTileAt ft pp oh n (j 0) (j 1)

/-- The body's update at point `t`: the accumulator plus the point's tile sums. -/
theorem cv_step_apply (hft : V c main_arg0 = ft) (hpp : V c main_v2 = pp) (hoh : V c main_v0 = oh)
    (t : Fin cfg0.N) (a : Vec Ideal S3x1280 .f32) (j : S3x1280.Idx) :
    k0_pay2 (cblk V c 0 t) (cblk V c 1 t) (cblk V c 2 t) a j = a j + cvTileSum ft pp oh t.val j := by
  obtain ⟨k, e, rfl⟩ : ∃ (k : Fin 3) (e : Fin 1280), j = ix2 k e := ⟨j 0, j 1, eq_ix2 j⟩
  refine (cv_pay2_apply (cblk V c 0 t) (cblk V c 1 t) (cblk V c 2 t) a k e).trans ?_
  refine congrArg (a (ix2 k e) + ·) ?_
  show _ = cvTileAt ft pp oh t.val k e
  unfold cvTileAt
  refine Finset.sum_congr rfl fun r _ => ?_
  have h2 := cv_blk2_apply V c oh hoh t r k (cvRow t.val r) (cvRow_val t r)
  have h0 := fun cc => cv_blk0_apply V c ft hft t r cc (cvRow t.val r) (cvRow_val t r)
  have h1 := fun cc => cv_blk1_apply V c pp hpp t cc e (cvCol t.val e) (cvCol_val t e)
  rw [h2]
  refine congrArg (oh (ix2 (cvRow t.val r) k) * ·) (congrArg Cert.Hd.sgn ?_)
  exact Finset.sum_congr rfl fun cc _ => by rw [h0 cc, h1 cc]

/-- At a last tile the accumulator holds the sum of the tile sums of the sixteen points of its run. -/
theorem cv_acc_last (hft : V c main_arg0 = ft) (hpp : V c main_v2 = pp) (hoh : V c main_v0 = oh)
    (t : Fin cfg0.N) (h15 : t.val % 16 = 15) (j : S3x1280.Idx) :
    caccAt V c t.val t.isLt j = ∑ s ∈ Finset.range 16, cvTileSum ft pp oh (16 * (t.val / 16) + s) j := by
  have hb : 16 * (t.val / 16) + t.val % 16 < cfg0.N := by rw [Nat.div_add_mod]; exact t.isLt
  have e1 := Pipeline.eq_accAt_of_mod (N := cfg0.N) (caccAt (F := Ideal) V c) 16
      (fun n h => k0_pay2 (cblk V c 0 ⟨n, h⟩) (cblk V c 1 ⟨n, h⟩) (cblk V c 2 ⟨n, h⟩) (k0_pay1 (F := Ideal)))
      (fun n h acc => k0_pay2 (cblk V c 0 ⟨n, h⟩) (cblk V c 1 ⟨n, h⟩) (cblk V c 2 ⟨n, h⟩) acc)
      (fun n h h0 => caccAt_first V c ⟨n, h⟩ h0)
      (fun n h hne => caccAt_next V c ⟨n + 1, h⟩ hne)
      (by decide) t.val t.isLt hb
  have e2 := Pipeline.accAt_add_apply (N := cfg0.N) (ι := S3x1280.Idx) (β := EReal)
      (fun n h => k0_pay2 (cblk V c 0 ⟨n, h⟩) (cblk V c 1 ⟨n, h⟩) (cblk V c 2 ⟨n, h⟩) (k0_pay1 (F := Ideal)))
      (fun n h acc => k0_pay2 (cblk V c 0 ⟨n, h⟩) (cblk V c 1 ⟨n, h⟩) (cblk V c 2 ⟨n, h⟩) acc)
      (fun _ => 0) (fun n => cvTileSum ft pp oh n) (16 * (t.val / 16)) 15
      (fun h i => (cv_step_apply V c ft pp oh hft hpp hoh ⟨_, h⟩ (k0_pay1 (F := Ideal)) i).trans
        (congrArg (· + cvTileSum ft pp oh (16 * (t.val / 16)) i) (cv_pay1_apply i)))
      (fun n h acc i _ _ => cv_step_apply V c ft pp oh hft hpp hoh ⟨n, h⟩ acc i)
      (t.val % 16) (by omega) hb j
  refine (congrFun e1 j).trans (e2.trans ?_)
  show (0 : EReal) + _ = _
  rw [zero_add, h15]

end Acc

/-! ## The samples of a core -/

/-- Sample `(core · 16 + i) · 512 + r`: row `r` of tile `i` of core `core`'s half of the samples. -/
def sampleOf (core : Fin 2) (i : Fin 16) (r : Fin 512) : Fin 16384 :=
  ⟨(core.val * 16 + i.val) * 512 + r.val, by have := core.isLt; have := i.isLt; have := r.isLt; omega⟩

/-! ## From the blocks to the array -/

section Out

variable (V : (c : Dev nD) → (b : Ref sig .tc) → Buf (Elt Ideal) ((c : Thread nD τ).loc b)) (c : Dev nD)
variable (ft : FVec Ideal S16384x128 .f32) (pp : FVec Ideal S128x10240 .f32) (oh : FVec Ideal S16384x3 .bf16)

/-- The class sum of core `core`'s half of the samples at class `k` and padded column `d`. -/
def cvClassAt (core : Fin 2) (k : Fin 3) (d : Fin 10240) : EReal :=
  ∑ i : Fin 16, ∑ r : Fin 512,
    oh (ix2 (sampleOf core i r) k) * Cert.Hd.sgn (∑ cc : Fin 128, ft (ix2 (sampleOf core i r) cc) * pp (ix2 cc d))

/-- The same as contents of the output array. -/
def cvClassArr : FVec Ideal S2x3x10240 .f32 := fun j => cvClassAt ft pp oh (j 0) (j 1) (j 2)

theorem cvClassArr_apply (j : S2x3x10240.Idx) (core : Fin 2) (k : Fin 3) (d : Fin 10240)
    (h0 : (j 0).val = core.val) (h1 : (j 1).val = k.val) (h2 : (j 2).val = d.val) :
    cvClassArr ft pp oh j = cvClassAt ft pp oh core k d := by
  obtain ⟨a, b, e, rfl⟩ : ∃ (a : Fin 2) (b : Fin 3) (e : Fin 10240), j = ix3 a b e := ⟨j 0, j 1, j 2, eq_ix3 j⟩
  have ea : a = core := Fin.ext h0
  have eb : b = k := Fin.ext h1
  have ee : e = d := Fin.ext h2
  subst ea eb ee
  rfl

/-- At a last tile the accumulator's entry is the class sum of the point's core at the point's column chunk: the
    sixteen points of the run are the core's sixteen sample tiles, all at that chunk. -/
theorem cv_acc_last_eq (hft : V c main_arg0 = ft) (hpp : V c main_v2 = pp) (hoh : V c main_v0 = oh)
    (t : Fin cfg0.N) (h15 : t.val % 16 = 15) (k : Fin 3) (e : Fin 1280) (core : Fin 2) (d : Fin 10240)
    (hcore : core.val = t.val / 128) (hd : d.val = t.val / 16 % 8 * 1280 + e.val) :
    caccAt V c t.val t.isLt (ix2 k e) = cvClassAt ft pp oh core k d := by
  have hN : cfg0.N = 256 := N_0
  have ht := t.isLt
  rw [cv_acc_last V c ft pp oh hft hpp hoh t h15 (ix2 k e), Finset.sum_range]
  unfold cvClassAt
  refine Finset.sum_congr rfl fun i _ => ?_
  show cvTileAt ft pp oh (16 * (t.val / 16) + i.val) k e = _
  unfold cvTileAt
  have hi := i.isLt
  have he := e.isLt
  have hr : ∀ r : Fin 512, cvRow (16 * (t.val / 16) + i.val) r = sampleOf core i r := fun r => Fin.ext (by
    have := r.isLt
    show (((16 * (t.val / 16) + i.val) / 128 * 16 + (16 * (t.val / 16) + i.val) % 16) * 512 + r.val) % 16384
      = (core.val * 16 + i.val) * 512 + r.val
    omega)
  have hc : cvCol (16 * (t.val / 16) + i.val) e = d := Fin.ext (by
    show ((16 * (t.val / 16) + i.val) / 16 % 8 * 1280 + e.val) % 10240 = d.val
    omega)
  refine Finset.sum_congr rfl fun r _ => ?_
  rw [hr r, hc]

/-- The output block's store: the accumulator under a leading unit axis. -/
theorem cv_out_apply (a : Vec Ideal S3x1280 .f32) (y : S1x3x1280.Idx) (k : Fin 3) (e : Fin 1280)
    (hk : (y 1).val = k.val) (he : (y 2).val = e.val) : k0_pay3 a y = a (ix2 k e) := by
  unfold k0_pay3
  refine (shapeCast_addUnit_apply ![3, 1280] a _ y).trans (congrArg a (funext fun b => Fin.ext ?_))
  match b with
  | ⟨0, _⟩ => exact hk
  | ⟨1, _⟩ => exact he

/-- What a last tile writes back, at an index of the block: the class sums read through the block. -/
theorem cv_flushed_apply (hft : V c main_arg0 = ft) (hpp : V c main_v2 = pp) (hoh : V c main_v0 = oh)
    (t : Fin cfg0.N) (h15 : t.val % 16 = 15) (y : S1x3x1280.Idx) :
    k0_pay3 (caccAt V c t.val t.isLt) y
      = (((cfg0.win 3).blk t).view.read (Elt Ideal) (cvClassArr ft pp oh) : Vec Ideal S1x3x1280 .f32) y := by
  have hN : cfg0.N = 256 := N_0
  have ht := t.isLt
  have hi := cv_idx_3 t
  have hy0 : (y 0).val < 1 := (y 0).isLt
  have hy1 : (y 1).val < 3 := (y 1).isLt
  have hy2 : (y 2).val < 1280 := (y 2).isLt
  rw [View.read_apply]
  show k0_pay3 (caccAt V c t.val t.isLt) y = cvClassArr ft pp oh _
  refine (cv_out_apply _ y ⟨(y 1).val, hy1⟩ ⟨(y 2).val, hy2⟩ rfl rfl).trans ?_
  refine (cv_acc_last_eq V c ft pp oh hft hpp hoh t h15 _ _ ⟨t.val / 128, by omega⟩
    ⟨t.val / 16 % 8 * 1280 + (y 2).val, by omega⟩ rfl rfl).trans ?_
  refine (cvClassArr_apply ft pp oh _ _ _ _ ?_ ?_ ?_).symm
  · show win0_3.index t 0 * 1 + 1 * (y 0).val = t.val / 128
    rw [hi.1]; omega
  · show win0_3.index t 1 * 3 + 1 * (y 1).val = (y 1).val
    rw [hi.2.1]; omega
  · show win0_3.index t 2 * 1280 + 1 * (y 2).val = t.val / 16 % 8 * 1280 + (y 2).val
    rw [hi.2.2]; omega

/-- So every write-back writes its block of the class sums. -/
theorem cv_flushed_eq (hft : V c main_arg0 = ft) (hpp : V c main_v2 = pp) (hoh : V c main_v0 = oh)
    (t : Fin cfg0.N) (hf : (cfg0.win 3).flush t = true) :
    (cdat (F := Ideal) V c).flushed 3 t = ((cfg0.win 3).blk t).view.read (Elt Ideal) (cvClassArr ft pp oh) := by
  have h15 : t.val % 16 = 15 := (flush0_3 t).mp hf
  show (cfg0.win 3).cut (grid0.coords t) ((cdat (F := Ideal) V c).after 3 t) = _
  rw [cafter_3]
  funext y
  exact cv_flushed_apply V c ft pp oh hft hpp hoh t h15 y

end Out

/-- The region's output array at `(core, k, d)`. -/
theorem class_out (V : (c : Dev nD) → (b : Ref sig .tc) → Buf (Elt Ideal) ((c : Thread nD τ).loc b)) (c : Dev nD)
    (ft : FVec Ideal S16384x128 .f32) (hft : V c main_arg0 = ft)
    (pp : FVec Ideal S128x10240 .f32) (hpp : V c main_v2 = pp)
    (oh : FVec Ideal S16384x3 .bf16) (hoh : V c main_v0 = oh)
    (core : Fin 2) (k : Fin 3) (d : Fin 10240) :
    ((cdat (F := Ideal) V c).arrAt 3 cfg0.N : FVec Ideal S2x3x10240 .f32) (ix3 core k d)
      = ∑ i : Fin 16, ∑ r : Fin 512,
          oh (ix2 (sampleOf core i r) k)
            * Cert.Hd.sgn (∑ cc : Fin 128, ft (ix2 (sampleOf core i r) cc) * pp (ix2 cc d)) := by
  have hN : cfg0.N = 256 := N_0
  have hcore := core.isLt
  have hd := d.isLt
  obtain ⟨t, htv⟩ : ∃ t : Fin cfg0.N, t.val = (core.val * 8 + d.val / 1280) * 16 + 15 := ⟨⟨_, by omega⟩, rfl⟩
  have hfl : (cfg0.win 3).flush t = true := (flush0_3 t).mpr (by omega)
  have hi := cv_idx_3 t
  have hmem : ix3 core k d ∈ ((cfg0.win 3).blk t).view.set := by
    show ix3 core k d ∈ ((View.whole main_v3).slice (win0_3.rect t)).set
    rw [View.set_slice_whole, Rect.mem_set_unit]
    intro a
    match a with
    | ⟨0, _⟩ =>
      show win0_3.index t 0 * 1 ≤ core.val ∧ core.val < win0_3.index t 0 * 1 + 1
      rw [hi.1]; omega
    | ⟨1, _⟩ =>
      have := k.isLt
      show win0_3.index t 1 * 3 ≤ k.val ∧ k.val < win0_3.index t 1 * 3 + 3
      rw [hi.2.1]; omega
    | ⟨2, _⟩ =>
      show win0_3.index t 2 * 1280 ≤ d.val ∧ d.val < win0_3.index t 2 * 1280 + 1280
      rw [hi.2.2]; omega
  exact (cdat (F := Ideal) V c).arrAt_apply_of_mem 3 (cvClassArr ft pp oh)
    (fun t hf => cv_flushed_eq V c ft pp oh hft hpp hoh t hf) cfg0.N t (ix3 core k d) t.isLt hfl hmem

end Cert.KernelIdeal.Hand

end
-- ==== Proof.LogitValue.lean ====
/-
  What the logits region leaves in its output array, at an index: for sample `n` and class `k`, the sum over the 8
  column chunks and the 1280 columns of a chunk of the sign of the sample's projection on the column times the
  (padded) prototype entry of class `k` there.
-/
import proofs.«421992_j38809324486988_3_alg».proof.Proof.LogitData
import proofs.«421992_j38809324486988_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- Column `j · 1280 + e`: column `e` of chunk `j` of the padded 10240 columns. -/
def colOf (j : Fin 8) (e : Fin 1280) : Fin 10240 :=
  ⟨j.val * 1280 + e.val, by have := j.isLt; have := e.isLt; omega⟩

section

/-! ## The two contractions' operand indices -/

theorem lv_lhsA_0 (i : S512x1280.Idx) (q : dot_S512x128_S128x1280_S512x1280_1_0_0_1_n_n.contr.Idx) :
    (dot_S512x128_S128x1280_S512x1280_1_0_0_1_n_n.lhsIdx i q 0).val = (i 0).val := by
  unfold DotDims.lhsIdx
  rw [dif_neg (show ¬(0 : Fin S512x128.rank) ∈ dot_S512x128_S128x1280_S512x1280_1_0_0_1_n_n.lhsBatch by decide), dif_pos (show (0 : Fin S512x128.rank) ∈ dot_S512x128_S128x1280_S512x1280_1_0_0_1_n_n.lhsNonContracting by decide)]
  rfl
theorem lv_lhsA_1 (i : S512x1280.Idx) (q : dot_S512x128_S128x1280_S512x1280_1_0_0_1_n_n.contr.Idx) :
    (dot_S512x128_S128x1280_S512x1280_1_0_0_1_n_n.lhsIdx i q 1).val = (q ⟨0, by decide⟩).val :=
  dot_S512x128_S128x1280_S512x1280_1_0_0_1_n_n.lhsIdx_val_of_single rfl i q
theorem lv_rhsA_0 (i : S512x1280.Idx) (q : dot_S512x128_S128x1280_S512x1280_1_0_0_1_n_n.contr.Idx) :
    (dot_S512x128_S128x1280_S512x1280_1_0_0_1_n_n.rhsIdx i q 0).val = (q ⟨0, by decide⟩).val :=
  dot_S512x128_S128x1280_S512x1280_1_0_0_1_n_n.rhsIdx_val_of_single rfl i q
theorem lv_rhsA_1 (i : S512x1280.Idx) (q : dot_S512x128_S128x1280_S512x1280_1_0_0_1_n_n.contr.Idx) :
    (dot_S512x128_S128x1280_S512x1280_1_0_0_1_n_n.rhsIdx i q 1).val = (i 1).val := by
  unfold DotDims.rhsIdx
  rw [dif_neg (show ¬(1 : Fin S128x1280.rank) ∈ dot_S512x128_S128x1280_S512x1280_1_0_0_1_n_n.rhsBatch by decide), dif_pos (show (1 : Fin S128x1280.rank) ∈ dot_S512x128_S128x1280_S512x1280_1_0_0_1_n_n.rhsNonContracting by decide)]
  rfl

theorem lv_lhsB_0 (i : S512x3.Idx) (q : dot_S512x1280_S3x1280_S512x3_1_1_0_0_n_n.contr.Idx) :
    (dot_S512x1280_S3x1280_S512x3_1_1_0_0_n_n.lhsIdx i q 0).val = (i 0).val := by
  unfold DotDims.lhsIdx
  rw [dif_neg (show ¬(0 : Fin S512x1280.rank) ∈ dot_S512x1280_S3x1280_S512x3_1_1_0_0_n_n.lhsBatch by decide), dif_pos (show (0 : Fin S512x1280.rank) ∈ dot_S512x1280_S3x1280_S512x3_1_1_0_0_n_n.lhsNonContracting by decide)]
  rfl
theorem lv_lhsB_1 (i : S512x3.Idx) (q : dot_S512x1280_S3x1280_S512x3_1_1_0_0_n_n.contr.Idx) :
    (dot_S512x1280_S3x1280_S512x3_1_1_0_0_n_n.lhsIdx i q 1).val = (q ⟨0, by decide⟩).val :=
  dot_S512x1280_S3x1280_S512x3_1_1_0_0_n_n.lhsIdx_val_of_single rfl i q
theorem lv_rhsB_0 (i : S512x3.Idx) (q : dot_S512x1280_S3x1280_S512x3_1_1_0_0_n_n.contr.Idx) :
    (dot_S512x1280_S3x1280_S512x3_1_1_0_0_n_n.rhsIdx i q 0).val = (i 1).val := by
  unfold DotDims.rhsIdx
  rw [dif_neg (show ¬(0 : Fin S3x1280.rank) ∈ dot_S512x1280_S3x1280_S512x3_1_1_0_0_n_n.rhsBatch by decide), dif_pos (show (0 : Fin S3x1280.rank) ∈ dot_S512x1280_S3x1280_S512x3_1_1_0_0_n_n.rhsNonContracting by decide)]
  rfl
theorem lv_rhsB_1 (i : S512x3.Idx) (q : dot_S512x1280_S3x1280_S512x3_1_1_0_0_n_n.contr.Idx) :
    (dot_S512x1280_S3x1280_S512x3_1_1_0_0_n_n.rhsIdx i q 1).val = (q ⟨0, by decide⟩).val :=
  dot_S512x1280_S3x1280_S512x3_1_1_0_0_n_n.rhsIdx_val_of_single rfl i q

/-- The projection of row `r` on column `e` of the chunk: the first contraction into a zero accumulator. -/
theorem lv_matA_apply (x : FVec Ideal S512x128 .f32) (f : FVec Ideal S128x1280 .f32) (r : Fin 512) (e : Fin 1280) :
    matmul dot_S512x128_S128x1280_S512x1280_1_0_0_1_n_n (some .fp32) x f (constant (F := Ideal) S512x1280 .f32 0x00000000#32) (ix2 r e)
      = ∑ cc : Fin 128, x (ix2 r cc) * f (ix2 cc e) := by
  simp only [matmul]
  rw [Ideal.matmul_constant_zero_apply, ← Equiv.sum_comp (contrEquiv1 dot_S512x128_S128x1280_S512x1280_1_0_0_1_n_n 128 rfl rfl).symm]
  refine Finset.sum_congr rfl fun k _ => ?_
  have hk := contrEquiv1_symm_val dot_S512x128_S128x1280_S512x1280_1_0_0_1_n_n 128 rfl rfl k
  have el : dot_S512x128_S128x1280_S512x1280_1_0_0_1_n_n.lhsIdx (ix2 r e) ((contrEquiv1 dot_S512x128_S128x1280_S512x1280_1_0_0_1_n_n 128 rfl rfl).symm k) = ix2 r k := funext fun a => Fin.ext (by
    match a with
    | ⟨0, _⟩ => exact lv_lhsA_0 _ _
    | ⟨1, _⟩ => exact (lv_lhsA_1 _ _).trans hk)
  have er : dot_S512x128_S128x1280_S512x1280_1_0_0_1_n_n.rhsIdx (ix2 r e) ((contrEquiv1 dot_S512x128_S128x1280_S512x1280_1_0_0_1_n_n 128 rfl rfl).symm k) = ix2 k e := funext fun a => Fin.ext (by
    match a with
    | ⟨0, _⟩ => exact (lv_rhsA_0 _ _).trans hk
    | ⟨1, _⟩ => exact lv_rhsA_1 _ _)
  rw [el, er]

/-- The second contraction into a zero accumulator: row `r` of the signs against row `k` of the prototypes. -/
theorem lv_matB_apply (s : FVec Ideal S512x1280 .f32) (p : FVec Ideal S3x1280 .f32) (r : Fin 512) (k : Fin 3) :
    matmul dot_S512x1280_S3x1280_S512x3_1_1_0_0_n_n (some .fp32) s p (constant (F := Ideal) S512x3 .f32 0x00000000#32) (ix2 r k)
      = ∑ e : Fin 1280, s (ix2 r e) * p (ix2 k e) := by
  simp only [matmul]
  rw [Ideal.matmul_constant_zero_apply, ← Equiv.sum_comp (contrEquiv1 dot_S512x1280_S3x1280_S512x3_1_1_0_0_n_n 1280 rfl rfl).symm]
  refine Finset.sum_congr rfl fun e _ => ?_
  have hk := contrEquiv1_symm_val dot_S512x1280_S3x1280_S512x3_1_1_0_0_n_n 1280 rfl rfl e
  have el : dot_S512x1280_S3x1280_S512x3_1_1_0_0_n_n.lhsIdx (ix2 r k) ((contrEquiv1 dot_S512x1280_S3x1280_S512x3_1_1_0_0_n_n 1280 rfl rfl).symm e) = ix2 r e := funext fun a => Fin.ext (by
    match a with
    | ⟨0, _⟩ => exact lv_lhsB_0 _ _
    | ⟨1, _⟩ => exact (lv_lhsB_1 _ _).trans hk)
  have er : dot_S512x1280_S3x1280_S512x3_1_1_0_0_n_n.rhsIdx (ix2 r k) ((contrEquiv1 dot_S512x1280_S3x1280_S512x3_1_1_0_0_n_n 1280 rfl rfl).symm e) = ix2 k e := funext fun a => Fin.ext (by
    match a with
    | ⟨0, _⟩ => exact lv_rhsB_0 _ _
    | ⟨1, _⟩ => exact (lv_rhsB_1 _ _).trans hk)
  rw [el, er]

/-- One chunk's step at an index: what the accumulator held plus the chunk's 1280 columns' signs against the prototype row. -/
theorem lv_pay2_apply (x : Vec Ideal S512x128 .f32) (f : Vec Ideal S128x1280 .f32) (p : Vec Ideal S3x1280 .f32)
    (a : Vec Ideal S512x3 .f32) (r : Fin 512) (k : Fin 3) :
    k1_pay2 (F := Ideal) x f p a (ix2 r k)
      = a (ix2 r k) + ∑ e : Fin 1280, Cert.Hd.sgn (∑ cc : Fin 128, x (ix2 r cc) * f (ix2 cc e)) * p (ix2 k e) := by
  unfold k1_pay2
  simp only [shapeCast_self]
  rw [addf_apply, lv_matB_apply]
  refine congrArg (a (ix2 r k) + ·) (Finset.sum_congr rfl fun e _ => ?_)
  rw [select_apply, cmpf_apply, lv_matA_apply]
  rfl

/-- The reset value at an index: zero. -/
theorem lv_pay1_apply (r : Fin 512) (k : Fin 3) : k1_pay1 (F := Ideal) (ix2 r k) = 0 := by
  unfold k1_pay1
  simp only [shapeCast_self]
  exact Ideal.ofBits_zero_f32

/-! ## The windows' blocks at an index -/

variable (V : (c : Dev nD) → (b : Ref sig .tc) → Buf (Elt Ideal) ((c : Thread nD τ).loc b))

/-- The block indices over the grid: the sample tile is the point over 8, the column chunk the point modulo 8. -/
theorem lv_idx : ∀ t : Fin cfg1.N,
    win1_0.index t 0 = t.val / 8 ∧ win1_0.index t 1 = 0 ∧ win1_1.index t 0 = 0 ∧ win1_1.index t 1 = t.val % 8
      ∧ win1_2.index t 0 = 0 ∧ win1_2.index t 1 = t.val % 8 ∧ win1_3.index t 0 = t.val / 8 ∧ win1_3.index t 1 = 0 :=
  (by decide +kernel : ∀ t : Fin grid1.N,
    win1_0.index t 0 = t.val / 8 ∧ win1_0.index t 1 = 0 ∧ win1_1.index t 0 = 0 ∧ win1_1.index t 1 = t.val % 8
      ∧ win1_2.index t 0 = 0 ∧ win1_2.index t 1 = t.val % 8 ∧ win1_3.index t 0 = t.val / 8 ∧ win1_3.index t 1 = 0)

/-- The features' block at point `t`: rows `512 (t / 8) + r` of the features. -/
theorem lv_blk0_apply (c : Dev nD) (ft : FVec Ideal S16384x128 .f32) (hft : V c main_arg0 = ft) (t : Fin cfg1.N)
    (r : Fin 512) (cc : Fin 128) (n : Fin 16384) (hn : n.val = t.val / 8 * 512 + r.val) :
    (lblk V c 0 t : Vec Ideal S512x128 .f32) (ix2 r cc) = ft (ix2 n cc) := by
  have hi := lv_idx t
  unfold lblk
  rw [View.read_apply]
  show V c main_arg0 _ = ft _
  rw [hft]
  congr 1
  funext a
  apply Fin.ext
  match a with
  | ⟨0, _⟩ => show win1_0.index t 0 * 512 + 1 * r.val = n.val; rw [hi.1, hn]; omega
  | ⟨1, _⟩ => show win1_0.index t 1 * 128 + 1 * cc.val = cc.val; rw [hi.2.1]; omega

/-- The projection's block at point `t`: columns `1280 (t % 8) + e`. -/
theorem lv_blk1_apply (c : Dev nD) (pp : FVec Ideal S128x10240 .f32) (hpp : V c main_v2 = pp) (t : Fin cfg1.N)
    (cc : Fin 128) (e : Fin 1280) (col : Fin 10240) (hcol : col.val = t.val % 8 * 1280 + e.val) :
    (lblk V c 1 t : Vec Ideal S128x1280 .f32) (ix2 cc e) = pp (ix2 cc col) := by
  have hi := lv_idx t
  unfold lblk
  rw [View.read_apply]
  show V c main_v2 _ = pp _
  rw [hpp]
  congr 1
  funext a
  apply Fin.ext
  match a with
  | ⟨0, _⟩ => show win1_1.index t 0 * 128 + 1 * cc.val = cc.val; rw [hi.2.2.1]; omega
  | ⟨1, _⟩ => show win1_1.index t 1 * 1280 + 1 * e.val = col.val; rw [hi.2.2.2.1, hcol]; omega

/-- The prototypes' block at point `t`: columns `1280 (t % 8) + e`. -/
theorem lv_blk2_apply (c : Dev nD) (pr : FVec Ideal S3x10240 .f32) (hpr : V c main_v14 = pr) (t : Fin cfg1.N)
    (k : Fin 3) (e : Fin 1280) (col : Fin 10240) (hcol : col.val = t.val % 8 * 1280 + e.val) :
    (lblk V c 2 t : Vec Ideal S3x1280 .f32) (ix2 k e) = pr (ix2 k col) := by
  have hi := lv_idx t
  unfold lblk
  rw [View.read_apply]
  show V c main_v14 _ = pr _
  rw [hpr]
  congr 1
  funext a
  apply Fin.ext
  match a with
  | ⟨0, _⟩ => show win1_2.index t 0 * 3 + 1 * k.val = k.val; rw [hi.2.2.2.2.1]; omega
  | ⟨1, _⟩ => show win1_2.index t 1 * 1280 + 1 * e.val = col.val; rw [hi.2.2.2.2.2.1, hcol]; omega

/-! ## The accumulator at a last chunk -/

/-- A chunk's step adds the chunk's partial logits (its step over a zero accumulator) to what was there. -/
theorem lv_pay2_split (x : Vec Ideal S512x128 .f32) (f : Vec Ideal S128x1280 .f32) (p : Vec Ideal S3x1280 .f32)
    (a : Vec Ideal S512x3 .f32) (i : S512x3.Idx) :
    k1_pay2 (F := Ideal) x f p a i = a i + k1_pay2 (F := Ideal) x f p (fun _ => (0 : EReal)) i := by
  obtain ⟨r, k, rfl⟩ : ∃ (r : Fin 512) (k : Fin 3), i = ix2 r k := ⟨i 0, i 1, eq_ix2 i⟩
  rw [lv_pay2_apply x f p a, lv_pay2_apply x f p (fun _ => (0 : EReal)), zero_add]

theorem lv_pay1_zero (i : S512x3.Idx) : k1_pay1 (F := Ideal) i = (0 : EReal) := by
  obtain ⟨r, k, rfl⟩ : ∃ (r : Fin 512) (k : Fin 3), i = ix2 r k := ⟨i 0, i 1, eq_ix2 i⟩
  exact lv_pay1_apply r k

/-- Point `n`'s addend: its chunk's partial logits (nothing past the grid). -/
def lv_M (c : Dev nD) (n : ℕ) : S512x3.Idx → EReal := fun i =>
  if h : n < cfg1.N then
    k1_pay2 (F := Ideal) (lblk V c 0 ⟨n, h⟩) (lblk V c 1 ⟨n, h⟩) (lblk V c 2 ⟨n, h⟩) (fun _ => (0 : EReal)) i
  else 0

theorem lv_M_of_lt (c : Dev nD) (n : ℕ) (h : n < cfg1.N) (i : S512x3.Idx) :
    lv_M V c n i = k1_pay2 (F := Ideal) (lblk V c 0 ⟨n, h⟩) (lblk V c 1 ⟨n, h⟩) (lblk V c 2 ⟨n, h⟩) (fun _ => (0 : EReal)) i := by
  unfold lv_M; rw [dif_pos h]

/-- At a last chunk the accumulator holds the sum of the eight addends of its sample tile's points. -/
theorem lv_acc_last (c : Dev nD) (t : Fin cfg1.N) (ht : t.val % 8 = 7) (i : S512x3.Idx) :
    (laccAt V c t.val t.isLt : Vec Ideal S512x3 .f32) i = ∑ s ∈ Finset.range 8, lv_M V c (8 * (t.val / 8) + s) i := by
  have h' : 8 * (t.val / 8) + t.val % 8 < cfg1.N := by rw [Nat.div_add_mod]; exact t.isLt
  have e1 := Pipeline.eq_accAt_of_mod (N := cfg1.N) (laccAt V c) 8
    (fun n h => k1_pay2 (F := Ideal) (lblk V c 0 ⟨n, h⟩) (lblk V c 1 ⟨n, h⟩) (lblk V c 2 ⟨n, h⟩) (k1_pay1 (F := Ideal)))
    (fun n h acc => k1_pay2 (F := Ideal) (lblk V c 0 ⟨n, h⟩) (lblk V c 1 ⟨n, h⟩) (lblk V c 2 ⟨n, h⟩) acc)
    (fun n h hm => laccAt_first V c ⟨n, h⟩ hm)
    (fun n h hne => laccAt_next V c ⟨n + 1, h⟩ hne)
    (by decide) t.val t.isLt h'
  have e2 := Pipeline.accAt_add_apply (N := cfg1.N) (ι := S512x3.Idx) (β := EReal)
    (fun n h => k1_pay2 (F := Ideal) (lblk V c 0 ⟨n, h⟩) (lblk V c 1 ⟨n, h⟩) (lblk V c 2 ⟨n, h⟩) (k1_pay1 (F := Ideal)))
    (fun n h acc => k1_pay2 (F := Ideal) (lblk V c 0 ⟨n, h⟩) (lblk V c 1 ⟨n, h⟩) (lblk V c 2 ⟨n, h⟩) acc)
    (fun _ => 0) (lv_M V c) (8 * (t.val / 8)) 7
    (fun h j => by rw [lv_pay2_split, lv_pay1_zero, lv_M_of_lt V c _ h])
    (fun n h acc j _ _ => by rw [lv_pay2_split, lv_M_of_lt V c _ h])
    (t.val % 8) (by omega) h' i
  rw [e1, e2, ht, zero_add]

/-- The same over the eight chunks. -/
theorem lv_acc_last_fin (c : Dev nD) (t : Fin cfg1.N) (ht : t.val % 8 = 7) (i : S512x3.Idx) :
    (laccAt V c t.val t.isLt : Vec Ideal S512x3 .f32) i = ∑ j : Fin 8, lv_M V c (8 * (t.val / 8) + j.val) i := by
  rw [lv_acc_last V c t ht i, Finset.sum_range]

/-! ## From the blocks to the array -/

/-- The target: for sample `i 0` and class `i 1`, the sum over the chunks and a chunk's columns. -/
def lv_G (ft : FVec Ideal S16384x128 .f32) (pp : FVec Ideal S128x10240 .f32) (pr : FVec Ideal S3x10240 .f32) :
    FVec Ideal S16384x3 .f32 := fun i =>
  ∑ j : Fin 8, ∑ e : Fin 1280,
    Cert.Hd.sgn (∑ cc : Fin 128, ft (ix2 (⟨(i 0).val, idx2_lt0 i⟩ : Fin 16384) cc) * pp (ix2 cc (colOf j e)))
      * pr (ix2 (⟨(i 1).val, idx2_lt1 i⟩ : Fin 3) (colOf j e))

theorem lv_G_apply (ft : FVec Ideal S16384x128 .f32) (pp : FVec Ideal S128x10240 .f32) (pr : FVec Ideal S3x10240 .f32)
    (n : Fin 16384) (k : Fin 3) :
    lv_G ft pp pr (ix2 n k) = ∑ j : Fin 8, ∑ e : Fin 1280,
      Cert.Hd.sgn (∑ cc : Fin 128, ft (ix2 n cc) * pp (ix2 cc (colOf j e))) * pr (ix2 k (colOf j e)) := rfl

/-- The addend of chunk `j` of sample tile `q`, at row `r` and class `k`, read off the arrays. -/
theorem lv_M_apply (c : Dev nD) (ft : FVec Ideal S16384x128 .f32) (hft : V c main_arg0 = ft)
    (pp : FVec Ideal S128x10240 .f32) (hpp : V c main_v2 = pp) (pr : FVec Ideal S3x10240 .f32) (hpr : V c main_v14 = pr)
    (q : ℕ) (hq : q < 32) (j : Fin 8) (r : Fin 512) (k : Fin 3) (n : Fin 16384) (hn : n.val = q * 512 + r.val) :
    lv_M V c (8 * q + j.val) (ix2 r k)
      = ∑ e : Fin 1280, Cert.Hd.sgn (∑ cc : Fin 128, ft (ix2 n cc) * pp (ix2 cc (colOf j e))) * pr (ix2 k (colOf j e)) := by
  have hN : cfg1.N = 256 := N_1
  have hj := j.isLt
  have hlt : 8 * q + j.val < cfg1.N := by rw [hN]; omega
  have hd : (8 * q + j.val) / 8 = q := by omega
  have hm : (8 * q + j.val) % 8 = j.val := by omega
  rw [lv_M_of_lt V c _ hlt, lv_pay2_apply, zero_add]
  refine Finset.sum_congr rfl fun e _ => ?_
  have hcol : (colOf j e).val = (⟨8 * q + j.val, hlt⟩ : Fin cfg1.N).val % 8 * 1280 + e.val := by
    show j.val * 1280 + e.val = (8 * q + j.val) % 8 * 1280 + e.val; rw [hm]
  have hrow : n.val = (⟨8 * q + j.val, hlt⟩ : Fin cfg1.N).val / 8 * 512 + r.val := by
    show n.val = (8 * q + j.val) / 8 * 512 + r.val; rw [hd, hn]
  rw [lv_blk2_apply V c pr hpr ⟨8 * q + j.val, hlt⟩ k e (colOf j e) hcol]
  refine congrArg (fun z => Cert.Hd.sgn z * pr (ix2 k (colOf j e))) (Finset.sum_congr rfl fun cc _ => ?_)
  rw [lv_blk0_apply V c ft hft ⟨8 * q + j.val, hlt⟩ r cc n hrow, lv_blk1_apply V c pp hpp ⟨8 * q + j.val, hlt⟩ cc e (colOf j e) hcol]

/-- What a last chunk writes back is its block of the target. -/
theorem lv_flushed_eq (c : Dev nD) (ft : FVec Ideal S16384x128 .f32) (hft : V c main_arg0 = ft)
    (pp : FVec Ideal S128x10240 .f32) (hpp : V c main_v2 = pp) (pr : FVec Ideal S3x10240 .f32) (hpr : V c main_v14 = pr)
    (t : Fin cfg1.N) (hf : (cfg1.win 3).flush t = true) :
    (ldat (F := Ideal) V c).flushed 3 t = ((cfg1.win 3).blk t).view.read (Elt Ideal) (lv_G ft pp pr) := by
  have hN : cfg1.N = 256 := N_1
  have hlt := t.isLt
  have h7 : t.val % 8 = 7 := (flush1_3 t).mp hf
  have hi := lv_idx t
  funext y
  obtain ⟨r, k, rfl⟩ : ∃ (r : Fin 512) (k : Fin 3), y = ix2 r k := ⟨y 0, y 1, eq_ix2 y⟩
  have hr := r.isLt
  have hn : t.val / 8 * 512 + r.val < 16384 := by omega
  show (ldat (F := Ideal) V c).after 3 t (ix2 r k) = _
  rw [lafter_3, lv_acc_last_fin V c t h7, View.read_apply]
  show _ = lv_G ft pp pr _
  have he : ((cfg1.win 3).blk t).view.emb (ix2 r k) = (ix2 (⟨t.val / 8 * 512 + r.val, hn⟩ : Fin 16384) k : S16384x3.Idx) := by
    funext a
    apply Fin.ext
    match a with
    | ⟨0, _⟩ => show win1_3.index t 0 * 512 + 1 * r.val = t.val / 8 * 512 + r.val; rw [hi.2.2.2.2.2.2.1]; omega
    | ⟨1, _⟩ => show win1_3.index t 1 * 3 + 1 * k.val = k.val; rw [hi.2.2.2.2.2.2.2]; omega
  rw [he, lv_G_apply]
  refine Finset.sum_congr rfl fun j _ => ?_
  exact lv_M_apply V c ft hft pp hpp pr hpr (t.val / 8) (by omega) j r k _ rfl

/-- Every entry of the output lies in the block the last chunk of its sample tile writes back. -/
theorem lv_cover (i : S16384x3.Idx) :
    ∃ t : Fin cfg1.N, (cfg1.win 3).flush t = true ∧ i ∈ ((cfg1.win 3).blk t).view.set := by
  have hN : cfg1.N = 256 := N_1
  have h0 : (i 0 : Nat) < 16384 := idx2_lt0 i
  have h1 : (i 1 : Nat) < 3 := idx2_lt1 i
  have hlt : (i 0).val / 512 * 8 + 7 < cfg1.N := by rw [hN]; omega
  have hi := lv_idx ⟨(i 0).val / 512 * 8 + 7, hlt⟩
  refine ⟨⟨(i 0).val / 512 * 8 + 7, hlt⟩, (flush1_3 _).mpr (by show ((i 0).val / 512 * 8 + 7) % 8 = 7; omega), ?_⟩
  show i ∈ ((View.whole main_v15).slice (win1_3.rect ⟨(i 0).val / 512 * 8 + 7, hlt⟩)).set
  rw [View.set_slice_whole, Rect.mem_set_unit]
  intro a
  match a with
  | ⟨0, _⟩ =>
    show win1_3.index ⟨(i 0).val / 512 * 8 + 7, hlt⟩ 0 * 512 ≤ (i 0 : Nat)
      ∧ (i 0 : Nat) < win1_3.index ⟨(i 0).val / 512 * 8 + 7, hlt⟩ 0 * 512 + 512
    rw [hi.2.2.2.2.2.2.1]
    show ((i 0).val / 512 * 8 + 7) / 8 * 512 ≤ (i 0 : Nat) ∧ (i 0 : Nat) < ((i 0).val / 512 * 8 + 7) / 8 * 512 + 512
    omega
  | ⟨1, _⟩ =>
    show win1_3.index ⟨(i 0).val / 512 * 8 + 7, hlt⟩ 1 * 3 ≤ (i 1 : Nat)
      ∧ (i 1 : Nat) < win1_3.index ⟨(i 0).val / 512 * 8 + 7, hlt⟩ 1 * 3 + 3
    rw [hi.2.2.2.2.2.2.2]
    omega

end

/-- The region's output array at `(n, k)`. -/
theorem logit_out (V : (c : Dev nD) → (b : Ref sig .tc) → Buf (Elt Ideal) ((c : Thread nD τ).loc b)) (c : Dev nD)
    (ft : FVec Ideal S16384x128 .f32) (hft : V c main_arg0 = ft)
    (pp : FVec Ideal S128x10240 .f32) (hpp : V c main_v2 = pp)
    (pr : FVec Ideal S3x10240 .f32) (hpr : V c main_v14 = pr)
    (n : Fin 16384) (k : Fin 3) :
    ((ldat (F := Ideal) V c).arrAt 3 cfg1.N : FVec Ideal S16384x3 .f32) (ix2 n k)
      = ∑ j : Fin 8, ∑ e : Fin 1280,
          Cert.Hd.sgn (∑ cc : Fin 128, ft (ix2 n cc) * pp (ix2 cc (colOf j e))) * pr (ix2 k (colOf j e)) := by
  have h := (ldat (F := Ideal) V c).arrAt_eq_of_cover 3 (lv_G ft pp pr)
    (fun t hf => lv_flushed_eq V c ft hft pp hpp pr hpr t hf) (fun i => lv_cover i)
  exact (congrFun h (ix2 n k)).trans (lv_G_apply ft pp pr n k)

end Cert.KernelIdeal.Hand

end
-- ==== Proof.LibBlockSum.lean ====
/-
  Finite sums over a block decomposition of an index range, in any commutative additive monoid.

  `sum_fin_blocks`: a sum over `Fin (a * b)` is the double sum over the `a` blocks and the `b` positions in a
  block, position `r` of block `i` being index `i * b + r`. Two instances spelt with the index arithmetic a tiled
  kernel uses (the samples as core x tile x row, the padded columns as chunk x column), and `sum_fin_pad`: a
  sum over a padded range whose summand vanishes on the padding is the sum over the unpadded range.
-/
import Mathlib.Algebra.BigOperators.Fin
import Mathlib.Algebra.BigOperators.Group.Finset.Basic
import Mathlib.Logic.Equiv.Fin.Basic

open scoped BigOperators

namespace Cert.LibBlockSum

variable {M : Type*} [AddCommMonoid M]

/-- A sum over `Fin (a * b)` by blocks of `b`. -/
theorem sum_fin_blocks (a b : ℕ) (g : Fin (a * b) → M)
    (h : ∀ (i : Fin a) (r : Fin b), i.val * b + r.val < a * b) :
    ∑ n : Fin (a * b), g n = ∑ i : Fin a, ∑ r : Fin b, g ⟨i.val * b + r.val, h i r⟩ := by
  rw [← Equiv.sum_comp finProdFinEquiv g, Fintype.sum_prod_type]
  refine Finset.sum_congr rfl fun i _ => Finset.sum_congr rfl fun r _ => ?_
  refine congrArg g (Fin.ext ?_)
  show r.val + b * i.val = i.val * b + r.val
  rw [Nat.mul_comm, Nat.add_comm]

/-- The same with the range given as `Fin N` for a number `N` equal to `a * b`. -/
theorem sum_fin_blocks_of_eq (N a b : ℕ) (hN : N = a * b) (g : Fin N → M)
    (h : ∀ (i : Fin a) (r : Fin b), i.val * b + r.val < N) :
    ∑ n : Fin N, g n = ∑ i : Fin a, ∑ r : Fin b, g ⟨i.val * b + r.val, h i r⟩ := by
  subst hN
  exact sum_fin_blocks a b g h

/-- The 16384 samples as 2 cores x 16 tiles x 512 rows: sample `(core * 16 + i) * 512 + r`. -/
theorem sum_samples (g : Fin 16384 → M)
    (h : ∀ (core : Fin 2) (i : Fin 16) (r : Fin 512), (core.val * 16 + i.val) * 512 + r.val < 16384) :
    ∑ core : Fin 2, ∑ i : Fin 16, ∑ r : Fin 512, g ⟨(core.val * 16 + i.val) * 512 + r.val, h core i r⟩
      = ∑ n : Fin 16384, g n := by
  have h1 : ∀ (k : Fin 32) (r : Fin 512), k.val * 512 + r.val < 16384 := fun k r => by omega
  have h2 : ∀ (c : Fin 2) (i : Fin 16), c.val * 16 + i.val < 32 := fun c i => by omega
  -- first the 32 blocks of 512, then the 32 blocks as 2 x 16
  exact ((sum_fin_blocks_of_eq 16384 32 512 rfl g h1).trans
    (sum_fin_blocks_of_eq 32 2 16 rfl
      (fun k : Fin 32 => ∑ r : Fin 512, g ⟨k.val * 512 + r.val, h1 k r⟩) h2)).symm

/-- The 10240 padded columns as 8 chunks x 1280 columns: column `j * 1280 + e`. -/
theorem sum_cols (g : Fin 10240 → M)
    (h : ∀ (j : Fin 8) (e : Fin 1280), j.val * 1280 + e.val < 10240) :
    ∑ j : Fin 8, ∑ e : Fin 1280, g ⟨j.val * 1280 + e.val, h j e⟩ = ∑ d : Fin 10240, g d := by
  exact (sum_fin_blocks_of_eq 10240 8 1280 rfl g h).symm

/-- A sum over the padded range `Fin (n + p)` whose summand is `f` below `n` and `0` from `n` on is the sum of
    `f` over `Fin n`. -/
theorem sum_fin_pad (n p : ℕ) (f : Fin n → M) (g : Fin (n + p) → M)
    (hlo : ∀ (d : Fin (n + p)) (hd : d.val < n), g d = f ⟨d.val, hd⟩)
    (hhi : ∀ d : Fin (n + p), ¬ d.val < n → g d = 0) :
    ∑ d : Fin (n + p), g d = ∑ d : Fin n, f d := by
  rw [Fin.sum_univ_add]
  have hz : ∑ i : Fin p, g (Fin.natAdd n i) = 0 :=
    Finset.sum_eq_zero fun i _ => hhi _ (by simp)
  rw [hz, add_zero]
  refine Finset.sum_congr rfl fun i _ => ?_
  rw [hlo (Fin.castAdd p i) (by simp)]
  rfl

end Cert.LibBlockSum
-- ==== Proof.RefValue.lean ====
/-
  The reference at an index: what its generated read-back computes for sample `n` and class `k` is the
  specification's `result` of the four argument arrays read at their coordinates.

  The one operation whose element depends on an operand's values is the class accumulator, a scatter-add of the
  quantised vectors into a zero array at the rows the labels name. Its start index is the label read as a signed
  integer and not clamped, so the update of sample `n`, direction `d'` lands on `(k, d)` exactly when the label is
  the word of `k` and `d' = d`; a label that is negative or at least 3 lands nowhere. Summed, that is the
  specification's `classSum`. Every other operation is read at an index by its generated equation.
-/
import proofs.«421992_j38809324486988_3_alg».proof.Proof.Gen.ReferenceIdeal.Read
import proofs.«421992_j38809324486988_3_alg».proof.Proof.Spec
import Idealize.ShloMosaic.Lib.ValueIdx
import Idealize.ShloMosaic.PureOps.Ideal.Laws
import Idealize.ShloMosaic.Lib.StableHlo.Predicate

noncomputable section

namespace Cert.ReferenceIdeal.RefValue

open Idealize.ShloMosaic Idealize.ShloMosaic.ValueIdx
open Cert.ReferenceIdeal Cert.ReferenceIdeal.Gen Cert.ReferenceIdeal.Read

/-! ## The class accumulator: the scatter-add read at an index -/

/-- On the class axis the window of update `(n, d')` starts at sample `n`'s label, read signed. -/
theorem scatter_start_class (idx : IVec S16384x1 32) (n : Fin 16384) (d' : Fin 10000) :
    scatter_S3x10000_S16384x1_S16384x10000_1_0_0_1.start (ix2 n d') idx 0 = (idx (ix2 n (0 : Fin 1))).toInt := by
  unfold ScatterDims.start
  rw [dif_pos (show (0 : Fin S3x10000.rank) ∈ scatter_S3x10000_S16384x1_S16384x10000_1_0_0_1.scatterDimsToOperandDims from List.mem_singleton.mpr rfl)]
  refine congrArg (fun j => (idx j).toInt) ?_
  funext b; refine Fin.ext ?_
  match b with
  | ⟨0, _⟩ => rfl
  | ⟨1, _⟩ => rfl

/-- On the direction axis every window starts at 0. -/
theorem scatter_start_dir (idx : IVec S16384x1 32) (n : Fin 16384) (d' : Fin 10000) :
    scatter_S3x10000_S16384x1_S16384x10000_1_0_0_1.start (ix2 n d') idx 1 = 0 := by
  unfold ScatterDims.start
  rw [dif_neg (show ¬ (1 : Fin S3x10000.rank) ∈ scatter_S3x10000_S16384x1_S16384x10000_1_0_0_1.scatterDimsToOperandDims by decide)]

/-- The class axis is inserted: the window coordinate there is 0. -/
theorem scatter_window_class (n : Fin 16384) (d' : Fin 10000) :
    scatter_S3x10000_S16384x1_S16384x10000_1_0_0_1.window (ix2 n d') 0 = 0 := by
  unfold ScatterDims.window
  rw [dif_neg (show ¬ (0 : Fin S3x10000.rank) ∈ scatter_S3x10000_S16384x1_S16384x10000_1_0_0_1.sKept by decide)]

/-- On the direction axis the window coordinate of update `(n, d')` is `d'`. -/
theorem scatter_window_dir (n : Fin 16384) (d' : Fin 10000) :
    scatter_S3x10000_S16384x1_S16384x10000_1_0_0_1.window (ix2 n d') 1 = d'.val := by
  unfold ScatterDims.window
  rw [dif_pos (show (1 : Fin S3x10000.rank) ∈ scatter_S3x10000_S16384x1_S16384x10000_1_0_0_1.sKept by decide)]
  rfl

/-- A label read signed is the class number exactly when it is that number's word. -/
theorem label_eq_iff (a : BitVec 32) (k : Fin 3) : a.toInt = (k.val : Int) ↔ a = BitVec.ofNat 32 k.val := by
  have hk : k.val < 2 ^ 31 := by have := k.isLt; omega
  constructor
  · intro h
    apply BitVec.eq_of_toInt_eq
    rw [h, StableHlo.Predicate.toInt_ofNat_small k.val hk]
  · rintro rfl
    exact StableHlo.Predicate.toInt_ofNat_small k.val hk

/-- The update of sample `n`, direction `d'` lands on class `k`, direction `d` exactly when the sample's label is
    `k` and the directions agree. -/
theorem scatter_lands_iff (idx : IVec S16384x1 32) (n : Fin 16384) (d' : Fin 10000) (k : Fin 3) (d : Fin 10000) :
    scatter_S3x10000_S16384x1_S16384x10000_1_0_0_1.resultIdx? (ix2 n d') idx = some (ix2 k d)
      ↔ idx (ix2 n (0 : Fin 1)) = BitVec.ofNat 32 k.val ∧ d' = d := by
  have hs0 := scatter_start_class idx n d'
  have hs1 := scatter_start_dir idx n d'
  have hw0 := scatter_window_class n d'
  have hw1 := scatter_window_dir n d'
  rw [← label_eq_iff]
  unfold ScatterDims.resultIdx?
  by_cases h : ∀ a, 0 ≤ scatter_S3x10000_S16384x1_S16384x10000_1_0_0_1.start (ix2 n d') idx a + scatter_S3x10000_S16384x1_S16384x10000_1_0_0_1.window (ix2 n d') a ∧ scatter_S3x10000_S16384x1_S16384x10000_1_0_0_1.start (ix2 n d') idx a + scatter_S3x10000_S16384x1_S16384x10000_1_0_0_1.window (ix2 n d') a < S3x10000.size a
  · rw [dif_pos h]
    constructor
    · intro e
      have e' := Option.some.inj e
      have e0 : (scatter_S3x10000_S16384x1_S16384x10000_1_0_0_1.start (ix2 n d') idx 0 + scatter_S3x10000_S16384x1_S16384x10000_1_0_0_1.window (ix2 n d') 0).toNat = k.val :=
        congrArg (fun f : S3x10000.Idx => (f 0).val) e'
      have e1 : (scatter_S3x10000_S16384x1_S16384x10000_1_0_0_1.start (ix2 n d') idx 1 + scatter_S3x10000_S16384x1_S16384x10000_1_0_0_1.window (ix2 n d') 1).toNat = d.val :=
        congrArg (fun f : S3x10000.Idx => (f 1).val) e'
      have h0 := (h 0).1
      rw [hs0, hw0] at e0 h0
      rw [hs1, hw1] at e1
      exact ⟨by omega, Fin.ext (by omega)⟩
    · rintro ⟨ht, rfl⟩
      refine congrArg some ?_
      funext a; refine Fin.ext ?_
      match a with
      | ⟨0, _⟩ =>
        show (scatter_S3x10000_S16384x1_S16384x10000_1_0_0_1.start (ix2 n d') idx 0 + scatter_S3x10000_S16384x1_S16384x10000_1_0_0_1.window (ix2 n d') 0).toNat = k.val
        rw [hs0, hw0, ht]; omega
      | ⟨1, _⟩ =>
        show (scatter_S3x10000_S16384x1_S16384x10000_1_0_0_1.start (ix2 n d') idx 1 + scatter_S3x10000_S16384x1_S16384x10000_1_0_0_1.window (ix2 n d') 1).toNat = d'.val
        rw [hs1, hw1]; omega
  · rw [dif_neg h]
    constructor
    · intro e; cases e
    · rintro ⟨ht, rfl⟩
      exfalso; apply h; intro a
      match a with
      | ⟨0, _⟩ =>
        show 0 ≤ scatter_S3x10000_S16384x1_S16384x10000_1_0_0_1.start (ix2 n d') idx 0 + scatter_S3x10000_S16384x1_S16384x10000_1_0_0_1.window (ix2 n d') 0 ∧ scatter_S3x10000_S16384x1_S16384x10000_1_0_0_1.start (ix2 n d') idx 0 + scatter_S3x10000_S16384x1_S16384x10000_1_0_0_1.window (ix2 n d') 0 < (3 : Nat)
        rw [hs0, hw0, ht]; have := k.isLt; omega
      | ⟨1, _⟩ =>
        show 0 ≤ scatter_S3x10000_S16384x1_S16384x10000_1_0_0_1.start (ix2 n d') idx 1 + scatter_S3x10000_S16384x1_S16384x10000_1_0_0_1.window (ix2 n d') 1 ∧ scatter_S3x10000_S16384x1_S16384x10000_1_0_0_1.start (ix2 n d') idx 1 + scatter_S3x10000_S16384x1_S16384x10000_1_0_0_1.window (ix2 n d') 1 < (10000 : Nat)
        rw [hs1, hw1]; have := d'.isLt; omega

/-- The updates landing on class `k`, direction `d`, summed: the samples labelled `k`, each at direction `d`. -/
theorem scatter_sum (idx : IVec S16384x1 32) (upd : S16384x10000.Idx → EReal) (k : Fin 3) (d : Fin 10000) :
    ∑ j ∈ Finset.univ.filter (fun j => scatter_S3x10000_S16384x1_S16384x10000_1_0_0_1.resultIdx? j idx = some (ix2 k d)), upd j
      = ∑ n : Fin 16384, if idx (ix2 n (0 : Fin 1)) = BitVec.ofNat 32 k.val then upd (ix2 n d) else 0 := by
  rw [Finset.sum_filter, sum_idx2]
  refine Finset.sum_congr rfl fun n _ => ?_
  simp only [scatter_lands_iff]
  by_cases hl : idx (ix2 n (0 : Fin 1)) = BitVec.ofNat 32 k.val
  · simp only [hl, true_and, if_true]
    rw [Finset.sum_ite_eq' Finset.univ d (fun d' => upd (ix2 n d'))]
    simp only [Finset.mem_univ, if_true]
  · simp only [hl, false_and, if_false]
    exact Finset.sum_const_zero

/-! ## Where the reference's contractions, reductions and broadcasts read -/

theorem lidx_v0_at (n : Fin 16384) (d : Fin 10000) (c : Fin 128) : lidx_main_v0 (ix2 n d) c = ix2 n c :=
  funext fun a => Fin.ext (by match a with | ⟨0, _⟩ => rfl | ⟨1, _⟩ => rfl)
theorem ridx_v0_at (n : Fin 16384) (d : Fin 10000) (c : Fin 128) : ridx_main_v0 (ix2 n d) c = ix2 d c :=
  funext fun a => Fin.ext (by match a with | ⟨0, _⟩ => rfl | ⟨1, _⟩ => rfl)
theorem lidx_v15_at (n : Fin 16384) (k : Fin 3) (d : Fin 10000) : lidx_main_v15 (ix2 n k) d = ix2 n d :=
  funext fun a => Fin.ext (by match a with | ⟨0, _⟩ => rfl | ⟨1, _⟩ => rfl)
theorem ridx_v15_at (n : Fin 16384) (k : Fin 3) (d : Fin 10000) : ridx_main_v15 (ix2 n k) d = ix2 k d :=
  funext fun a => Fin.ext (by match a with | ⟨0, _⟩ => rfl | ⟨1, _⟩ => rfl)
theorem idx_v13_at (k : Fin 3) (d : Fin 10000) : idx_main_v13 (ix2 k d) = ix2 k (0 : Fin 1) :=
  funext fun a => Fin.ext (by match a with | ⟨0, _⟩ => rfl | ⟨1, _⟩ => rfl)
theorem idx_call1_v2_at (k : Fin 3) : idx_main_call1_v2 (ix2 k (0 : Fin 1)) = ix1 k :=
  funext fun a => Fin.ext (by match a with | ⟨0, _⟩ => rfl)
theorem idx_call1_v1_at (k : Fin 3) (d : Fin 10000) : idx_main_call1_v1 (ix1 k) d = ix2 k d :=
  funext fun a => Fin.ext (by match a with | ⟨0, _⟩ => rfl | ⟨1, _⟩ => rfl)
theorem idx_v5_at (n : Fin 16384) : idx_main_v5 (ix2 n (0 : Fin 1)) = ix1 n :=
  funext fun a => Fin.ext (by match a with | ⟨0, _⟩ => rfl)

/-! ## The stages -/

/-- The quantised projection of sample `n` on direction `d`. -/
theorem quant_at (x0 : (⟨S16384x128, .f32⟩ : BufTy).Contents (Elt Ideal)) (x1 : (⟨S10000x128, .f32⟩ : BufTy).Contents (Elt Ideal)) (n : Fin 16384) (d : Fin 10000) :
    val_main_v3 (F := Ideal) x0 x1 (ix2 n d) = (Cert.Hd.quant (fun n c => x0 (ix2 n c)) (fun d c => x1 (ix2 d c))) n d := by
  rw [val_main_v3_apply, val_main_v2_apply, val_main_v0_apply, val_main_v1_apply, val_main_cst_apply,
    val_main_call0_v0_apply, val_main_cst_0_apply, val_main_call0_v1_apply, val_main_cst_1_apply]
  simp only [lidx_v0_at, ridx_v0_at]
  rfl

/-- The class accumulator at class `k`, direction `d`: the scatter adds to zero the quantised vectors of the
    samples labelled `k`. -/
theorem classSum_at (x0 : (⟨S16384x128, .f32⟩ : BufTy).Contents (Elt Ideal)) (x1 : (⟨S10000x128, .f32⟩ : BufTy).Contents (Elt Ideal)) (x3 : (⟨S16384, .i32⟩ : BufTy).Contents (Elt Ideal)) (k : Fin 3) (d : Fin 10000) :
    val_main_v6 (F := Ideal) x0 x1 x3 (ix2 k d) = (Cert.Hd.classSum (Cert.Hd.quant (fun n c => x0 (ix2 n c)) (fun d c => x1 (ix2 d c))) (fun n => x3 (ix1 n))) k d := by
  unfold val_main_v6
  have hq : ∀ (n : Fin 16384) (d : Fin 10000), val_main_v3 (F := Ideal) x0 x1 (ix2 n d) = (Cert.Hd.quant (fun n c => x0 (ix2 n c)) (fun d c => x1 (ix2 d c))) n d := quant_at x0 x1
  generalize val_main_v3 (F := Ideal) x0 x1 = y3 at hq ⊢
  simp only [Host.scatterAdd, Ideal.hostScatterAdd_def]
  unfold Ideal.hostScatterAdd
  rw [scatter_sum, val_main_v4_apply, val_main_cst_2_apply, Ideal.ofBits_def, Ideal.ofBits_zero_f32, zero_add]
  unfold Cert.Hd.classSum
  refine Finset.sum_congr rfl fun n _ => ?_
  rw [val_main_v5_apply, idx_v5_at, hq]

/-- The updated class weights. -/
theorem upd_at (x0 : (⟨S16384x128, .f32⟩ : BufTy).Contents (Elt Ideal)) (x1 : (⟨S10000x128, .f32⟩ : BufTy).Contents (Elt Ideal)) (x2 : (⟨S3x10000, .f32⟩ : BufTy).Contents (Elt Ideal)) (x3 : (⟨S16384, .i32⟩ : BufTy).Contents (Elt Ideal)) (k : Fin 3) (d : Fin 10000) :
    val_main_v9 (F := Ideal) x0 x1 x2 x3 (ix2 k d) = Cert.Hd.upd (fun k d => x2 (ix2 k d)) (Cert.Hd.classSum (Cert.Hd.quant (fun n c => x0 (ix2 n c)) (fun d c => x1 (ix2 d c))) (fun n => x3 (ix1 n))) k d := by
  rw [val_main_v9_apply, val_main_v8_apply, val_main_v7_apply, val_main_cst_3_apply, classSum_at]
  rfl

/-- The floored norm of row `k` of the updated weights. -/
theorem den_at (x0 : (⟨S16384x128, .f32⟩ : BufTy).Contents (Elt Ideal)) (x1 : (⟨S10000x128, .f32⟩ : BufTy).Contents (Elt Ideal)) (x2 : (⟨S3x10000, .f32⟩ : BufTy).Contents (Elt Ideal)) (x3 : (⟨S16384, .i32⟩ : BufTy).Contents (Elt Ideal)) (k : Fin 3) :
    val_main_v12 (F := Ideal) x0 x1 x2 x3 (ix2 k (0 : Fin 1)) = Cert.Hd.den (Cert.Hd.upd (fun k d => x2 (ix2 k d)) (Cert.Hd.classSum (Cert.Hd.quant (fun n c => x0 (ix2 n c)) (fun d c => x1 (ix2 d c))) (fun n => x3 (ix1 n)))) k := by
  rw [val_main_v12_apply, val_main_v10_apply, val_main_call1_v2_apply, idx_call1_v2_at, val_main_call1_v1_apply,
    val_main_call1_cst_apply, val_main_v11_apply, val_main_cst_4_apply]
  simp only [idx_call1_v1_at, val_main_call1_v0_apply, upd_at]
  rfl

/-- The prototypes. -/
theorem proto_at (x0 : (⟨S16384x128, .f32⟩ : BufTy).Contents (Elt Ideal)) (x1 : (⟨S10000x128, .f32⟩ : BufTy).Contents (Elt Ideal)) (x2 : (⟨S3x10000, .f32⟩ : BufTy).Contents (Elt Ideal)) (x3 : (⟨S16384, .i32⟩ : BufTy).Contents (Elt Ideal)) (k : Fin 3) (d : Fin 10000) :
    val_main_v14 (F := Ideal) x0 x1 x2 x3 (ix2 k d) = Cert.Hd.proto (fun k d => x2 (ix2 k d)) (Cert.Hd.classSum (Cert.Hd.quant (fun n c => x0 (ix2 n c)) (fun d c => x1 (ix2 d c))) (fun n => x3 (ix1 n))) k d := by
  rw [val_main_v14_apply, val_main_v13_apply, idx_v13_at, den_at, upd_at]
  rfl

/-- The reference's result at `(n, k)`. -/
theorem ref_result (x0 : (⟨S16384x128, .f32⟩ : BufTy).Contents (Elt Ideal)) (x1 : (⟨S10000x128, .f32⟩ : BufTy).Contents (Elt Ideal))
    (x2 : (⟨S3x10000, .f32⟩ : BufTy).Contents (Elt Ideal)) (x3 : (⟨S16384, .i32⟩ : BufTy).Contents (Elt Ideal))
    (n : Fin 16384) (k : Fin 3) :
    val_main_v17 (F := Ideal) x0 x1 x2 x3 (ix2 n k)
      = Cert.Hd.result (fun n c => x0 (ix2 n c)) (fun d c => x1 (ix2 d c)) (fun k d => x2 (ix2 k d)) (fun n => x3 (ix1 n)) n k := by
  rw [val_main_v17_apply, val_main_v15_apply, val_main_v16_apply, val_main_cst_5_apply]
  simp only [lidx_v15_at, ridx_v15_at, quant_at, proto_at]
  rfl

end Cert.ReferenceIdeal.RefValue

end
-- ==== Proof.Bridge.lean ====
/-
  The two sides meet. The kernel's program's result array, read through its host operations and its two regions'
  tile sums, is the specification's `Cert.Hd.result` of the four inputs at every index; so is the reference's
  read-back; hence the two result arrays are equal.

  The sums: a core's 16 tiles of 512 samples, over the two cores, are all 16384 samples; the one-hot entry times
  a sign is the sign where the label is the class and 0 elsewhere; the 8 chunks of 1280 columns are the 10240
  padded columns, of which the last 240 carry a zero prototype entry and drop out.
-/
import proofs.«421992_j38809324486988_3_alg».proof.Proof.HostValue
import proofs.«421992_j38809324486988_3_alg».proof.Proof.ClassValue
import proofs.«421992_j38809324486988_3_alg».proof.Proof.LogitValue
import proofs.«421992_j38809324486988_3_alg».proof.Proof.LibBlockSum
import proofs.«421992_j38809324486988_3_alg».proof.Proof.RefValue
import proofs.«421992_j38809324486988_3_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The four inputs as the specification takes them. -/
abbrev inFeat (c : Dev nD) : Fin 16384 → Fin 128 → EReal := fun n cc => argFeat m c (ix2 n cc)
abbrev inProj (c : Dev nD) : Fin 10000 → Fin 128 → EReal := fun d cc => argProj m c (ix2 d cc)
abbrev inCw (c : Dev nD) : Fin 3 → Fin 10000 → EReal := fun k d => argCw m c (ix2 k d)
abbrev inLab (c : Dev nD) : Fin 16384 → BitVec 32 := fun n => argLab m c (ix1 n)

/-- The padded projection, the one-hot labels and the padded prototypes as typed arrays. -/
abbrev projPad (c : Dev nD) : FVec Ideal S128x10240 .f32 := cin m c main_v2
abbrev onehot (c : Dev nD) : FVec Ideal S16384x3 .bf16 := cin m c main_v0
abbrev protoPad (c : Dev nD) : FVec Ideal S3x10240 .f32 := lin m c main_v14

/-- At a real column the sign of the projection on the padded matrix's column is the specification's. -/
theorem sgn_col (c : Dev nD) (n : Fin 16384) (d : Fin 10240) (h : d.val < 10000) :
    Cert.Hd.sgn (∑ cc : Fin 128, argFeat m c (ix2 n cc) * projPad m c (ix2 cc d))
      = Cert.Hd.quant (inFeat m c) (inProj m c) n (unpad d h) := by
  unfold Cert.Hd.quant Cert.Hd.proj
  refine congrArg Cert.Hd.sgn (Finset.sum_congr rfl fun cc _ => ?_)
  show _ * (cin m c main_v2 : FVec Ideal S128x10240 .f32) (ix2 cc d) = _
  rw [cin_proj, dif_pos h]

/-- The class accumulator the host forms from the first region's output is the specification's class sum. -/
theorem hostClassSum_eq (c : Dev nD) (k : Fin 3) (d : Fin 10000) :
    hostClassSum m c k d = Cert.Hd.classSum (Cert.Hd.quant (inFeat m c) (inProj m c)) (inLab m c) k d := by
  have hd : (padc d).val < 10000 := d.isLt
  have hco : ∀ core : Fin 2, coutArr m c (ix3 core k (padc d))
      = ∑ i : Fin 16, ∑ r : Fin 512,
          (if inLab m c (sampleOf core i r) = BitVec.ofNat 32 k.val then
            Cert.Hd.quant (inFeat m c) (inProj m c) (sampleOf core i r) d else 0) := fun core => by
    refine Eq.trans (show coutArr m c (ix3 core k (padc d))
        = ∑ i : Fin 16, ∑ r : Fin 512, onehot m c (ix2 (sampleOf core i r) k)
            * Cert.Hd.sgn (∑ cc : Fin 128, argFeat m c (ix2 (sampleOf core i r) cc) * projPad m c (ix2 cc (padc d)))
      from class_out (cin m) c (argFeat m c) (cin_feat m c) (projPad m c) rfl (onehot m c) rfl core k (padc d)) ?_
    refine Finset.sum_congr rfl fun i _ => Finset.sum_congr rfl fun r _ => ?_
    dsimp only [onehot]
    rw [cin_onehot, sgn_col m c _ (padc d) hd]
    show _ * Cert.Hd.quant (inFeat m c) (inProj m c) (sampleOf core i r) d = _
    by_cases hl : argLab m c (ix1 (sampleOf core i r)) = BitVec.ofNat 32 k.val
    · rw [if_pos hl, if_pos hl, one_mul]
    · rw [if_neg hl, if_neg hl, zero_mul]
  unfold hostClassSum Cert.Hd.classSum
  rw [show (Cert.Hd.w0 : EReal) = 0 from Ideal.ofBits_zero_f32, zero_add]
  simp only [hco]
  exact Cert.LibBlockSum.sum_samples
    (fun n => if inLab m c n = BitVec.ofNat 32 k.val then Cert.Hd.quant (inFeat m c) (inProj m c) n d else 0)
    (fun core i r => (sampleOf core i r).isLt)

/-- The program's result at `(n, k)` is the specification's. -/
theorem kernel_result (c : Dev nD) (n : Fin 16384) (k : Fin 3) :
    (Gen.V10 m (outsB m) c main_v17 : FVec Ideal S16384x3 .f32) (ix2 n k)
      = Cert.Hd.result (inFeat m c) (inProj m c) (inCw m c) (inLab m c) n k := by
  rw [final_logit]
  unfold Cert.Hd.result Cert.Hd.logit
  refine congrArg (fun x => Ideal.div x Cert.Hd.w1) ?_
  refine Eq.trans (show loutArr m c (ix2 n k)
      = ∑ j : Fin 8, ∑ e : Fin 1280,
          Cert.Hd.sgn (∑ cc : Fin 128, argFeat m c (ix2 n cc) * projPad m c (ix2 cc (colOf j e))) * protoPad m c (ix2 k (colOf j e))
    from logit_out (lin m) c (argFeat m c) (lin_feat m c) (projPad m c) (lin_proj m c) (protoPad m c) rfl n k) ?_
  refine (Cert.LibBlockSum.sum_cols
    (fun d : Fin 10240 => Cert.Hd.sgn (∑ cc : Fin 128, argFeat m c (ix2 n cc) * projPad m c (ix2 cc d))
      * protoPad m c (ix2 k d))
    (fun j e => (colOf j e).isLt)).trans ?_
  refine Cert.LibBlockSum.sum_fin_pad 10000 240
    (fun d => Cert.Hd.quant (inFeat m c) (inProj m c) n d
      * Cert.Hd.proto (inCw m c) (Cert.Hd.classSum (Cert.Hd.quant (inFeat m c) (inProj m c)) (inLab m c)) k d)
    _ (fun d hd => ?_) (fun d hd => ?_)
  · show Cert.Hd.sgn _ * (lin m c main_v14 : FVec Ideal S3x10240 .f32) (ix2 k d) = _
    rw [sgn_col m c n d hd, lin_proto, dif_pos hd,
      show hostClassSum m c = Cert.Hd.classSum (Cert.Hd.quant (inFeat m c) (inProj m c)) (inLab m c) from
        funext fun k => funext fun d => hostClassSum_eq m c k d]
  · show Cert.Hd.sgn _ * (lin m c main_v14 : FVec Ideal S3x10240 .f32) (ix2 k d) = _
    rw [lin_proto, dif_neg hd, mul_zero]

/-- The reference's read-back of the same inputs is the kernel's program's result array. -/
theorem reference_eq_kernel (c : Dev nD) :
    Cert.ReferenceIdeal.Read.val_main_v17 (F := Ideal) (argFeat m c) (argProj m c) (argCw m c) (argLab m c)
      = (Gen.V10 m (outsB m) c main_v17 : FVec Ideal S16384x3 .f32) := by
  funext i
  obtain ⟨n, k, rfl⟩ : ∃ (n : Fin 16384) (k : Fin 3), i = ix2 n k := ⟨i 0, i 1, eq_ix2 i⟩
  rw [Cert.ReferenceIdeal.RefValue.ref_result, kernel_result m c n k]

end Cert.KernelIdeal.Hand

end
-- ==== Proof.lean ====
/-
  The certificate: the kernel's program (hyperdimensional class prototypes: project, quantise to signs,
  accumulate per class, normalise, score) computes, at the ideal instance, the same logits as the reference.

  Both programs are read down to one function of the four inputs (`Cert.Hd.result`, Proof/Spec.lean): the
  reference through its generated read-back (Proof/RefValue.lean); the kernel's program through its run
  (Proof/WholeRun.lean: two pipelined regions, each keeping an accumulator across grid points, between host
  operations), the two regions' output arrays as sums over their tiles (Proof/ClassValue.lean,
  Proof/LogitValue.lean), the host operations at an index (Proof/HostValue.lean) and the tiles' sums put
  together (Proof/Bridge.lean). The kernel pads the 10000 directions to 10240 with zero columns of the projection:
  there the projection is 0, its sign +1, and the padded prototype entry 0, so the padding adds nothing; labels
  outside the three classes add nothing on either side. The frames are the same run with the results dropped
  (the word-level program's over its own copy of the run's modules); nothing was rewritten by the ideal pass,
  so `preserves` is trivial.
-/
import proofs.«421992_j38809324486988_3_alg».proof.Defs
import proofs.«421992_j38809324486988_3_alg».proof.Proof.Gen.Kernel
import proofs.«421992_j38809324486988_3_alg».proof.Proof.Gen.KernelIdeal
import proofs.«421992_j38809324486988_3_alg».proof.Proof.Gen.ReferenceIdeal
import proofs.«421992_j38809324486988_3_alg».proof.Proof.Gen.Pre_finite_inputs
import proofs.«421992_j38809324486988_3_alg».proof.Proof.Gen.ReferenceIdeal.Run
import proofs.«421992_j38809324486988_3_alg».proof.Proof.KernelBits.WholeRun
import proofs.«421992_j38809324486988_3_alg».proof.Proof.WholeRun
import proofs.«421992_j38809324486988_3_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Hand.frame (F := Bits) m ρ

/-- So does the idealized one. -/
theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the logits `Cert.Hd.result` of the four inputs. -/
theorem algebraic : Cert.algebraic_KernelIdeal_ReferenceIdeal := by
  intro m ρ m' ρ' _ hagree
  refine ⟨fun c => Cert.KernelIdeal.Gen.V10 m (Cert.KernelIdeal.Hand.outsB m) c Cert.KernelIdeal.main_v17, ?_, ?_⟩
  · refine (θ_run Cert.KernelIdeal.defs _ _).mono (fun _ h c => ⟨?_, ?_, ?_, ?_, ?_⟩) (Cert.KernelIdeal.Hand.whole_run (F := Ideal) m ρ)
    · exact h c _ (Cert.KernelIdeal.Hand.mem_uc Cert.KernelIdeal.main_v17 (by decide))
    · exact (h c _ (Cert.KernelIdeal.Hand.mem_uc Cert.KernelIdeal.main_arg0 (by decide))).trans (Cert.KernelIdeal.Gen.V10_main_arg0 m _ c)
    · exact (h c _ (Cert.KernelIdeal.Hand.mem_uc Cert.KernelIdeal.main_arg1 (by decide))).trans (Cert.KernelIdeal.Gen.V10_main_arg1 m _ c)
    · exact (h c _ (Cert.KernelIdeal.Hand.mem_uc Cert.KernelIdeal.main_arg2 (by decide))).trans (Cert.KernelIdeal.Gen.V10_main_arg2 m _ c)
    · exact (h c _ (Cert.KernelIdeal.Hand.mem_uc Cert.KernelIdeal.main_arg3 (by decide))).trans (Cert.KernelIdeal.Gen.V10_main_arg3 m _ c)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.KernelIdeal.Hand.reference_eq_kernel m c

/-- The claim: the three frames, the (empty) idealization ledger, and the equality of the results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
